-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg2 : IVec S8192 32) (main_v15 : IVec S_ 1) (main_c_5 : IVec S_ 32) : IVec S_ 1 :=
  let main_v16 : IVec S8192 32 := broadcastInDim S8192 ![] bcast_S_S8192 main_c_5
  let main_v17 : IVec S8192 1 := cmpi .sge main_arg2 main_v16
  let main_c_6 : IVec S_ 32 := constantI S_ 32 8192#32
  let main_v18 : IVec S8192 32 := broadcastInDim S8192 ![] bcast_S_S8192 main_c_6
  let main_v19 : IVec S8192 1 := cmpi .slt main_arg2 main_v18
  let main_v20 : IVec S8192 1 := andi main_v17 main_v19
  let main_c_7 : IVec S_ 1 := constantI S_ 1 1#1
  let main_v21 : IVec S_ 1 := (fun x v => Host.reduce IntOp.andi x v reducesTo_S8192_S_d0 h_S_) main_v20 main_c_7
  let main_v22 : IVec S_ 1 := andi main_v15 main_v21
  main_v22

def fn {F : FTy → Type} [FloatOps F] (main_arg0 : FVec F S8192x128 .f32) (main_arg1 : FVec F S8192x128 .f32) (main_arg2 : IVec S8192 32) (main_arg3 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg3 main_v9
  let main_c_3 : IVec S_ 32 := constantI S_ 32 8192#32
  let main_v11 : IVec S8192 32 := broadcastInDim S8192 ![] bcast_S_S8192 main_c_3
  let main_v12 : IVec S8192 1 := cmpi .slt main_arg3 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 90
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x128, .f32⟩
  | .hbm, ⟨24, _⟩ => ⟨S8192x128, .i1⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192, .i1⟩
  | .hbm, ⟨32, _⟩ => ⟨S8192, .i1⟩
  | .hbm, ⟨33, _⟩ => ⟨S8192, .i1⟩
  | .hbm, ⟨34, _⟩ => ⟨S8192, .i1⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S1, .i32⟩
  | .hbm, ⟨58, _⟩ => ⟨S_, .i32⟩
  | .hbm, ⟨59, _⟩ => ⟨S8192x1, .i32⟩
  | .hbm, ⟨60, _⟩ => ⟨S8192x1, .i1⟩
  | .hbm, ⟨61, _⟩ => ⟨S1x1, .i32⟩
  | .hbm, ⟨62, _⟩ => ⟨S8192x1, .i32⟩
  | .hbm, ⟨63, _⟩ => ⟨S8192x1, .i1⟩
  | .hbm, ⟨64, _⟩ => ⟨S8192x1, .i1⟩
  | .hbm, ⟨65, _⟩ => ⟨S_, .i1⟩
  | .hbm, ⟨66, _⟩ => ⟨S8192, .i1⟩
  | .hbm, ⟨67, _⟩ => ⟨S8192x128, .f32⟩
  | .hbm, ⟨68, _⟩ => ⟨S8192x128, .i1⟩
  | .hbm, ⟨69, _⟩ => ⟨S_, .f32⟩
  | .hbm, ⟨70, _⟩ => ⟨S8192x128, .f32⟩
  | .hbm, ⟨71, _⟩ => ⟨S8192x128, .f32⟩
  | .hbm, ⟨72, _⟩ => ⟨S8192x128, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192, .f32⟩
  | .hbm, ⟨77, _⟩ => ⟨S_, .f32⟩
  | .hbm, ⟨78, _⟩ => ⟨S8192, .f32⟩
  | .hbm, ⟨79, _⟩ => ⟨S8192, .f32⟩
  | .hbm, ⟨80, _⟩ => ⟨S8192x128, .bf16⟩
  | .hbm, ⟨81, _⟩ => ⟨S8192x1, .f32⟩
  | .hbm, ⟨82, _⟩ => ⟨S8192x1, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_0 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_call5_c : Ref sig .tc := ⟨.hbm, 49, rfl⟩
abbrev main_call5_v0 : Ref sig .tc := ⟨.hbm, 50, rfl⟩
abbrev main_call5_v1 : Ref sig .tc := ⟨.hbm, 51, rfl⟩
abbrev main_call5_c_0 : Ref sig .tc := ⟨.hbm, 52, rfl⟩
abbrev main_call5_v2 : Ref sig .tc := ⟨.hbm, 53, rfl⟩
abbrev main_call5_v3 : Ref sig .tc := ⟨.hbm, 54, rfl⟩
abbrev main_call5_v4 : Ref sig .tc := ⟨.hbm, 55, rfl⟩
abbrev main_call5_v5 : Ref sig .tc := ⟨.hbm, 56, rfl⟩
abbrev main_call5_c_1 : Ref sig .tc := ⟨.hbm, 57, rfl⟩
abbrev main_call5_c_2 : Ref sig .tc := ⟨.hbm, 58, rfl⟩
abbrev main_call5_v6 : Ref sig .tc := ⟨.hbm, 59, rfl⟩
abbrev main_call5_v7 : Ref sig .tc := ⟨.hbm, 60, rfl⟩
abbrev main_call5_v8 : Ref sig .tc := ⟨.hbm, 61, rfl⟩
abbrev main_call5_v9 : Ref sig .tc := ⟨.hbm, 62, rfl⟩
abbrev main_call5_v10 : Ref sig .tc := ⟨.hbm, 63, rfl⟩
abbrev main_call5_v11 : Ref sig .tc := ⟨.hbm, 64, rfl⟩
abbrev main_call5_c_3 : Ref sig .tc := ⟨.hbm, 65, rfl⟩
abbrev main_call5_v12 : Ref sig .tc := ⟨.hbm, 66, rfl⟩
abbrev main_call5_v13 : Ref sig .tc := ⟨.hbm, 67, rfl⟩
abbrev main_call5_v14 : Ref sig .tc := ⟨.hbm, 68, rfl⟩
abbrev main_call5_cst : Ref sig .tc := ⟨.hbm, 69, rfl⟩
abbrev main_call5_v15 : Ref sig .tc := ⟨.hbm, 70, rfl⟩
abbrev main_v20 : Ref sig .tc := ⟨.hbm, 71, rfl⟩
abbrev main_v21 : Ref sig .tc := ⟨.hbm, 72, rfl⟩
abbrev main_cst_1 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_2 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_3 : Ref sig .tc := ⟨.hbm, 85, rfl⟩
abbrev main_v32 : Ref sig .tc := ⟨.hbm, 86, rfl⟩
abbrev main_cst_4 : Ref sig .tc := ⟨.hbm, 87, rfl⟩
abbrev main_v33 : Ref sig .tc := ⟨.hbm, 88, rfl⟩
abbrev main_v34 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x128_0 : S8192.BroadcastsInDim S8192x128 (![0] : Fin 1 → Fin S8192x128.rank)
  bcast_S_S8192x128 : S_.BroadcastsInDim S8192x128 (![] : Fin 0 → Fin S8192x128.rank)
  reducesTo_S8192x128_S8192_d1 : S8192x128.ReducesTo [1] S8192
  bitsLt_bf16_f32 : FTy.bits .bf16 < FTy.bits .f32
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x1024 : S1024x1.Broadcasts S1024x1024
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  gather_S8192x128_S8192x1_S8192x128_1_0_n_n_0_1_1128_wf : GatherDims.WF S8192x128 S8192x1 S8192x128 [1] [0] [] [0] [] 1 ![1, 128]
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v27) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S128x8192 : Shape := ⟨2, ![128, 8192]⟩
abbrev S8192x8192x1 : Shape := ⟨3, ![8192, 8192, 1]⟩
abbrev S1 : Shape := ⟨1, ![1]⟩
abbrev S1x1x1 : Shape := ⟨3, ![1, 1, 1]⟩
abbrev S8192x1x1 : Shape := ⟨3, ![8192, 1, 1]⟩

abbrev nBuf : Space → Nat
  | .hbm => 129
  | .vmem => 0
  | .smem => 0
  | _ => 0

abbrev hbmTy0_0 (i : Nat) : BufTy := match i % 128 with
  | 0 => ⟨S8192x128, .f32⟩
  | 1 => ⟨S8192x128, .f32⟩
  | 2 => ⟨S8192, .i32⟩
  | 3 => ⟨S8192, .i32⟩
  | 4 => ⟨S8192, .i32⟩
  | 5 => ⟨S8192x1, .i32⟩
  | 6 => ⟨S8192, .i32⟩
  | 7 => ⟨S1x8192, .i32⟩
  | 8 => ⟨S8192x1, .i32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x128, .f32⟩
  | 18 => ⟨S8192x128, .f32⟩
  | 19 => ⟨S_, .f32⟩
  | 20 => ⟨S8192, .f32⟩
  | 21 => ⟨S8192x8192, .i32⟩
  | 22 => ⟨S8192x8192, .i32⟩
  | 23 => ⟨S8192x8192, .i1⟩
  | 24 => ⟨S8192x1, .i1⟩
  | 25 => ⟨S8192x8192, .i32⟩
  | 26 => ⟨S8192x8192, .i32⟩
  | 27 => ⟨S8192x8192, .i1⟩
  | 28 => ⟨S8192x8192, .i32⟩
  | 29 => ⟨S8192x8192, .i32⟩
  | 30 => ⟨S8192x8192, .i1⟩
  | 31 => ⟨S8192x8192, .i1⟩
  | 32 => ⟨S_, .i32⟩
  | 33 => ⟨S1x8192, .i32⟩
  | 34 => ⟨S1x8192, .i32⟩
  | 35 => ⟨S8192x8192, .i32⟩
  | 36 => ⟨S8192x8192, .i32⟩
  | 37 => ⟨S8192x8192, .i32⟩
  | 38 => ⟨S8192x8192, .i32⟩
  | 39 => ⟨S8192x8192, .i32⟩
  | 40 => ⟨S8192x8192, .i1⟩
  | 41 => ⟨S8192x8192, .i32⟩
  | 42 => ⟨S8192x8192, .i32⟩
  | 43 => ⟨S8192x8192, .i1⟩
  | 44 => ⟨S8192x8192, .i1⟩
  | 45 => ⟨S_, .i32⟩
  | 46 => ⟨S1x8192, .i32⟩
  | 47 => ⟨S1x8192, .i32⟩
  | 48 => ⟨S8192x8192, .i32⟩
  | 49 => ⟨S8192x8192, .i32⟩
  | 50 => ⟨S8192x8192, .i32⟩
  | 51 => ⟨S8192x8192, .i1⟩
  | 52 => ⟨S8192x8192, .i32⟩
  | 53 => ⟨S8192x8192, .i32⟩
  | 54 => ⟨S8192x8192, .i32⟩
  | 55 => ⟨S128x8192, .f32⟩
  | 56 => ⟨S8192x8192, .f32⟩
  | 57 => ⟨S_, .i32⟩
  | 58 => ⟨S8192x8192, .i32⟩
  | 59 => ⟨S8192x8192, .i1⟩
  | 60 => ⟨S_, .i32⟩
  | 61 => ⟨S8192x8192, .i32⟩
  | 62 => ⟨S8192x8192, .i32⟩
  | 63 => ⟨S8192x8192, .i32⟩
  | 64 => ⟨S8192x8192x1, .i32⟩
  | 65 => ⟨S1, .i32⟩
  | 66 => ⟨S_, .i32⟩
  | 67 => ⟨S8192x8192x1, .i32⟩
  | 68 => ⟨S8192x8192x1, .i1⟩
  | 69 => ⟨S1x1x1, .i32⟩
  | 70 => ⟨S8192x8192x1, .i32⟩
  | 71 => ⟨S8192x8192x1, .i1⟩
  | 72 => ⟨S8192x8192x1, .i1⟩
  | 73 => ⟨S_, .i1⟩
  | 74 => ⟨S8192x8192, .i1⟩
  | 75 => ⟨S8192x8192, .f32⟩
  | 76 => ⟨S_, .f32⟩
  | 77 => ⟨S8192x8192, .f32⟩
  | 78 => ⟨S8192x8192, .f32⟩
  | 79 => ⟨S8192x1, .f32⟩
  | 80 => ⟨S8192x8192, .f32⟩
  | 81 => ⟨S8192x8192, .f32⟩
  | 82 => ⟨S8192x8192, .f32⟩
  | 83 => ⟨S_, .f32⟩
  | 84 => ⟨S8192x8192, .f32⟩
  | 85 => ⟨S8192x8192, .f32⟩
  | 86 => ⟨S_, .f32⟩
  | 87 => ⟨S8192, .f32⟩
  | 88 => ⟨S_, .f32⟩
  | 89 => ⟨S8192, .f32⟩
  | 90 => ⟨S8192, .f32⟩
  | 91 => ⟨S8192x1, .f32⟩
  | 92 => ⟨S8192x8192, .f32⟩
  | 93 => ⟨S8192x8192, .f32⟩
  | 94 => ⟨S8192x8192, .f32⟩
  | 95 => ⟨S_, .f32⟩
  | 96 => ⟨S8192, .f32⟩
  | 97 => ⟨S8192x1, .f32⟩
  | 98 => ⟨S8192x1, .f32⟩
  | 99 => ⟨S8192x8192, .f32⟩
  | 100 => ⟨S8192x8192, .f32⟩
  | 101 => ⟨S8192x1, .i32⟩
  | 102 => ⟨S_, .i32⟩
  | 103 => ⟨S8192x1, .i32⟩
  | 104 => ⟨S8192x1, .i1⟩
  | 105 => ⟨S_, .i32⟩
  | 106 => ⟨S8192x1, .i32⟩
  | 107 => ⟨S8192x1, .i32⟩
  | 108 => ⟨S8192x1, .i32⟩
  | 109 => ⟨S8192x1x1, .i32⟩
  | 110 => ⟨S1, .i32⟩
  | 111 => ⟨S_, .i32⟩
  | 112 => ⟨S8192x1x1, .i32⟩
  | 113 => ⟨S8192x1x1, .i1⟩
  | 114 => ⟨S1x1x1, .i32⟩
  | 115 => ⟨S8192x1x1, .i32⟩
  | 116 => ⟨S8192x1x1, .i1⟩
  | 117 => ⟨S8192x1x1, .i1⟩
  | 118 => ⟨S_, .i1⟩
  | 119 => ⟨S8192x1, .i1⟩
  | 120 => ⟨S8192x1, .f32⟩
  | 121 => ⟨S_, .f32⟩
  | 122 => ⟨S8192x1, .f32⟩
  | 123 => ⟨S8192x1, .f32⟩
  | 124 => ⟨S_, .f32⟩
  | 125 => ⟨S_, .f32⟩
  | 126 => ⟨S_, .f32⟩
  | 127 => ⟨S_, .f32⟩
  | _ => ⟨S8192x128, .f32⟩

abbrev hbmTy0_1 (i : Nat) : BufTy := match i % 128 with
  | 0 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_v37 : Ref sig .tc := ⟨.hbm, 50, rfl⟩
abbrev main_call2_v0 : Ref sig .tc := ⟨.hbm, 51, rfl⟩
abbrev main_v38 : Ref sig .tc := ⟨.hbm, 52, rfl⟩
abbrev main_call3_v0 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call4_c : Ref sig .tc := ⟨.hbm, 57, rfl⟩
abbrev main_call4_v0 : Ref sig .tc := ⟨.hbm, 58, rfl⟩
abbrev main_call4_v1 : Ref sig .tc := ⟨.hbm, 59, rfl⟩
abbrev main_call4_c_0 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_call4_v5 : Ref sig .tc := ⟨.hbm, 64, rfl⟩
abbrev main_call4_c_1 : Ref sig .tc := ⟨.hbm, 65, rfl⟩
abbrev main_call4_c_2 : Ref sig .tc := ⟨.hbm, 66, rfl⟩
abbrev main_call4_v6 : Ref sig .tc := ⟨.hbm, 67, rfl⟩
abbrev main_call4_v7 : Ref sig .tc := ⟨.hbm, 68, rfl⟩
abbrev main_call4_v8 : Ref sig .tc := ⟨.hbm, 69, rfl⟩
abbrev main_call4_v9 : Ref sig .tc := ⟨.hbm, 70, rfl⟩
abbrev main_call4_v10 : Ref sig .tc := ⟨.hbm, 71, rfl⟩
abbrev main_call4_v11 : Ref sig .tc := ⟨.hbm, 72, rfl⟩
abbrev main_call4_c_3 : Ref sig .tc := ⟨.hbm, 73, rfl⟩
abbrev main_call4_v12 : Ref sig .tc := ⟨.hbm, 74, rfl⟩
abbrev main_call4_v13 : Ref sig .tc := ⟨.hbm, 75, rfl⟩
abbrev main_call4_cst : Ref sig .tc := ⟨.hbm, 76, rfl⟩
abbrev main_call4_v14 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_3 : Ref sig .tc := ⟨.hbm, 83, rfl⟩
abbrev main_v47 : Ref sig .tc := ⟨.hbm, 84, rfl⟩
abbrev main_v48 : Ref sig .tc := ⟨.hbm, 85, rfl⟩
abbrev main_call5_cst : Ref sig .tc := ⟨.hbm, 86, rfl⟩
abbrev main_call5_v0 : Ref sig .tc := ⟨.hbm, 87, rfl⟩
abbrev main_call5_cst_0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_call5_v5 : Ref sig .tc := ⟨.hbm, 93, rfl⟩
abbrev main_call5_v6 : Ref sig .tc := ⟨.hbm, 94, rfl⟩
abbrev main_call5_cst_1 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_v49 : Ref sig .tc := ⟨.hbm, 100, rfl⟩
abbrev main_v50 : Ref sig .tc := ⟨.hbm, 101, rfl⟩
abbrev main_call6_c : Ref sig .tc := ⟨.hbm, 102, rfl⟩
abbrev main_call6_v0 : Ref sig .tc := ⟨.hbm, 103, rfl⟩
abbrev main_call6_v1 : Ref sig .tc := ⟨.hbm, 104, rfl⟩
abbrev main_call6_c_0 : Ref sig .tc := ⟨.hbm, 105, rfl⟩
abbrev main_call6_v2 : Ref sig .tc := ⟨.hbm, 106, rfl⟩
abbrev main_call6_v3 : Ref sig .tc := ⟨.hbm, 107, rfl⟩
abbrev main_call6_v4 : Ref sig .tc := ⟨.hbm, 108, rfl⟩
abbrev main_call6_v5 : Ref sig .tc := ⟨.hbm, 109, rfl⟩
abbrev main_call6_c_1 : Ref sig .tc := ⟨.hbm, 110, rfl⟩
abbrev main_call6_c_2 : Ref sig .tc := ⟨.hbm, 111, rfl⟩
abbrev main_call6_v6 : Ref sig .tc := ⟨.hbm, 112, rfl⟩
abbrev main_call6_v7 : Ref sig .tc := ⟨.hbm, 113, rfl⟩
abbrev main_call6_v8 : Ref sig .tc := ⟨.hbm, 114, rfl⟩
abbrev main_call6_v9 : Ref sig .tc := ⟨.hbm, 115, rfl⟩
abbrev main_call6_v10 : Ref sig .tc := ⟨.hbm, 116, rfl⟩
abbrev main_call6_v11 : Ref sig .tc := ⟨.hbm, 117, rfl⟩
abbrev main_call6_c_3 : Ref sig .tc := ⟨.hbm, 118, rfl⟩
abbrev main_call6_v12 : Ref sig .tc := ⟨.hbm, 119, rfl⟩
abbrev main_call6_v13 : Ref sig .tc := ⟨.hbm, 120, rfl⟩
abbrev main_call6_cst : Ref sig .tc := ⟨.hbm, 121, rfl⟩
abbrev main_call6_v14 : Ref sig .tc := ⟨.hbm, 122, rfl⟩
abbrev main_v51 : Ref sig .tc := ⟨.hbm, 123, rfl⟩
abbrev main_cst_4 : Ref sig .tc := ⟨.hbm, 124, rfl⟩
abbrev main_v52 : Ref sig .tc := ⟨.hbm, 125, rfl⟩
abbrev main_cst_5 : Ref sig .tc := ⟨.hbm, 126, rfl⟩
abbrev main_v53 : Ref sig .tc := ⟨.hbm, 127, rfl⟩
abbrev main_v54 : Ref sig .tc := ⟨.hbm, 128, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S_S8192 : S_.BroadcastsInDim S8192 (![] : Fin 0 → Fin S8192.rank)
  reducesTo_S8192x128_S8192_d1 : S8192x128.ReducesTo [1] S8192
  h_S_ : 0 < S_.numel
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S1x8192 : S_.BroadcastsInDim S1x8192 (![] : Fin 0 → Fin S1x8192.rank)
  transposes_S8192x128_S128x8192_1_0 : S8192x128.Transposes [1, 0] S128x8192
  bcast_S_S8192x8192 : S_.BroadcastsInDim S8192x8192 (![] : Fin 0 → Fin S8192x8192.rank)
  shapeCasts_S8192x8192_S8192x8192x1 : S8192x8192.ShapeCasts S8192x8192x1
  bcast_S_S8192x8192x1 : S_.BroadcastsInDim S8192x8192x1 (![] : Fin 0 → Fin S8192x8192x1.rank)
  bcast_S1_S1x1x1_2 : S1.BroadcastsInDim S1x1x1 (![2] : Fin 1 → Fin S1x1x1.rank)
  bcast_S1x1x1_S8192x8192x1_0_1_2 : S1x1x1.BroadcastsInDim S8192x8192x1 (![0, 1, 2] : Fin 3 → Fin S8192x8192x1.rank)
  reducesTo_S8192x8192x1_S8192x8192_d2 : S8192x8192x1.ReducesTo [2] S8192x8192
  reducesTo_S8192x8192_S8192_d1 : S8192x8192.ReducesTo [1] S8192
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  gather_S8192x128_S8192x1_S8192x128_1_0_n_n_0_1_1128_wf : GatherDims.WF S8192x128 S8192x1 S8192x128 [1] [0] [] [0] [] 1 ![1, 128]
  dot_S8192x128_S128x8192_S8192x8192_1_0_0_1_n_n_wf : DotDims.WF S8192x128 S128x8192 S8192x8192 [1] [0] [0] [1] [] []
  gather_S8192x8192_S8192x8192x1_S8192x8192_n_1_0_0_1_2_11_wf : GatherDims.WF S8192x8192 S8192x8192x1 S8192x8192 [] [1] [0] [1] [0] 2 ![1, 1]
  gather_S8192x8192_S8192x1x1_S8192x1_n_1_0_0_1_2_11_wf : GatherDims.WF S8192x8192 S8192x1x1 S8192x1 [] [1] [0] [1] [0] 2 ![1, 1]

variable [Facts₀]

def gather_S8192x128_S8192x1_S8192x128_1_0_n_n_0_1_1128 : GatherDims S8192x128 S8192x1 S8192x128 where
  offsetDims := [1]
  collapsedSliceDims := [0]
  operandBatchingDims := []
  startIndicesBatchingDims := []
  startIndexMap := [0]
  indexVectorDim := 1
  sliceSizes := ![1, 128]
  wf := gather_S8192x128_S8192x1_S8192x128_1_0_n_n_0_1_1128_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S8192x8192x1_S8192x8192_n_1_0_0_1_2_11 : GatherDims S8192x8192 S8192x8192x1 S8192x8192 where
  offsetDims := []
  collapsedSliceDims := [1]
  operandBatchingDims := [0]
  startIndicesBatchingDims := [0]
  startIndexMap := [1]
  indexVectorDim := 2
  sliceSizes := ![1, 1]
  wf := gather_S8192x8192_S8192x8192x1_S8192x8192_n_1_0_0_1_2_11_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.BRuns.lean ====
/-
  What the runs of the log-sum-exp kernel's body share. @main is host operations, the kernel
  region, host operations: `V` is what the region finds in the arrays (the launch contents after
  the earlier host operations). The body branches twice on the column-block coordinate `k`:
  at `k = 0` it resets the running maximum and running sum; at `k = 7` it writes the row block's
  result. Over the 8 × 8 grid in row-major order that is "point ≡ 0 mod 8" and "point ≡ 7 mod 8".
-/
import proofs.«408697_j30434138259689_1_alg».proof.Proof.Gen.Kernel.Launch
import proofs.«408697_j30434138259689_1_alg».proof.Proof.Gen.Kernel.Skeleton
import proofs.«408697_j30434138259689_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, the arrays at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is the first column block" (`k = 0`), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (`k = 7`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column block the body stores nothing into the result's buffer, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column block it does. -/
theorem liveAt0_3 : ∀ t : Fin cfg0.N, cond0_1 (grid0.coords t) → cfg0.idle 3 (grid0.coords t) = false := by decide +kernel

/-! ## The memrefs the body is called with -/

/-- One staging buffer of the result window, through which its contents are stated. -/
abbrev VO0_3 : View sig .tc .vmem S1024x1 .f32 := (Memref.whole cc0_stg3_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The two scratch operands: the running maximum and the running sum, carried between points. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The class invariant, the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Lse

end
-- ==== Proof.BRunA.lean ====
/-
  The body at a point of the FIRST column block (k = 0, not the last): it resets the running
  maximum to -∞ and the running sum to 0, then folds this block in. The result window is left
  untouched. The pieces each scratch buffer ends with are what the run finds.
-/
import proofs.«408697_j30434138259689_1_alg».proof.Proof.BRuns

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton, k0_part1_eq_skeleton]; unfold cc0__lse_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Lse

end
-- ==== Proof.BRunB.lean ====
/-
  The body at a point of a MIDDLE column block (neither first nor last): it folds this block into
  the running maximum and running sum the point before left in the two scratch buffers. The result
  window is left untouched.
-/
import proofs.«408697_j30434138259689_1_alg».proof.Proof.BRunA

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton, k0_part1_eq_skeleton]; unfold cc0__lse_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Lse

end
-- ==== Proof.BRunC.lean ====
/-
  The body at a point of the LAST column block (k = 7): it folds this block into the carried
  running maximum and running sum, then stores maximum + log(sum) into the result window.
-/
import proofs.«408697_j30434138259689_1_alg».proof.Proof.BRunB

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨?_, ?_, ?_, fun E K => ?run⟩
  case run =>
    simp only [cc0__lse_kernel_eq_skeleton, k0_part1_eq_skeleton]; unfold cc0__lse_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Lse

end
-- ==== Proof.BFrame.lean ====
/-
  What the kernel's buffers hold point by point, and the pipeline's proof data.

  The grid is 8 row blocks × 8 column blocks, walked row-major: point t = 8·I + k. Within one row
  block the two scratch buffers carry the running maximum and the running sum across k = 0..7;
  at k = 0 they are reset before use, at k = 7 the result window's buffer receives
  maximum + log(sum) and is written back. `outsAt0 n` is the triple
  (result window's buffer, running maximum, running sum) after the body at point n.

  Three cases by k: k = 0 (reset, then fold this block in), 0 < k < 7 (fold into what the point
  before left), k = 7 (fold, then store the result). Each case's stores into a buffer tile it, so
  what the buffer then holds is the stored pieces read back, whatever it held before. The two
  feature windows stage blocks of one array; each holds half of it, the halves adding up to the
  whole. The result window is touched only at k = 7: elsewhere its buffer is handed back as found.
-/
import proofs.«408697_j30434138259689_1_alg».proof.Proof.BRunC

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Case A: a point of a first column block -/

/-- Case A stores nothing into the result window (it is idle at these points and not written back there): a placeholder
    that nothing consults. -/
def out0_A_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) : Vec F S1024x1 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's stores into the running maximum's buffer tile it, so they cover it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) (y : S1024x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x1.size (by sl_kernel_rfl) y

/-- What case A leaves as the running maximum: its pieces read back. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's stores into the running sum's buffer tile it, so they cover it. -/
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) (y : S1024x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1024x1.size (by sl_kernel_rfl) y

/-- What case A leaves as the running sum: its pieces read back. -/
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-! ## Case B: a point of a middle column block -/

/-- Case B stores nothing into the result window (it is idle at these points and not written back there): a placeholder
    that nothing consults. -/
def out0_B_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's stores into the running maximum's buffer tile it, so they cover it. -/
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1024x1.size (by sl_kernel_rfl) y

/-- What case B leaves as the running maximum: its pieces read back. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's stores into the running sum's buffer tile it, so they cover it. -/
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1024x1.size (by sl_kernel_rfl) y

/-- What case B leaves as the running sum: its pieces read back. -/
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-! ## Case C: a point of a last column block -/

/-- Case C's stores into the result window tile its block, so they cover it. -/
theorem cover0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1024x1.size (by sl_kernel_rfl) y

/-- What case C leaves in the result window's staging buffer: its pieces read back. -/
def out0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's stores into the running maximum's buffer tile it, so they cover it. -/
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1024x1.size (by sl_kernel_rfl) y

/-- What case C leaves as the running maximum: its pieces read back. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's stores into the running sum's buffer tile it, so they cover it. -/
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1024x1.size (by sl_kernel_rfl) y

/-- What case C leaves as the running sum: its pieces read back. -/
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the buffers hold after each point -/

/-- After the body at point `n`: (the result window's staging buffer, the running maximum, the running sum). The case is
    read off `n mod 8`: 0 resets and folds (nothing of the point before is read), 7 folds into what the point before left and
    stores the result, anything else folds into what the point before left. No point is both 0 and 7 mod 8. -/
def outsAt0 (c : Dev nD) : (n : ℕ) → n < cfg0.N → Vec F S1024x1 .f32 × Vec F S1024x1 .f32 × Vec F S1024x1 .f32
  | 0, hn =>
      (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a point of a first column block: that case's contents. -/
theorem outsAt0_A (c : Dev nD) (t : Fin cfg0.N) (h0 : t.val % 8 = 0) (h1 : ¬t.val % 8 = 7) :
    outsAt0 m c t.val t.isLt =
      (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of a middle column block: that case's contents, over what the point before left. -/
theorem outsAt0_B (c : Dev nD) (t : Fin cfg0.N) (h0 : ¬t.val % 8 = 0) (h1 : ¬t.val % 8 = 7) :
    outsAt0 m c t.val t.isLt =
      (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of a last column block: that case's contents, over what the point before left. -/
theorem outsAt0_C (c : Dev nD) (t : Fin cfg0.N) (h0 : ¬t.val % 8 = 0) (h1 : t.val % 8 = 7) :
    outsAt0 m c t.val t.isLt =
      (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region invariant before point `n`: before the first point the class invariant (every scratch at anything); afterwards
    the two scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the running maximum and sum at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the running maximum and sum at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data: the arrays as the region finds them; after the body each input's buffer at its block, the result's at
    `outsAt0`; the invariant `PhiS`; the array the two feature windows share held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, the four windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the point's number mod 8 says which case it is in; the
    invariant hands the body the running maximum and sum at what the point before left (at anything before the very first
    point; a first column block that is not the very first point forgets the named contents, since that case resets them),
    and takes them back at this point's contents; the result window's buffer is handed back as found except at a last
    column block, where it holds the stored result; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- a first column block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · -- a last column block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · -- a middle column block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- After the last point the invariant gives the class invariant back. -/
theorem hout (c : Dev nD) : (dats m 0 c).Φ (Fin.last cfg0.N) ⊢ Pipeline.ΦA spec0 c :=
  Phi_out m c _ (by rw [Fin.val_last]; have : cfg0.N = 64 := N_0; omega)

end Cert.Kernel.Lse

end
-- ==== Proof.BLaunch.lean ====
/-
  The launch: @main's host operations, the kernel region, and the host operations after it, for
  proof data of the region whose two feature windows hold the ONE array they both stage half and
  half. The array is split between the two windows at the region's entry; the operations after
  the region touch only the result window's array and buffers that bypass the region, so they run
  from the region's exit without the shared array. Every weakly fair execution terminates; at the
  end each window's array holds what the proof data computes and every other unscoped buffer holds
  the later operations' results from the exit contents.
-/
import proofs.«408697_j30434138259689_1_alg».proof.Proof.BRuns

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (restRefs restRefsP unscopedRest unscopedRestP arrBufs arrRef ΦA)

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- The buffers' contents at the region's exit: as at its entry, the result array at its final contents. -/
def W1g (Vv : Valuation τ sig (Elt F)) (A3 : (Proc.devRef (τ := τ) (sig := sig) .tc main_v29).ty.Contents (Elt F)) : Valuation τ sig (Elt F) :=
  Function.update Vv (Proc.devRef .tc main_v29) A3
def W1 (c : Dev nD) : Valuation τ sig (Elt F) := W1g (V0 m c) ((dats 0 c).arrAt 3 cfg0.N)

theorem W1g_self (Vv : Valuation τ sig (Elt F)) (A3 : (Proc.devRef (τ := τ) (sig := sig) .tc main_v29).ty.Contents (Elt F)) :
    W1g Vv A3 (Proc.devRef .tc main_v29) = A3 := by
  unfold W1g; exact Function.update_self _ _ _
theorem W1g_ne (Vv : Valuation τ sig (Elt F)) (A3 : (Proc.devRef (τ := τ) (sig := sig) .tc main_v29).ty.Contents (Elt F))
    (b : Ref sig .tc) (hb : b ≠ main_v29) : W1g Vv A3 (Proc.devRef .tc b) = Vv (Proc.devRef .tc b) := by
  unfold W1g; exact Function.update_of_ne (StableHlo.devRef_ne_of_ne hb) _ _

/-- … and after the host operations that follow the region. -/
def Wend (c : Dev nD) : Valuation τ sig (Elt F) := StableHlo.after hostOps1 (W1 m dats c)

set_option maxHeartbeats 1000000 in
/-- ENTRY: the three buffers behind the windows' arrays, whole, are the windows' arrays: the shared one half and half. -/
theorem hsplit (c : Dev nD) (Vc : (b : Ref sig .tc) → Buf (Elt F) ((c.tc : Thread nD τ).loc b))
    (hA : ∀ w, (dats 0 c).A w = Vc (arrRef spec0 w))
    (hq0 : (dats 0 c).q 0 = fullShare.left) (hq1 : (dats 0 c).q 1 = fullShare.right) (hq2 : (dats 0 c).q 2 = fullShare) :
    (arrBufs spec0 c Vc : sProp 𝕄) ⊢ (dats 0 c).arrays ((dats 0 c).arrAt · 0) := by
  classical
  have himg : (Finset.univ.image (arrRef spec0) : Finset (Ref sig .tc)) = {main_v27, main_v28, main_v29} := by decide
  have h27 : (main_v27 : Ref sig .tc) ∉ ({main_v28, main_v29} : Finset (Ref sig .tc)) := by decide
  have h28 : (main_v28 : Ref sig .tc) ∉ ({main_v29} : Finset (Ref sig .tc)) := by decide
  have hs0 : (dats 0 c).share 0 = fullShare.left := by unfold Pipeline.Dat.share; rw [if_neg (by decide)]; exact hq0
  have hs1 : (dats 0 c).share 1 = fullShare.right := by unfold Pipeline.Dat.share; rw [if_neg (by decide)]; exact hq1
  have hs2 : (dats 0 c).share 2 = fullShare := by unfold Pipeline.Dat.share; rw [if_neg (by decide)]; exact hq2
  have hs3 : (dats 0 c).share 3 = fullShare := by unfold Pipeline.Dat.share; rw [if_pos (by decide)]
  unfold Pipeline.arrBufs
  rw [himg, bigSep_insert h27, bigSep_insert h28, bigSep_singleton]
  unfold Pipeline.Dat.arrays
  rw [bigSep_W0, (arr_whole0 0).set_eq_univ, (arr_whole0 2).set_eq_univ, (arr_whole0 3).set_eq_univ, hs0, hs1, hs2, hs3]
  beta_reduce
  rw [show (dats 0 c).arrAt 0 0 = Vc (arrRef spec0 0) from hA 0, show (dats 0 c).arrAt 1 0 = Vc (arrRef spec0 1) from hA 1,
    show (dats 0 c).arrAt 2 0 = Vc (arrRef spec0 2) from hA 2, show (dats 0 c).arrAt 3 0 = Vc (arrRef spec0 3) from hA 3]
  have hsh : ((((c.tc : Thread nD τ).loc main_v27) ↦{fullShare} Vc main_v27) : sProp 𝕄)
      ⊢ iprop((((c.tc : Thread nD τ).loc main_v27) ↦{fullShare.left} Vc main_v27) ∗ (((c.tc : Thread nD τ).loc main_v27) ↦{fullShare.right} Vc main_v27)) :=
    (pointsTo_share (PosShare.mem_left_op_right fullShare)).1
  exact (sep_mono hsh .rfl).trans sep_assoc.1

/-- No operation after the region writes the result array. -/
theorem tail_keeps_v29 : ∀ op ∈ (hostOps1 : List (HloOp τ sig (Elt F))), Proc.devRef .tc main_v29 ∉ op.writes := by
  intro op hop
  simp only [hostOps1, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- The result array is no bypassing buffer. -/
theorem v29_not_rest : (main_v29 : Ref sig .tc) ∉ restRefs sig spec0 :=
  fun h => (Finset.mem_sdiff.mp h).2 (Finset.mem_image.mpr ⟨3, Finset.mem_univ _, rfl⟩)

/-- The buffers the later operations run within: the bypassing ones and the result array. -/
abbrev S1 : Finset (DevRef τ sig) :=
  (insert main_v29 (restRefs sig spec0)).map ⟨Proc.devRef (sig := sig) .tc, Proc.devRef_injective _⟩

theorem mem_S1_rest (b : Ref sig .tc) (hs : b.isScoped = false) (ha : ∀ w, (spec0 w).arr.view.ref ≠ b) :
    Proc.devRef (τ := τ) .tc b ∈ S1 :=
  Finset.mem_map.mpr ⟨b, Finset.mem_insert_of_mem (Pipeline.mem_restRefs_of b hs ha), rfl⟩
theorem mem_S1_v29 : Proc.devRef (τ := τ) .tc main_v29 ∈ S1 :=
  Finset.mem_map.mpr ⟨main_v29, Finset.mem_insert_self _ _, rfl⟩

/-- Every later operation touches only those. -/
theorem tail_sub : ∀ ops ∈ ([hostOps1] : List (List (HloOp τ sig (Elt F)))), ∀ op ∈ ops, op.bufs ⊆ S1 := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    simp only [StableHlo.nullary_bufs, StableHlo.unary_bufs, StableHlo.binary_bufs, StableHlo.reshape_bufs, Finset.insert_subset_iff, Finset.singleton_subset_iff]
    repeat' constructor
    all_goals first | exact mem_S1_v29 | exact mem_S1_rest _ rfl (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Held within that set at contents `W`: the result array and the bypassing buffers at `W`. -/
theorem held_S1 (c : Dev nD) (W : Valuation τ sig (Elt F)) :
    (StableHlo.held (c.tc : Thread nD τ) S1 W : sProp 𝕄)
      = iprop((((c.tc : Thread nD τ).loc main_v29) ↦{fullShare} W (Proc.devRef .tc main_v29)) ∗ unscopedRest spec0 c (fun b => W (Proc.devRef .tc b))) := by
  classical
  unfold StableHlo.held unscopedRest
  rw [bigSep_map, bigSep_insert v29_not_rest]
  rfl

set_option maxHeartbeats 1000000 in
/-- The bypassing buffers at the exit contents are the bypassing buffers at the entry contents. -/
theorem rest_W1g (c : Dev nD) (Vv : Valuation τ sig (Elt F)) (A3 : (Proc.devRef (τ := τ) (sig := sig) .tc main_v29).ty.Contents (Elt F)) :
    (unscopedRest spec0 c (fun b => W1g Vv A3 (Proc.devRef .tc b)) : sProp 𝕄) = unscopedRest spec0 c (fun b => Vv (Proc.devRef .tc b)) := by
  classical
  unfold unscopedRest
  exact bigSep_congr fun b hb => by
    have h := W1g_ne Vv A3 b (fun e => v29_not_rest (by subst e; exact hb))
    dsimp only
    rw [h]

/-- The later operations do not write the result array. -/
theorem after_W1g_v29 (Vv : Valuation τ sig (Elt F)) (A3 : (Proc.devRef (τ := τ) (sig := sig) .tc main_v29).ty.Contents (Elt F)) :
    StableHlo.after hostOps1 (W1g Vv A3) (Proc.devRef .tc main_v29) = A3 :=
  (StableHlo.after_of_forall_not_mem _ _ tail_keeps_v29).trans (W1g_self Vv A3)

set_option maxHeartbeats 2000000 in
/-- The later operations run from the result array at `A3` and the bypassing buffers at `Vv`. -/
theorem tail_run (c : Dev nD) (Vv : Valuation τ sig (Elt F)) (A3 : (Proc.devRef (τ := τ) (sig := sig) .tc main_v29).ty.Contents (Elt F))
    (Q' : PUnit → sProp 𝕄) :
    iprop(boundary (c.tc : Thread nD τ) ∗ (((c.tc : Thread nD τ).loc main_v29) ↦{fullShare} A3) ∗ unscopedRest spec0 c (fun b => Vv (Proc.devRef .tc b)))
      ⊢ iprop((iprop(boundary (c.tc : Thread nD τ) ∗ (((c.tc : Thread nD τ).loc main_v29) ↦{fullShare} A3)
                ∗ unscopedRest spec0 c (fun b => StableHlo.after hostOps1 (W1g Vv A3) (Proc.devRef .tc b)))
              -∗ wp frame (wpE (Pipeline.defs (fun q => Cfg.toPCfg (Val := Elt F) (cfgs q)) defs₀) (Variants.lift Variants.none) (c.tc : Thread nD τ) none) Set.univ
                  (Pipeline.chain []) Q')
          -∗ wp frame (wpE (Pipeline.defs (fun q => Cfg.toPCfg (Val := Elt F) (cfgs q)) defs₀) (Variants.lift Variants.none) (c.tc : Thread nD τ) none) Set.univ
              (Pipeline.chain [StableHlo.seq hostOps1]) Q') := by
  have hrun := Pipeline.wp_seqs_then (Ix := Unit) (Name := ℕ) (U := UR sig nD τ) (Lvl := ℕ) (fun q => Cfg.toPCfg (Val := Elt F) (cfgs q)) defs₀ Variants.none c S1 [] (K := Q') [hostOps1] tail_sub tail_fresh (W1g Vv A3)
  rw [held_S1, W1g_self, rest_W1g, List.flatten_cons, List.flatten_nil, List.append_nil, held_S1, after_W1g_v29, List.map_cons, List.map_nil, List.append_nil] at hrun
  exact hrun

set_option maxHeartbeats 2000000 in
set_option backward.isDefEq.respectTransparency.types false in
/-- EXIT: the operations after the region, from the arrays at contents `Fw` and the bypassing buffers at contents
    `Vv`, to the same arrays and the bypassing buffers at the operations' results from those exit contents. -/
theorem htail (c : Dev nD) (Vv : Valuation τ sig (Elt F))
    (Fw : (w : Fin cfg0.W) → Buf (Elt F) ((cfg0.win w).arr.view.loc (c.tc : Thread nD τ))) (Q' : PUnit → sProp 𝕄) :
    iprop((iprop((dats 0 c).arrays Fw ∗ unscopedRestP Pipeline.Prefetch.none spec0 c (fun b => StableHlo.after hostOps1 (W1g Vv (Fw 3)) (Proc.devRef .tc b))) -∗ Q' ⟨⟩)
        ∗ boundary (c.tc : Thread nD τ) ∗ (dats 0 c).arrays Fw ∗ unscopedRestP Pipeline.Prefetch.none spec0 c (fun b => Vv (Proc.devRef .tc b)))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  classical
  have hs3 : (dats 0 c).share 3 = fullShare := by unfold Pipeline.Dat.share; rw [if_pos (by decide)]
  have hrun := tail_run c Vv (Fw 3) Q'
  rw [Pipeline.unscopedRestP_none, Pipeline.unscopedRestP_none]
  unfold Pipeline.Dat.arrays
  rw [bigSep_W0, (arr_whole0 3).set_eq_univ, hs3]
  iintro ⟨Hk, Hb, ⟨H0, H1, H2, H3⟩, HZ⟩
  iapply hrun $$ [Hb H3 HZ]
  · isplitl [Hb]; · iexact Hb
    isplitl [H3]; · iexact H3
    iexact HZ
  iintro ⟨Hb, H3, HZ⟩
  rw [Pipeline.chain_nil, wp_pure]
  imodintro
  iapply Hk
  isplitr [HZ]
  · isplitl [H0]; · iexact H0
    isplitl [H1]; · iexact H1
    isplitl [H2]; · iexact H2
    iexact H3
  iexact HZ

set_option maxHeartbeats 8000000 in
set_option backward.isDefEq.respectTransparency.types false in
/-- THE RUN. -/
theorem run_of (hA : ∀ c w, (dats 0 c).A w = V m c (arrRef spec0 w))
    (hq0 : ∀ c, (dats 0 c).q 0 = fullShare.left) (hq1 : ∀ c, (dats 0 c).q 1 = fullShare.right) (hq2 : ∀ c, (dats 0 c).q 2 = fullShare)
    (howed : ∀ c t, (dats 0 c).owed t = 0)
    (hbody : ∀ c, BodyObligation (dats 0 c) (defs₀ (F := F)) Variants.none () Set.univ)
    (hin : ∀ c, (ΦA spec0 c : sProp 𝕄) ⊢ (dats 0 c).Φ 0) (hout : ∀ c, (dats 0 c).Φ (Fin.last cfg0.N) ⊢ (ΦA spec0 c : sProp 𝕄)) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ restRefs sig spec0, r.2.mem ((c.tc : Thread nD τ).loc b) = Wend m dats c (Proc.devRef .tc b)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit dats c (V m c) (hA c) (hq0 c) (hq1 c) (hq2 c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (fun b => Wend m dats c (Proc.devRef .tc b)))
    (hX := fun c => by
      iintro ⟨HU, -, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr] <;> iassumption).trans (hin c))
    (hout := fun c => (hout c).trans (by
      rw [Pipeline.ownSems0_none]; unfold ΦA
      iintro ⟨Hr, Hp⟩
      isplitl [Hp]; · iexact Hp
      isplitr; · iempintro
      iexact Hr))
    (htail := fun c Q' => htail dats c (V0 m c) (fun w => (dats 0 c).arrAt w cfg0.N) Q')
    (QY := fun c s => ∀ b ∈ restRefsP sig Pipeline.Prefetch.none spec0, s.mem ((c.tc : Thread nD τ).loc b) = Wend m dats c (Proc.devRef .tc b))
    (hY := fun c s' => by
      iintro ⟨-, HU, HSI⟩
      unfold unscopedRestP
      imodintro
      iapply (pointsTo_read_all (restRefsP sig Pipeline.Prefetch.none spec0) (fun b => (c.tc : Thread nD τ).loc b) (fun b => Wend m dats c (Proc.devRef .tc b)) s')
      isplitl [HU] <;> iassumption)
    (hQ := fun s h c => ⟨(h c).1, Pipeline.rest_of_restP Pipeline.Prefetch.none spec0 (fun k => k.elim0) c (fun b => Wend m dats c (Proc.devRef .tc b)) s (fun k => k.elim0) (h c).2.1 (h c).2.2⟩)

end Cert.Kernel.Lse

end
-- ==== Proof.BClaims.lean ====
/-
  The kernel program's run with the frame module's proof data, and its frame: every weakly fair
  execution terminates and the four argument arrays end as they were launched — no host operation
  before or after the region writes an argument, and no window stages one.
-/
import proofs.«408697_j30434138259689_1_alg».proof.Proof.BFrame
import proofs.«408697_j30434138259689_1_alg».proof.Proof.BLaunch

set_option maxRecDepth 16384

noncomputable section

namespace Cert.Kernel.Lse

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (restRefs arrRef)

variable (m : (ℓ : Loc nD τ sig) → Buf (Elt F) ℓ) (ρ : Dev nD → PrngReg)

/-- The arguments are what the launch put there when the region is entered … -/
theorem V_arg0 (c : Dev nD) : V m c main_arg0 = m ((c : Thread nD τ).loc main_arg0) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg1 (c : Dev nD) : V m c main_arg1 = m ((c : Thread nD τ).loc main_arg1) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg2 (c : Dev nD) : V m c main_arg2 = m ((c : Thread nD τ).loc main_arg2) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg3 (c : Dev nD) : V m c main_arg3 = m ((c : Thread nD τ).loc main_arg3) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp

/-- … and the operations after the region leave them alone. -/
theorem tail_arg0 (W : Valuation τ sig (Elt F)) : StableHlo.after hostOps1 W (Proc.devRef .tc main_arg0) = W (Proc.devRef .tc main_arg0) := by
  after_results_simp
theorem tail_arg1 (W : Valuation τ sig (Elt F)) : StableHlo.after hostOps1 W (Proc.devRef .tc main_arg1) = W (Proc.devRef .tc main_arg1) := by
  after_results_simp
theorem tail_arg2 (W : Valuation τ sig (Elt F)) : StableHlo.after hostOps1 W (Proc.devRef .tc main_arg2) = W (Proc.devRef .tc main_arg2) := by
  after_results_simp
theorem tail_arg3 (W : Valuation τ sig (Elt F)) : StableHlo.after hostOps1 W (Proc.devRef .tc main_arg3) = W (Proc.devRef .tc main_arg3) := by
  after_results_simp

/-- THE RUN with the frame module's proof data. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ restRefs sig spec0, r.2.mem ((c.tc : Thread nD τ).loc b) = Wend m (dats m) c (Proc.devRef .tc b)) :=
  run_of m ρ (dats m) (A_eq m) (fun _ => rfl) (fun _ => rfl) (fun _ => rfl) (fun _ _ => rfl)
    (body_obligation m) (hin m) (hout m)

/-- An argument at the end: the exit contents' entry at it is the region-entry one (it is not the result array). -/
theorem Wend_arg0 (c : Dev nD) : Wend m (dats m) c (Proc.devRef .tc main_arg0) = m ((c : Thread nD τ).loc main_arg0) :=
  (tail_arg0 _).trans ((W1g_ne (V0 m c) ((dats m 0 c).arrAt 3 cfg0.N) main_arg0 (by decide)).trans (V_arg0 m c))
theorem Wend_arg1 (c : Dev nD) : Wend m (dats m) c (Proc.devRef .tc main_arg1) = m ((c : Thread nD τ).loc main_arg1) :=
  (tail_arg1 _).trans ((W1g_ne (V0 m c) ((dats m 0 c).arrAt 3 cfg0.N) main_arg1 (by decide)).trans (V_arg1 m c))
theorem Wend_arg2 (c : Dev nD) : Wend m (dats m) c (Proc.devRef .tc main_arg2) = m ((c : Thread nD τ).loc main_arg2) :=
  (tail_arg2 _).trans ((W1g_ne (V0 m c) ((dats m 0 c).arrAt 3 cfg0.N) main_arg2 (by decide)).trans (V_arg2 m c))
theorem Wend_arg3 (c : Dev nD) : Wend m (dats m) c (Proc.devRef .tc main_arg3) = m ((c : Thread nD τ).loc main_arg3) :=
  (tail_arg3 _).trans ((W1g_ne (V0 m c) ((dats m 0 c).arrAt 3 cfg0.N) main_arg3 (by decide)).trans (V_arg3 m c))

/-- THE FRAME, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Pipeline.mem_restRefs_of main_arg0 rfl (by decide))).trans (Wend_arg0 m c),
     ((h c).2 main_arg1 (Pipeline.mem_restRefs_of main_arg1 rfl (by decide))).trans (Wend_arg1 m c),
     ((h c).2 main_arg2 (Pipeline.mem_restRefs_of main_arg2 rfl (by decide))).trans (Wend_arg2 m c),
     ((h c).2 main_arg3 (Pipeline.mem_restRefs_of main_arg3 rfl (by decide))).trans (Wend_arg3 m c)⟩)
    (run_main m ρ)

end Cert.Kernel.Lse

end
-- ==== Proof.KRuns.lean ====
/-
  What the runs of the log-sum-exp kernel's body share. @main is host operations, the kernel
  region, host operations: `V` is what the region finds in the arrays (the launch contents after
  the earlier host operations). The body branches twice on the column-block coordinate `k`:
  at `k = 0` it resets the running maximum and running sum; at `k = 7` it writes the row block's
  result. Over the 8 × 8 grid in row-major order that is "point ≡ 0 mod 8" and "point ≡ 7 mod 8".
-/
import proofs.«408697_j30434138259689_1_alg».proof.Proof.Gen.KernelIdeal.Launch
import proofs.«408697_j30434138259689_1_alg».proof.Proof.Gen.KernelIdeal.Skeleton
import proofs.«408697_j30434138259689_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host operations before it. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the later host operations, the arrays at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, decided over the grid -/

/-- "This is the first column block" (`k = 0`), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block" (`k = 7`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last column block the body stores nothing into the result's buffer, and the pipeline does not write it back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last column block it does. -/
theorem liveAt0_3 : ∀ t : Fin cfg0.N, cond0_1 (grid0.coords t) → cfg0.idle 3 (grid0.coords t) = false := by decide +kernel

/-! ## The memrefs the body is called with -/

/-- One staging buffer of the result window, through which its contents are stated. -/
abbrev VO0_3 : View sig .tc .vmem S1024x1 .f32 := (Memref.whole cc0_stg3_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The two scratch operands: the running maximum and the running sum, carried between points. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The class invariant, the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Lse

end
-- ==== Proof.KRunA.lean ====
/-
  The body at a point of the FIRST column block (k = 0, not the last): it resets the running
  maximum to -∞ and the running sum to 0, then folds this block in. The result window is left
  untouched. The pieces each scratch buffer ends with are what the run finds.
-/
import proofs.«408697_j30434138259689_1_alg».proof.Proof.KRuns

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton, k0_part1_eq_skeleton]; unfold cc0__lse_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Lse

end
-- ==== Proof.KRunB.lean ====
/-
  The body at a point of a MIDDLE column block (neither first nor last): it folds this block into
  the running maximum and running sum the point before left in the two scratch buffers. The result
  window is left untouched.
-/
import proofs.«408697_j30434138259689_1_alg».proof.Proof.KRunA

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨[], ?_, ?_, fun xi3 E K => ?run⟩
  case run =>
    simp only [cc0__lse_kernel_eq_skeleton, k0_part1_eq_skeleton]; unfold cc0__lse_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Lse

end
-- ==== Proof.KRunC.lean ====
/-
  The body at a point of the LAST column block (k = 7): it folds this block into the carried
  running maximum and running sum, then stores maximum + log(sum) into the result window.
-/
import proofs.«408697_j30434138259689_1_alg».proof.Proof.KRunB

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) :
    Σ' (L3 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__lse_kernel i arg2 harg2 arg3 harg3 arg4 harg4 arg5 harg5 arg6 harg6 arg7 harg7) K } := by
  refine ⟨?_, ?_, ?_, fun E K => ?run⟩
  case run =>
    simp only [cc0__lse_kernel_eq_skeleton, k0_part1_eq_skeleton]; unfold cc0__lse_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Lse

end
-- ==== Proof.KFrame.lean ====
/-
  What the kernel's buffers hold point by point, and the pipeline's proof data.

  The grid is 8 row blocks × 8 column blocks, walked row-major: point t = 8·I + k. Within one row
  block the two scratch buffers carry the running maximum and the running sum across k = 0..7;
  at k = 0 they are reset before use, at k = 7 the result window's buffer receives
  maximum + log(sum) and is written back. `outsAt0 n` is the triple
  (result window's buffer, running maximum, running sum) after the body at point n.

  Three cases by k: k = 0 (reset, then fold this block in), 0 < k < 7 (fold into what the point
  before left), k = 7 (fold, then store the result). Each case's stores into a buffer tile it, so
  what the buffer then holds is the stored pieces read back, whatever it held before. The two
  feature windows stage blocks of one array; each holds half of it, the halves adding up to the
  whole. The result window is touched only at k = 7: elsewhere its buffer is handed back as found.
-/
import proofs.«408697_j30434138259689_1_alg».proof.Proof.KRunC

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Case A: a point of a first column block -/

/-- Case A stores nothing into the result window (it is idle at these points and not written back there): a placeholder
    that nothing consults. -/
def out0_A_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) : Vec F S1024x1 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's stores into the running maximum's buffer tile it, so they cover it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) (y : S1024x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S1024x1.size (by sl_kernel_rfl) y

/-- What case A leaves as the running maximum: its pieces read back. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's stores into the running sum's buffer tile it, so they cover it. -/
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) (y : S1024x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S1024x1.size (by sl_kernel_rfl) y

/-- What case A leaves as the running sum: its pieces read back. -/
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S1024x128 .bf16) (x2 : Vec F S1024x1 .f32) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-! ## Case B: a point of a middle column block -/

/-- Case B stores nothing into the result window (it is idle at these points and not written back there): a placeholder
    that nothing consults. -/
def out0_B_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's stores into the running maximum's buffer tile it, so they cover it. -/
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S1024x1.size (by sl_kernel_rfl) y

/-- What case B leaves as the running maximum: its pieces read back. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's stores into the running sum's buffer tile it, so they cover it. -/
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S1024x1.size (by sl_kernel_rfl) y

/-- What case B leaves as the running sum: its pieces read back. -/
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-! ## Case C: a point of a last column block -/

/-- Case C's stores into the result window tile its block, so they cover it. -/
theorem cover0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S1024x1.size (by sl_kernel_rfl) y

/-- What case C leaves in the result window's staging buffer: its pieces read back. -/
def out0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's stores into the running maximum's buffer tile it, so they cover it. -/
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S1024x1.size (by sl_kernel_rfl) y

/-- What case C leaves as the running maximum: its pieces read back. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's stores into the running sum's buffer tile it, so they cover it. -/
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S1024x1.size (by sl_kernel_rfl) y

/-- What case C leaves as the running sum: its pieces read back. -/
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S1024x128 .bf16) (x2 : Vec F S1024x1 .f32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## What the buffers hold after each point -/

/-- After the body at point `n`: (the result window's staging buffer, the running maximum, the running sum). The case is
    read off `n mod 8`: 0 resets and folds (nothing of the point before is read), 7 folds into what the point before left and
    stores the result, anything else folds into what the point before left. No point is both 0 and 7 mod 8. -/
def outsAt0 (c : Dev nD) : (n : ℕ) → n < cfg0.N → Vec F S1024x1 .f32 × Vec F S1024x1 .f32 × Vec F S1024x1 .f32
  | 0, hn =>
      (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩),
        sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩),
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.1 (outsAt0 c n (Nat.lt_of_succ_lt hn)).2.2)

/-- `outsAt0` at a point of a first column block: that case's contents. -/
theorem outsAt0_A (c : Dev nD) (t : Fin cfg0.N) (h0 : t.val % 8 = 0) (h1 : ¬t.val % 8 = 7) :
    outsAt0 m c t.val t.isLt =
      (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
        sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t),
        sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of a middle column block: that case's contents, over what the point before left. -/
theorem outsAt0_B (c : Dev nD) (t : Fin cfg0.N) (h0 : ¬t.val % 8 = 0) (h1 : ¬t.val % 8 = 7) :
    outsAt0 m c t.val t.isLt =
      (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of a last column block: that case's contents, over what the point before left. -/
theorem outsAt0_C (c : Dev nD) (t : Fin cfg0.N) (h0 : ¬t.val % 8 = 0) (h1 : t.val % 8 = 7) :
    outsAt0 m c t.val t.isLt =
      (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2,
        sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region invariant before point `n`: before the first point the class invariant (every scratch at anything); afterwards
    the two scratch buffers at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the running maximum and sum at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the running maximum and sum at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The proof data: the arrays as the region finds them; after the body each input's buffer at its block, the result's at
    `outsAt0`; the invariant `PhiS`; the array the two feature windows share held half and half; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`: the invariant, what the core owes, the four windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point. The inputs' buffers hold their blocks; the point's number mod 8 says which case it is in; the
    invariant hands the body the running maximum and sum at what the point before left (at anything before the very first
    point; a first column block that is not the very first point forgets the named contents, since that case resets them),
    and takes them back at this point's contents; the result window's buffer is handed back as found except at a last
    column block, where it holds the stored result; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- a first column block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · -- a last column block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · -- a middle column block
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- After the last point the invariant gives the class invariant back. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Lse

end
-- ==== Proof.KLaunch.lean ====
/-
  The launch: @main's host operations, the kernel region, and the host operations after it, for
  proof data of the region whose two feature windows hold the ONE array they both stage half and
  half. The array is split between the two windows at the region's entry; the operations after
  the region touch only the result window's array and buffers that bypass the region, so they run
  from the region's exit without the shared array. Every weakly fair execution terminates; at the
  end each window's array holds what the proof data computes and every other unscoped buffer holds
  the later operations' results from the exit contents.
-/
import proofs.«408697_j30434138259689_1_alg».proof.Proof.KRuns

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (restRefs restRefsP unscopedRest unscopedRestP arrBufs arrRef ΦA)

variable (m : (ℓ : Loc nD τ sig) → Buf (Elt F) ℓ) (ρ : Dev nD → PrngReg)
variable (dats : (p : Fin 1) → (c : Dev nD) → Dat τ (Elt F) Unit ℕ (UR sig nD τ) ℕ (cfgs p) c)

/-- The buffers' contents at the region's exit: as at its entry, the result array at its final contents. -/
def W1g (Vv : Valuation τ sig (Elt F)) (A3 : (Proc.devRef (τ := τ) (sig := sig) .tc main_v29).ty.Contents (Elt F)) : Valuation τ sig (Elt F) :=
  Function.update Vv (Proc.devRef .tc main_v29) A3
def W1 (c : Dev nD) : Valuation τ sig (Elt F) := W1g (V0 m c) ((dats 0 c).arrAt 3 cfg0.N)

theorem W1g_self (Vv : Valuation τ sig (Elt F)) (A3 : (Proc.devRef (τ := τ) (sig := sig) .tc main_v29).ty.Contents (Elt F)) :
    W1g Vv A3 (Proc.devRef .tc main_v29) = A3 := by
  unfold W1g; exact Function.update_self _ _ _
theorem W1g_ne (Vv : Valuation τ sig (Elt F)) (A3 : (Proc.devRef (τ := τ) (sig := sig) .tc main_v29).ty.Contents (Elt F))
    (b : Ref sig .tc) (hb : b ≠ main_v29) : W1g Vv A3 (Proc.devRef .tc b) = Vv (Proc.devRef .tc b) := by
  unfold W1g; exact Function.update_of_ne (StableHlo.devRef_ne_of_ne hb) _ _

/-- … and after the host operations that follow the region. -/
def Wend (c : Dev nD) : Valuation τ sig (Elt F) := StableHlo.after hostOps1 (W1 m dats c)

set_option maxHeartbeats 1000000 in
/-- ENTRY: the three buffers behind the windows' arrays, whole, are the windows' arrays: the shared one half and half. -/
theorem hsplit (c : Dev nD) (Vc : (b : Ref sig .tc) → Buf (Elt F) ((c.tc : Thread nD τ).loc b))
    (hA : ∀ w, (dats 0 c).A w = Vc (arrRef spec0 w))
    (hq0 : (dats 0 c).q 0 = fullShare.left) (hq1 : (dats 0 c).q 1 = fullShare.right) (hq2 : (dats 0 c).q 2 = fullShare) :
    (arrBufs spec0 c Vc : sProp 𝕄) ⊢ (dats 0 c).arrays ((dats 0 c).arrAt · 0) := by
  classical
  have himg : (Finset.univ.image (arrRef spec0) : Finset (Ref sig .tc)) = {main_v27, main_v28, main_v29} := by decide
  have h27 : (main_v27 : Ref sig .tc) ∉ ({main_v28, main_v29} : Finset (Ref sig .tc)) := by decide
  have h28 : (main_v28 : Ref sig .tc) ∉ ({main_v29} : Finset (Ref sig .tc)) := by decide
  have hs0 : (dats 0 c).share 0 = fullShare.left := by unfold Pipeline.Dat.share; rw [if_neg (by decide)]; exact hq0
  have hs1 : (dats 0 c).share 1 = fullShare.right := by unfold Pipeline.Dat.share; rw [if_neg (by decide)]; exact hq1
  have hs2 : (dats 0 c).share 2 = fullShare := by unfold Pipeline.Dat.share; rw [if_neg (by decide)]; exact hq2
  have hs3 : (dats 0 c).share 3 = fullShare := by unfold Pipeline.Dat.share; rw [if_pos (by decide)]
  unfold Pipeline.arrBufs
  rw [himg, bigSep_insert h27, bigSep_insert h28, bigSep_singleton]
  unfold Pipeline.Dat.arrays
  rw [bigSep_W0, (arr_whole0 0).set_eq_univ, (arr_whole0 2).set_eq_univ, (arr_whole0 3).set_eq_univ, hs0, hs1, hs2, hs3]
  beta_reduce
  rw [show (dats 0 c).arrAt 0 0 = Vc (arrRef spec0 0) from hA 0, show (dats 0 c).arrAt 1 0 = Vc (arrRef spec0 1) from hA 1,
    show (dats 0 c).arrAt 2 0 = Vc (arrRef spec0 2) from hA 2, show (dats 0 c).arrAt 3 0 = Vc (arrRef spec0 3) from hA 3]
  have hsh : ((((c.tc : Thread nD τ).loc main_v27) ↦{fullShare} Vc main_v27) : sProp 𝕄)
      ⊢ iprop((((c.tc : Thread nD τ).loc main_v27) ↦{fullShare.left} Vc main_v27) ∗ (((c.tc : Thread nD τ).loc main_v27) ↦{fullShare.right} Vc main_v27)) :=
    (pointsTo_share (PosShare.mem_left_op_right fullShare)).1
  exact (sep_mono hsh .rfl).trans sep_assoc.1

/-- No operation after the region writes the result array. -/
theorem tail_keeps_v29 : ∀ op ∈ (hostOps1 : List (HloOp τ sig (Elt F))), Proc.devRef .tc main_v29 ∉ op.writes := by
  intro op hop
  simp only [hostOps1, List.mem_cons, List.mem_nil_iff, or_false] at hop
  rcases hop with rfl | rfl | rfl | rfl | rfl | rfl | rfl
  all_goals simp only [StableHlo.nullary_writes, StableHlo.unary_writes, StableHlo.binary_writes, StableHlo.reshape_writes, Finset.mem_singleton] <;> exact StableHlo.devRef_ne_of_ne (by decide)

/-- The result array is no bypassing buffer. -/
theorem v29_not_rest : (main_v29 : Ref sig .tc) ∉ restRefs sig spec0 :=
  fun h => (Finset.mem_sdiff.mp h).2 (Finset.mem_image.mpr ⟨3, Finset.mem_univ _, rfl⟩)

/-- The buffers the later operations run within: the bypassing ones and the result array. -/
abbrev S1 : Finset (DevRef τ sig) :=
  (insert main_v29 (restRefs sig spec0)).map ⟨Proc.devRef (sig := sig) .tc, Proc.devRef_injective _⟩

theorem mem_S1_rest (b : Ref sig .tc) (hs : b.isScoped = false) (ha : ∀ w, (spec0 w).arr.view.ref ≠ b) :
    Proc.devRef (τ := τ) .tc b ∈ S1 :=
  Finset.mem_map.mpr ⟨b, Finset.mem_insert_of_mem (Pipeline.mem_restRefs_of b hs ha), rfl⟩
theorem mem_S1_v29 : Proc.devRef (τ := τ) .tc main_v29 ∈ S1 :=
  Finset.mem_map.mpr ⟨main_v29, Finset.mem_insert_self _ _, rfl⟩

/-- Every later operation touches only those. -/
theorem tail_sub : ∀ ops ∈ ([hostOps1] : List (List (HloOp τ sig (Elt F)))), ∀ op ∈ ops, op.bufs ⊆ S1 := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    simp only [StableHlo.nullary_bufs, StableHlo.unary_bufs, StableHlo.binary_bufs, StableHlo.reshape_bufs, Finset.insert_subset_iff, Finset.singleton_subset_iff]
    repeat' constructor
    all_goals first | exact mem_S1_v29 | exact mem_S1_rest _ rfl (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Held within that set at contents `W`: the result array and the bypassing buffers at `W`. -/
theorem held_S1 (c : Dev nD) (W : Valuation τ sig (Elt F)) :
    (StableHlo.held (c.tc : Thread nD τ) S1 W : sProp 𝕄)
      = iprop((((c.tc : Thread nD τ).loc main_v29) ↦{fullShare} W (Proc.devRef .tc main_v29)) ∗ unscopedRest spec0 c (fun b => W (Proc.devRef .tc b))) := by
  classical
  unfold StableHlo.held unscopedRest
  rw [bigSep_map, bigSep_insert v29_not_rest]
  rfl

set_option maxHeartbeats 1000000 in
/-- The bypassing buffers at the exit contents are the bypassing buffers at the entry contents. -/
theorem rest_W1g (c : Dev nD) (Vv : Valuation τ sig (Elt F)) (A3 : (Proc.devRef (τ := τ) (sig := sig) .tc main_v29).ty.Contents (Elt F)) :
    (unscopedRest spec0 c (fun b => W1g Vv A3 (Proc.devRef .tc b)) : sProp 𝕄) = unscopedRest spec0 c (fun b => Vv (Proc.devRef .tc b)) := by
  classical
  unfold unscopedRest
  exact bigSep_congr fun b hb => by
    have h := W1g_ne Vv A3 b (fun e => v29_not_rest (by subst e; exact hb))
    dsimp only
    rw [h]

/-- The later operations do not write the result array. -/
theorem after_W1g_v29 (Vv : Valuation τ sig (Elt F)) (A3 : (Proc.devRef (τ := τ) (sig := sig) .tc main_v29).ty.Contents (Elt F)) :
    StableHlo.after hostOps1 (W1g Vv A3) (Proc.devRef .tc main_v29) = A3 :=
  (StableHlo.after_of_forall_not_mem _ _ tail_keeps_v29).trans (W1g_self Vv A3)

set_option maxHeartbeats 2000000 in
/-- The later operations run from the result array at `A3` and the bypassing buffers at `Vv`. -/
theorem tail_run (c : Dev nD) (Vv : Valuation τ sig (Elt F)) (A3 : (Proc.devRef (τ := τ) (sig := sig) .tc main_v29).ty.Contents (Elt F))
    (Q' : PUnit → sProp 𝕄) :
    iprop(boundary (c.tc : Thread nD τ) ∗ (((c.tc : Thread nD τ).loc main_v29) ↦{fullShare} A3) ∗ unscopedRest spec0 c (fun b => Vv (Proc.devRef .tc b)))
      ⊢ iprop((iprop(boundary (c.tc : Thread nD τ) ∗ (((c.tc : Thread nD τ).loc main_v29) ↦{fullShare} A3)
                ∗ unscopedRest spec0 c (fun b => StableHlo.after hostOps1 (W1g Vv A3) (Proc.devRef .tc b)))
              -∗ wp frame (wpE (Pipeline.defs (fun q => Cfg.toPCfg (Val := Elt F) (cfgs q)) defs₀) (Variants.lift Variants.none) (c.tc : Thread nD τ) none) Set.univ
                  (Pipeline.chain []) Q')
          -∗ wp frame (wpE (Pipeline.defs (fun q => Cfg.toPCfg (Val := Elt F) (cfgs q)) defs₀) (Variants.lift Variants.none) (c.tc : Thread nD τ) none) Set.univ
              (Pipeline.chain [StableHlo.seq hostOps1]) Q') := by
  have hrun := Pipeline.wp_seqs_then (Ix := Unit) (Name := ℕ) (U := UR sig nD τ) (Lvl := ℕ) (fun q => Cfg.toPCfg (Val := Elt F) (cfgs q)) defs₀ Variants.none c S1 [] (K := Q') [hostOps1] tail_sub tail_fresh (W1g Vv A3)
  rw [held_S1, W1g_self, rest_W1g, List.flatten_cons, List.flatten_nil, List.append_nil, held_S1, after_W1g_v29, List.map_cons, List.map_nil, List.append_nil] at hrun
  exact hrun

set_option maxHeartbeats 2000000 in
set_option backward.isDefEq.respectTransparency.types false in
/-- EXIT: the operations after the region, from the arrays at contents `Fw` and the bypassing buffers at contents
    `Vv`, to the same arrays and the bypassing buffers at the operations' results from those exit contents. -/
theorem htail (c : Dev nD) (Vv : Valuation τ sig (Elt F))
    (Fw : (w : Fin cfg0.W) → Buf (Elt F) ((cfg0.win w).arr.view.loc (c.tc : Thread nD τ))) (Q' : PUnit → sProp 𝕄) :
    iprop((iprop((dats 0 c).arrays Fw ∗ unscopedRestP Pipeline.Prefetch.none spec0 c (fun b => StableHlo.after hostOps1 (W1g Vv (Fw 3)) (Proc.devRef .tc b))) -∗ Q' ⟨⟩)
        ∗ boundary (c.tc : Thread nD τ) ∗ (dats 0 c).arrays Fw ∗ unscopedRestP Pipeline.Prefetch.none spec0 c (fun b => Vv (Proc.devRef .tc b)))
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  classical
  have hs3 : (dats 0 c).share 3 = fullShare := by unfold Pipeline.Dat.share; rw [if_pos (by decide)]
  have hrun := tail_run c Vv (Fw 3) Q'
  rw [Pipeline.unscopedRestP_none, Pipeline.unscopedRestP_none]
  unfold Pipeline.Dat.arrays
  rw [bigSep_W0, (arr_whole0 3).set_eq_univ, hs3]
  iintro ⟨Hk, Hb, ⟨H0, H1, H2, H3⟩, HZ⟩
  iapply hrun $$ [Hb H3 HZ]
  · isplitl [Hb]; · iexact Hb
    isplitl [H3]; · iexact H3
    iexact HZ
  iintro ⟨Hb, H3, HZ⟩
  rw [Pipeline.chain_nil, wp_pure]
  imodintro
  iapply Hk
  isplitr [HZ]
  · isplitl [H0]; · iexact H0
    isplitl [H1]; · iexact H1
    isplitl [H2]; · iexact H2
    iexact H3
  iexact HZ

set_option maxHeartbeats 8000000 in
set_option backward.isDefEq.respectTransparency.types false in
/-- THE RUN. -/
theorem run_of (hA : ∀ c w, (dats 0 c).A w = V m c (arrRef spec0 w))
    (hq0 : ∀ c, (dats 0 c).q 0 = fullShare.left) (hq1 : ∀ c, (dats 0 c).q 1 = fullShare.right) (hq2 : ∀ c, (dats 0 c).q 2 = fullShare)
    (howed : ∀ c t, (dats 0 c).owed t = 0)
    (hbody : ∀ c, BodyObligation (dats 0 c) (defs₀ (F := F)) Variants.none () Set.univ)
    (hin : ∀ c, (ΦA spec0 c : sProp 𝕄) ⊢ (dats 0 c).Φ 0) (hout : ∀ c, (dats 0 c).Φ (Fin.last cfg0.N) ⊢ (ΦA spec0 c : sProp 𝕄)) :
    θ_run defs (onTc (τ := τ) (main (F := F))) (s₀ m ρ) (fun r => ∀ c : Dev nD,
      (∀ w, r.2.mem ((spec0 w).arr.view.loc (c.tc : Thread nD τ)) = (dats 0 c).arrAt w cfg0.N)
      ∧ ∀ b ∈ restRefs sig spec0, r.2.mem ((c.tc : Thread nD τ).loc b) = Wend m dats c (Proc.devRef .tc b)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit dats c (V m c) (hA c) (hq0 c) (hq1 c) (hq2 c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Pipeline.Prefetch.none spec0 c (V m c))
    (Z' := fun c => unscopedRestP (Ix := Unit) (Name := ℕ) (U := UR sig nD τ) (Lvl := ℕ) Pipeline.Prefetch.none spec0 c (fun b => Wend m dats c (Proc.devRef .tc b)))
    (hX := fun c => by
      iintro ⟨HU, -, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr] <;> iassumption).trans (hin c))
    (hout := fun c => (hout c).trans (by
      rw [Pipeline.ownSems0_none]; unfold ΦA
      iintro ⟨Hr, Hp⟩
      isplitl [Hp]; · iexact Hp
      isplitr; · iempintro
      iexact Hr))
    (htail := fun c Q' => htail dats c (V0 m c) (fun w => (dats 0 c).arrAt w cfg0.N) Q')
    (QY := fun c s => ∀ b ∈ restRefsP sig Pipeline.Prefetch.none spec0, s.mem ((c.tc : Thread nD τ).loc b) = Wend m dats c (Proc.devRef .tc b))
    (hY := fun c s' => by
      iintro ⟨-, HU, HSI⟩
      unfold unscopedRestP
      imodintro
      iapply (pointsTo_read_all (restRefsP sig Pipeline.Prefetch.none spec0) (fun b => (c.tc : Thread nD τ).loc b) (fun b => Wend m dats c (Proc.devRef .tc b)) s')
      isplitl [HU] <;> iassumption)
    (hQ := fun s h c => ⟨(h c).1, Pipeline.rest_of_restP Pipeline.Prefetch.none spec0 (fun k => k.elim0) c (fun b => Wend m dats c (Proc.devRef .tc b)) s (fun k => k.elim0) (h c).2.1 (h c).2.2⟩)

end Cert.KernelIdeal.Lse

end
-- ==== Proof.KClaims.lean ====
/-
  The kernel program's run with the frame module's proof data, and its frame: every weakly fair
  execution terminates and the four argument arrays end as they were launched — no host operation
  before or after the region writes an argument, and no window stages one.
-/
import proofs.«408697_j30434138259689_1_alg».proof.Proof.KFrame
import proofs.«408697_j30434138259689_1_alg».proof.Proof.KLaunch

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (restRefs arrRef)

variable (m : (ℓ : Loc nD τ sig) → Buf (Elt F) ℓ) (ρ : Dev nD → PrngReg)

/-- The arguments are what the launch put there when the region is entered … -/
theorem V_arg0 (c : Dev nD) : V m c main_arg0 = m ((c : Thread nD τ).loc main_arg0) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg1 (c : Dev nD) : V m c main_arg1 = m ((c : Thread nD τ).loc main_arg1) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg2 (c : Dev nD) : V m c main_arg2 = m ((c : Thread nD τ).loc main_arg2) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg3 (c : Dev nD) : V m c main_arg3 = m ((c : Thread nD τ).loc main_arg3) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp

/-- … and the operations after the region leave them alone. -/
theorem tail_arg0 (W : Valuation τ sig (Elt F)) : StableHlo.after hostOps1 W (Proc.devRef .tc main_arg0) = W (Proc.devRef .tc main_arg0) := by
  after_results_simp
theorem tail_arg1 (W : Valuation τ sig (Elt F)) : StableHlo.after hostOps1 W (Proc.devRef .tc main_arg1) = W (Proc.devRef .tc main_arg1) := by
  after_results_simp
theorem tail_arg2 (W : Valuation τ sig (Elt F)) : StableHlo.after hostOps1 W (Proc.devRef .tc main_arg2) = W (Proc.devRef .tc main_arg2) := by
  after_results_simp
theorem tail_arg3 (W : Valuation τ sig (Elt F)) : StableHlo.after hostOps1 W (Proc.devRef .tc main_arg3) = W (Proc.devRef .tc main_arg3) := by
  after_results_simp

/-- THE RUN with the frame module's proof data. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ ∀ b ∈ restRefs sig spec0, r.2.mem ((c.tc : Thread nD τ).loc b) = Wend m (dats m) c (Proc.devRef .tc b)) :=
  run_of m ρ (dats m) (A_eq m) (fun _ => rfl) (fun _ => rfl) (fun _ => rfl) (fun _ _ => rfl)
    (body_obligation m) (hin m) (hout m)

/-- An argument at the end: the exit contents' entry at it is the region-entry one (it is not the result array). -/
theorem Wend_arg0 (c : Dev nD) : Wend m (dats m) c (Proc.devRef .tc main_arg0) = m ((c : Thread nD τ).loc main_arg0) :=
  (tail_arg0 _).trans ((W1g_ne (V0 m c) ((dats m 0 c).arrAt 3 cfg0.N) main_arg0 (by decide)).trans (V_arg0 m c))
theorem Wend_arg1 (c : Dev nD) : Wend m (dats m) c (Proc.devRef .tc main_arg1) = m ((c : Thread nD τ).loc main_arg1) :=
  (tail_arg1 _).trans ((W1g_ne (V0 m c) ((dats m 0 c).arrAt 3 cfg0.N) main_arg1 (by decide)).trans (V_arg1 m c))
theorem Wend_arg2 (c : Dev nD) : Wend m (dats m) c (Proc.devRef .tc main_arg2) = m ((c : Thread nD τ).loc main_arg2) :=
  (tail_arg2 _).trans ((W1g_ne (V0 m c) ((dats m 0 c).arrAt 3 cfg0.N) main_arg2 (by decide)).trans (V_arg2 m c))
theorem Wend_arg3 (c : Dev nD) : Wend m (dats m) c (Proc.devRef .tc main_arg3) = m ((c : Thread nD τ).loc main_arg3) :=
  (tail_arg3 _).trans ((W1g_ne (V0 m c) ((dats m 0 c).arrAt 3 cfg0.N) main_arg3 (by decide)).trans (V_arg3 m c))

/-- THE FRAME, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Pipeline.mem_restRefs_of main_arg0 rfl (by decide))).trans (Wend_arg0 m c),
     ((h c).2 main_arg1 (Pipeline.mem_restRefs_of main_arg1 rfl (by decide))).trans (Wend_arg1 m c),
     ((h c).2 main_arg2 (Pipeline.mem_restRefs_of main_arg2 rfl (by decide))).trans (Wend_arg2 m c),
     ((h c).2 main_arg3 (Pipeline.mem_restRefs_of main_arg3 rfl (by decide))).trans (Wend_arg3 m c)⟩)
    (run_main m ρ)

end Cert.KernelIdeal.Lse

end
-- ==== Proof.KStep.lean ====
/-
  One column block's effect on the two carried buffers, as pure functions of the blocks the body
  loads (the body's arithmetic is the skeleton's named payloads): the new running maximum, the new
  running sum, the reset values, the result the last block stores — and the pair after the first
  k column blocks of one row block.
-/
import proofs.«408697_j30434138259689_1_alg».proof.Proof.Gen.KernelIdeal.Skeleton

noncomputable section

namespace Cert.KernelIdeal.Lse

open Cert.KernelIdeal Cert.KernelIdeal.Gen Idealize.ShloMosaic

variable {F : FTy → Type} [FloatOps F] [Named F]

/-- The running maximum after a block: max(old maximum, the block's row maxima). -/
def stepS0 (x0 x1 : Vec F S1024x128 .bf16) (x2 : Vec F S1024x1 .f32) (s0 : Vec F S1024x1 .f32) : Vec F S1024x1 .f32 :=
  k0_pay8 x0 x1 x2 s0
/-- The running sum after a block: exp(old max - new max) · old sum + the block's row sums of exp(disparity - new max). -/
def stepS1 (x0 x1 : Vec F S1024x128 .bf16) (x2 : Vec F S1024x1 .f32) (s0 s1 : Vec F S1024x1 .f32) : Vec F S1024x1 .f32 :=
  k0_pay1 (k0_pay7 x0 x1 x2 s0 s0 s1)
/-- The reset values: -∞ and 0. -/
def resetS0 : Vec F S1024x1 .f32 := k0_pay3 (F := F)
def resetS1 : Vec F S1024x1 .f32 := k0_pay4 (F := F)
/-- What the last block stores: maximum + log(sum). -/
def outVal (s0 s1 : Vec F S1024x1 .f32) : Vec F S1024x1 .f32 := k0_pay2 s0 s1

/-- The (maximum, sum) buffers after the first `k` column blocks of a row block whose own rows are `x0`, whose
    column blocks are `x1 b` and whose similarities are `x2`. -/
def recur (x0 : Vec F S1024x128 .bf16) (x1 : Fin 8 → Vec F S1024x128 .bf16) (x2 : Vec F S1024x1 .f32) :
    (k : ℕ) → k ≤ 8 → Vec F S1024x1 .f32 × Vec F S1024x1 .f32
  | 0, _ => (resetS0, resetS1)
  | k + 1, h =>
    (stepS0 x0 (x1 ⟨k, h⟩) x2 (recur x0 x1 x2 k (Nat.le_of_succ_le h)).1,
     stepS1 x0 (x1 ⟨k, h⟩) x2 (recur x0 x1 x2 k (Nat.le_of_succ_le h)).1 (recur x0 x1 x2 k (Nat.le_of_succ_le h)).2)

theorem recur_zero (x0 : Vec F S1024x128 .bf16) (x1 : Fin 8 → Vec F S1024x128 .bf16) (x2 : Vec F S1024x1 .f32) (h : 0 ≤ 8) :
    recur x0 x1 x2 0 h = (resetS0, resetS1) := rfl
theorem recur_succ (x0 : Vec F S1024x128 .bf16) (x1 : Fin 8 → Vec F S1024x128 .bf16) (x2 : Vec F S1024x1 .f32) (k : ℕ) (h : k + 1 ≤ 8) :
    recur x0 x1 x2 (k + 1) h =
      (stepS0 x0 (x1 ⟨k, h⟩) x2 (recur x0 x1 x2 k (Nat.le_of_succ_le h)).1,
       stepS1 x0 (x1 ⟨k, h⟩) x2 (recur x0 x1 x2 k (Nat.le_of_succ_le h)).1 (recur x0 x1 x2 k (Nat.le_of_succ_le h)).2) := rfl

end Cert.KernelIdeal.Lse

end
-- ==== Proof.KPieces.lean ====
/-
  What each case of the body leaves in the buffers, named: the pieces the runs found, read back,
  are the step functions of the blocks — after a first block the step from the reset values, after
  a later block the step from what the point before left, and at the last block the result
  maximum + log(sum) of the pair that step produced.
-/
import proofs.«408697_j30434138259689_1_alg».proof.Proof.KRunC
import proofs.«408697_j30434138259689_1_alg».proof.Proof.KStep
import Idealize.ShloMosaic.Lib.Pipeline.Value

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a whole-buffer rectangle, as the constant function. -/
private theorem hz00 : (![0, 0] : Fin 2 → Nat) = fun _ => 0 := funext fun a => by fin_cases a <;> rfl

/-- First column block: the running maximum steps from the reset value -∞. -/
theorem pieces_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 x1 : Vec F S1024x128 .bf16) (x2 : Vec F S1024x1 .f32) :
    VS0_0.read (Elt F) (VS0_0.writes (Elt F) VS0_0.junk (kernelRun0_A c i arg2 harg2 arg3 harg3 arg4 harg4 arg5 harg5 arg6 harg6 arg7 harg7 hc0 hc1 x0 x1 x2).2.1) = stepS0 x0 x1 x2 resetS0 := by
  rw [View.read_writes_junk_eq_canon]
  unfold kernelRun0_A; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl
/-- First column block: the running sum steps from the reset values. -/
theorem pieces_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 x1 : Vec F S1024x128 .bf16) (x2 : Vec F S1024x1 .f32) :
    VS0_1.read (Elt F) (VS0_1.writes (Elt F) VS0_1.junk (kernelRun0_A c i arg2 harg2 arg3 harg3 arg4 harg4 arg5 harg5 arg6 harg6 arg7 harg7 hc0 hc1 x0 x1 x2).2.2.1) = stepS1 x0 x1 x2 resetS0 resetS1 := by
  rw [View.read_writes_junk_eq_canon]
  unfold kernelRun0_A; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl

/-- Middle column block: the running maximum steps from the carried one. -/
theorem pieces_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 x1 : Vec F S1024x128 .bf16) (x2 : Vec F S1024x1 .f32) (xs0 xs1 : Vec F S1024x1 .f32) :
    VS0_0.read (Elt F) (VS0_0.writes (Elt F) VS0_0.junk (kernelRun0_B c i arg2 harg2 arg3 harg3 arg4 harg4 arg5 harg5 arg6 harg6 arg7 harg7 hc0 hc1 x0 x1 x2 xs0 xs1).2.1) = stepS0 x0 x1 x2 xs0 := by
  rw [View.read_writes_junk_eq_canon]
  unfold kernelRun0_B; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl
theorem pieces_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 x1 : Vec F S1024x128 .bf16) (x2 : Vec F S1024x1 .f32) (xs0 xs1 : Vec F S1024x1 .f32) :
    VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1) = stepS1 x0 x1 x2 xs0 xs1 := by
  rw [View.read_writes_junk_eq_canon]
  unfold kernelRun0_B; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl

/-- Last column block: the same steps, and the stored result. -/
theorem pieces_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 x1 : Vec F S1024x128 .bf16) (x2 : Vec F S1024x1 .f32) (xs0 xs1 : Vec F S1024x1 .f32) :
    VS0_0.read (Elt F) (VS0_0.writes (Elt F) VS0_0.junk (kernelRun0_C c i arg2 harg2 arg3 harg3 arg4 harg4 arg5 harg5 arg6 harg6 arg7 harg7 hc0 hc1 x0 x1 x2 xs0 xs1).2.1) = stepS0 x0 x1 x2 xs0 := by
  rw [View.read_writes_junk_eq_canon]
  unfold kernelRun0_C; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl
theorem pieces_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 x1 : Vec F S1024x128 .bf16) (x2 : Vec F S1024x1 .f32) (xs0 xs1 : Vec F S1024x1 .f32) :
    VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1) = stepS1 x0 x1 x2 xs0 xs1 := by
  rw [View.read_writes_junk_eq_canon]
  unfold kernelRun0_C; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl
theorem pieces_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 x1 : Vec F S1024x128 .bf16) (x2 : Vec F S1024x1 .f32) (xs0 xs1 : Vec F S1024x1 .f32) :
    VO0_3.read (Elt F) (VO0_3.writes (Elt F) VO0_3.junk (kernelRun0_C c i arg2 harg2 arg3 harg3 arg4 harg4 arg5 harg5 arg6 harg6 arg7 harg7 hc0 hc1 x0 x1 x2 xs0 xs1).1) = outVal (stepS0 x0 x1 x2 xs0) (stepS1 x0 x1 x2 xs0 xs1) := by
  rw [View.read_writes_junk_eq_canon]
  unfold kernelRun0_C; dsimp only
  sl_unfold_words
  rw [View.canon_cons_unit_zero (S := S1024x1) hz00]
  simp only [View.readCov_unit_zero (S := S1024x1) _ hz00, View.readAt_eq_ld, harg2.read_unread, harg3.read_unread, harg4.read_unread, harg6.read_unread, harg7.read_unread, View.ld_unit_zero (S := S1024x128) hz00, View.ld_unit_zero (S := S1024x1) hz00]
  rfl

end Cert.KernelIdeal.Lse

end
-- ==== Proof.KPoints.lean ====
/-
  Row block by row block: point 8·I + k is column block k of row block I. The similarity block and
  the row block's own feature rows are the same at all eight points of a row block (their windows'
  index maps read the row coordinate only), the column block is block k. So after point 8·I + k
  the two scratch buffers hold the recurrence's pair after k + 1 column blocks, and at k = 7 the
  result window's buffer holds the stored result of the full recurrence.
-/
import proofs.«408697_j30434138259689_1_alg».proof.Proof.KFrame
import proofs.«408697_j30434138259689_1_alg».proof.Proof.KPieces

set_option maxRecDepth 16384

noncomputable section

namespace Cert.KernelIdeal.Lse

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The blocks of row block `I`, by their literal types: its own rows, column block `b`'s rows, its similarities. -/
abbrev rowBlk (c : Dev nD) (I : Fin 8) : Vec F S1024x128 .bf16 := iblk m c 0 ⟨8 * I.val, by have := I.isLt; have : cfg0.N = 64 := N_0; omega⟩
abbrev colBlk (c : Dev nD) (I : Fin 8) (b : Fin 8) : Vec F S1024x128 .bf16 := iblk m c 1 ⟨8 * I.val + b.val, by have := I.isLt; have := b.isLt; have : cfg0.N = 64 := N_0; omega⟩
abbrev simBlk (c : Dev nD) (I : Fin 8) : Vec F S1024x1 .f32 := iblk m c 2 ⟨8 * I.val, by have := I.isLt; have : cfg0.N = 64 := N_0; omega⟩

/-- The block of an array that a window reads at a point depends on the point only through the
    window's block index there: two points with one block index read the same elements. -/
private theorem read_blk_eq_of_index {Val : EltTy → Type} {G : Pipeline.Grid} (w : Pipeline.Window sig G) (X : w.arr.view.ty.Contents Val)
    (t t' : Fin G.N) (hi : w.index t = w.index t')
    (x : (w.xblock (G.coords t)).Idx) (x' : (w.xblock (G.coords t')).Idx) (hx : ∀ a, (x a).val = (x' a).val) :
    (w.blk t).view.read Val X x = (w.blk t').view.read Val X x' := by
  have hemb : (w.blk t).view.emb x = (w.blk t').view.emb x' := by
    show w.arr.view.emb ((w.rect t).emb x) = w.arr.view.emb ((w.rect t').emb x')
    congr 1
    funext a
    apply Fin.ext
    show w.index t a * w.size a + 1 * (x a).val = w.index t' a * w.size a + 1 * (x' a).val
    rw [hi, hx a]
  rw [View.read_apply, View.read_apply, hemb]

/-- The feature rows' window reads the row coordinate only: its block index at a point is the one
    at the first point of the point's row block. -/
private theorem index0_0_row : ∀ t : Fin cfg0.N, (cfg0.win 0).index t = (cfg0.win 0).index ⟨8 * (t.val / 8), lt_of_le_of_lt (Nat.mul_div_le t.val 8) t.isLt⟩ :=
  (by decide +kernel : ∀ t : Fin grid0.N, win0_0.index t = win0_0.index ⟨8 * (t.val / 8), lt_of_le_of_lt (Nat.mul_div_le t.val 8) t.isLt⟩)
/-- So does the similarities' window. -/
private theorem index0_2_row : ∀ t : Fin cfg0.N, (cfg0.win 2).index t = (cfg0.win 2).index ⟨8 * (t.val / 8), lt_of_le_of_lt (Nat.mul_div_le t.val 8) t.isLt⟩ :=
  (by decide +kernel : ∀ t : Fin grid0.N, win0_2.index t = win0_2.index ⟨8 * (t.val / 8), lt_of_le_of_lt (Nat.mul_div_le t.val 8) t.isLt⟩)

/-- At every point of row block `I` the feature rows' window holds the row block's own rows. -/
private theorem iblk0_0_eq (c : Dev nD) (I : Fin 8) (n : ℕ) (hn : n < cfg0.N) (k : ℕ) (hk : k < 8) (e : n = 8 * I.val + k) :
    (iblk m c 0 ⟨n, hn⟩ : Vec F S1024x128 .bf16) = rowBlk m c I := by
  have hi : (cfg0.win 0).index ⟨n, hn⟩ = (cfg0.win 0).index ⟨8 * I.val, (show 8 * I.val < cfg0.N by have := I.isLt; have : cfg0.N = 64 := N_0; omega)⟩ :=
    (index0_0_row ⟨n, hn⟩).trans (congrArg (cfg0.win 0).index (Fin.ext (by show 8 * (n / 8) = 8 * I.val; omega)))
  funext x
  unfold rowBlk iblk
  exact read_blk_eq_of_index (cfg0.win 0) _ _ _ hi x x (fun _ => rfl)
/-- and the similarities' window the row block's similarities. -/
private theorem iblk0_2_eq (c : Dev nD) (I : Fin 8) (n : ℕ) (hn : n < cfg0.N) (k : ℕ) (hk : k < 8) (e : n = 8 * I.val + k) :
    (iblk m c 2 ⟨n, hn⟩ : Vec F S1024x1 .f32) = simBlk m c I := by
  have hi : (cfg0.win 2).index ⟨n, hn⟩ = (cfg0.win 2).index ⟨8 * I.val, (show 8 * I.val < cfg0.N by have := I.isLt; have : cfg0.N = 64 := N_0; omega)⟩ :=
    (index0_2_row ⟨n, hn⟩).trans (congrArg (cfg0.win 2).index (Fin.ext (by show 8 * (n / 8) = 8 * I.val; omega)))
  funext x
  unfold simBlk iblk
  exact read_blk_eq_of_index (cfg0.win 2) _ _ _ hi x x (fun _ => rfl)
/-- The column rows' window holds column block `k`'s rows at point 8·I + k. -/
private theorem iblk0_1_eq (c : Dev nD) (I : Fin 8) (n : ℕ) (hn : n < cfg0.N) (k : ℕ) (hk : k < 8) (e : n = 8 * I.val + k) :
    (iblk m c 1 ⟨n, hn⟩ : Vec F S1024x128 .bf16) = colBlk m c I ⟨k, hk⟩ := by
  subst e; rfl

/-- A first column block's point: the pair steps from the reset values. -/
private theorem outs_A (c : Dev nD) (n : ℕ) (hn : n < cfg0.N) (h0 : n % 8 = 0) (h1 : ¬n % 8 = 7) :
    (outsAt0 m c n hn).2.1 = stepS0 (iblk m c 0 ⟨n, hn⟩) (iblk m c 1 ⟨n, hn⟩) (iblk m c 2 ⟨n, hn⟩) resetS0
      ∧ (outsAt0 m c n hn).2.2 = stepS1 (iblk m c 0 ⟨n, hn⟩) (iblk m c 1 ⟨n, hn⟩) (iblk m c 2 ⟨n, hn⟩) resetS0 resetS1 := by
  rw [outsAt0_A m c ⟨n, hn⟩ h0 h1]
  unfold sout0_A_0 sout0_A_1
  rw [pieces_A_0, pieces_A_1]
  exact ⟨rfl, rfl⟩
/-- A middle column block's point: the pair steps from what the point before left. -/
private theorem outs_B (c : Dev nD) (n : ℕ) (hn : n < cfg0.N) (h0 : ¬n % 8 = 0) (h1 : ¬n % 8 = 7) :
    (outsAt0 m c n hn).2.1 = stepS0 (iblk m c 0 ⟨n, hn⟩) (iblk m c 1 ⟨n, hn⟩) (iblk m c 2 ⟨n, hn⟩) (outsAt0 m c (n - 1) (Nat.lt_of_le_of_lt (Nat.sub_le _ _) hn)).2.1
      ∧ (outsAt0 m c n hn).2.2 = stepS1 (iblk m c 0 ⟨n, hn⟩) (iblk m c 1 ⟨n, hn⟩) (iblk m c 2 ⟨n, hn⟩) (outsAt0 m c (n - 1) (Nat.lt_of_le_of_lt (Nat.sub_le _ _) hn)).2.1 (outsAt0 m c (n - 1) (Nat.lt_of_le_of_lt (Nat.sub_le _ _) hn)).2.2 := by
  rw [outsAt0_B m c ⟨n, hn⟩ h0 h1]
  unfold sout0_B_0 sout0_B_1
  rw [pieces_B_0, pieces_B_1]
  exact ⟨rfl, rfl⟩
/-- A last column block's point: the same step, and the result stored is that of the stepped pair. -/
private theorem outs_C (c : Dev nD) (n : ℕ) (hn : n < cfg0.N) (h0 : ¬n % 8 = 0) (h1 : n % 8 = 7) :
    (outsAt0 m c n hn).2.1 = stepS0 (iblk m c 0 ⟨n, hn⟩) (iblk m c 1 ⟨n, hn⟩) (iblk m c 2 ⟨n, hn⟩) (outsAt0 m c (n - 1) (Nat.lt_of_le_of_lt (Nat.sub_le _ _) hn)).2.1
      ∧ (outsAt0 m c n hn).2.2 = stepS1 (iblk m c 0 ⟨n, hn⟩) (iblk m c 1 ⟨n, hn⟩) (iblk m c 2 ⟨n, hn⟩) (outsAt0 m c (n - 1) (Nat.lt_of_le_of_lt (Nat.sub_le _ _) hn)).2.1 (outsAt0 m c (n - 1) (Nat.lt_of_le_of_lt (Nat.sub_le _ _) hn)).2.2
      ∧ (outsAt0 m c n hn).1 = outVal (outsAt0 m c n hn).2.1 (outsAt0 m c n hn).2.2 := by
  rw [outsAt0_C m c ⟨n, hn⟩ h0 h1]
  unfold out0_C_3 sout0_C_0 sout0_C_1
  rw [pieces_C_0, pieces_C_1, pieces_C_3]
  exact ⟨rfl, rfl, rfl⟩

/-- Along row block `I`: after its column block `k` the two scratch buffers hold the recurrence's pair after `k + 1` blocks. -/
private theorem outs_recur_aux (c : Dev nD) (I : Fin 8) : ∀ (k : ℕ) (hk : k < 8) (n : ℕ) (hn : n < cfg0.N) (e : n = 8 * I.val + k),
    (outsAt0 m c n hn).2.1 = (recur (rowBlk m c I) (colBlk m c I) (simBlk m c I) (k + 1) (by omega)).1
      ∧ (outsAt0 m c n hn).2.2 = (recur (rowBlk m c I) (colBlk m c I) (simBlk m c I) (k + 1) (by omega)).2 := by
  intro k
  induction k with
  | zero =>
    intro hk n hn e
    obtain ⟨e1, e2⟩ := outs_A m c n hn (by omega) (by omega)
    rw [e1, e2, iblk0_0_eq m c I n hn 0 hk e, iblk0_1_eq m c I n hn 0 hk e, iblk0_2_eq m c I n hn 0 hk e, recur_succ, recur_zero]
    exact ⟨rfl, rfl⟩
  | succ k ih =>
    intro hk n hn e
    obtain ⟨i1, i2⟩ := ih (by omega) (n - 1) (Nat.lt_of_le_of_lt (Nat.sub_le _ _) hn) (by omega)
    by_cases h1 : n % 8 = 7
    · obtain ⟨e1, e2, -⟩ := outs_C m c n hn (by omega) h1
      rw [e1, e2, i1, i2, iblk0_0_eq m c I n hn (k + 1) hk e, iblk0_1_eq m c I n hn (k + 1) hk e, iblk0_2_eq m c I n hn (k + 1) hk e, recur_succ]
      exact ⟨rfl, rfl⟩
    · obtain ⟨e1, e2⟩ := outs_B m c n hn (by omega) h1
      rw [e1, e2, i1, i2, iblk0_0_eq m c I n hn (k + 1) hk e, iblk0_1_eq m c I n hn (k + 1) hk e, iblk0_2_eq m c I n hn (k + 1) hk e, recur_succ]
      exact ⟨rfl, rfl⟩

/-- After column block `k` of row block `I` the scratch buffers hold the recurrence's pair after `k + 1` blocks. -/
theorem outs_recur (c : Dev nD) (I : Fin 8) (k : ℕ) (hk : k < 8) (hn : 8 * I.val + k < cfg0.N) :
    ((outsAt0 m c (8 * I.val + k) hn).2.1, (outsAt0 m c (8 * I.val + k) hn).2.2)
      = recur (rowBlk m c I) (colBlk m c I) (simBlk m c I) (k + 1) (by omega) := by
  obtain ⟨e1, e2⟩ := outs_recur_aux m c I k hk (8 * I.val + k) hn rfl
  exact Prod.ext e1 e2

/-- At the last column block the result window's buffer holds the stored result of the eight blocks. -/
theorem out_last (c : Dev nD) (I : Fin 8) (hn : 8 * I.val + 7 < cfg0.N) :
    (outsAt0 m c (8 * I.val + 7) hn).1
      = outVal (recur (rowBlk m c I) (colBlk m c I) (simBlk m c I) 8 le_rfl).1 (recur (rowBlk m c I) (colBlk m c I) (simBlk m c I) 8 le_rfl).2 := by
  obtain ⟨-, -, e3⟩ := outs_C m c (8 * I.val + 7) hn (by omega) (by omega)
  obtain ⟨e1, e2⟩ := outs_recur_aux m c I 7 (by omega) (8 * I.val + 7) hn rfl
  rw [e3, e1, e2]

end Cert.KernelIdeal.Lse

end
-- ==== Proof.Spec.lean ====
/-
  The mathematics both programs share, over the extended reals, with no program in sight.

  One row of the loss is a log-sum-exp of the row's disparities. The kernel takes the columns in
  blocks and keeps a running maximum `M` and a running sum `l` rescaled to it ("online softmax");
  the reference takes the maximum of the whole row first, and reads the columns through a
  permutation of them. For finite entries both are the same number.
-/
import Idealize.ShloMosaic.PureOps.Ideal

noncomputable section

namespace Cert.LseSpec

open Idealize.ShloMosaic

/-- The running maximum after one more block of columns. -/
def stepM {C : ℕ} (M : EReal) (xb : Fin C → EReal) : EReal :=
  max M ((Finset.univ : Finset (Fin C)).fold max ⊥ xb)

/-- The running sum after one more block, rescaled to the new maximum. -/
def stepL {C : ℕ} (M l : EReal) (xb : Fin C → EReal) : EReal :=
  Ideal.exp (M - stepM M xb) * l + ∑ c : Fin C, Ideal.exp (xb c - stepM M xb)

/-- The pair (maximum, rescaled sum) after the first `b` blocks, from (-∞, 0). -/
def online {B C : ℕ} (x : Fin B → Fin C → EReal) : (b : ℕ) → b ≤ B → EReal × EReal
  | 0, _ => (⊥, 0)
  | b + 1, h =>
    ((stepM (online x b (Nat.le_of_succ_le h)).1 (x ⟨b, h⟩)),
     (stepL (online x b (Nat.le_of_succ_le h)).1 (online x b (Nat.le_of_succ_le h)).2 (x ⟨b, h⟩)))

theorem online_zero {B C : ℕ} (x : Fin B → Fin C → EReal) (h : 0 ≤ B) : online x 0 h = (⊥, 0) := rfl

theorem online_succ {B C : ℕ} (x : Fin B → Fin C → EReal) (b : ℕ) (h : b + 1 ≤ B) :
    online x (b + 1) h =
      ((stepM (online x b (Nat.le_of_succ_le h)).1 (x ⟨b, h⟩)),
       (stepL (online x b (Nat.le_of_succ_le h)).1 (online x b (Nat.le_of_succ_le h)).2 (x ⟨b, h⟩))) := rfl

/-- The reference's shift: the whole row's maximum, taken from -∞ and then once more against -∞. -/
def rowMax {n : ℕ} (y : Fin n → EReal) : EReal := max ⊥ ((Finset.univ : Finset (Fin n)).fold max ⊥ y)

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, taken from -∞, of finitely many extended reals is their supremum. -/
theorem fold_max_eq_sup {ι : Type*} (s : Finset ι) (f : ι → EReal) : s.fold max ⊥ f = s.sup f := rfl

/-- The maximum of a nonempty block of reals is a real: an upper bound that is attained. -/
theorem fold_max_real {C : ℕ} (hC : 0 < C) (rb : Fin C → ℝ) :
    ∃ m : ℝ, (Finset.univ : Finset (Fin C)).fold max ⊥ (fun c => (rb c : EReal)) = (m : EReal)
      ∧ (∀ c, rb c ≤ m) ∧ ∃ c, m = rb c := by
  have H : (Finset.univ : Finset (Fin C)).Nonempty := ⟨⟨0, hC⟩, Finset.mem_univ _⟩
  refine ⟨Finset.univ.sup' H rb, ?_, fun c => Finset.le_sup' rb (Finset.mem_univ c), ?_⟩
  · rw [fold_max_eq_sup]
    apply le_antisymm
    · exact Finset.sup_le fun c _ => EReal.coe_le_coe_iff.2 (Finset.le_sup' rb (Finset.mem_univ c))
    · obtain ⟨c, _, hc⟩ := Finset.exists_mem_eq_sup' H rb
      rw [hc]
      exact Finset.le_sup (f := fun c => (rb c : EReal)) (Finset.mem_univ c)
  · obtain ⟨c, _, hc⟩ := Finset.exists_mem_eq_sup' H rb
    exact ⟨c, hc⟩

/-- After `b + 1` blocks of reals the running maximum is a real `m`, the largest entry so far, and the
    running sum is the sum over the entries so far of `exp (entry - m)`. -/
theorem online_real {B C : ℕ} (hC : 0 < C) (r : Fin B → Fin C → ℝ) (b : ℕ) (hb : b + 1 ≤ B) :
    ∃ m : ℝ,
      (online (fun b c => (r b c : EReal)) (b + 1) hb).1 = (m : EReal) ∧
      (∀ b' : Fin B, b'.val ≤ b → ∀ c, r b' c ≤ m) ∧
      (∃ b' : Fin B, ∃ c, m = r b' c) ∧
      (online (fun b c => (r b c : EReal)) (b + 1) hb).2
        = ((∑ b' ∈ Finset.univ.filter (fun b' : Fin B => b'.val ≤ b), ∑ c, Real.exp (r b' c - m) : ℝ) : EReal) := by
  induction b with
  | zero =>
    obtain ⟨m, hm, hub, c0, hc0⟩ := fold_max_real hC (r ⟨0, hb⟩)
    have hM : stepM (⊥ : EReal) (fun c => (r ⟨0, hb⟩ c : EReal)) = (m : EReal) := by
      rw [stepM, hm]; exact max_eq_right bot_le
    refine ⟨m, ?_, ?_, ⟨⟨0, hb⟩, c0, hc0⟩, ?_⟩
    · rw [online_succ, online_zero]; exact hM
    · intro b' hb' c
      have : b' = ⟨0, hb⟩ := Fin.ext (Nat.le_zero.mp hb')
      subst this; exact hub c
    · rw [online_succ, online_zero]
      show stepL ⊥ 0 (fun c => (r ⟨0, hb⟩ c : EReal)) = _
      rw [stepL, hM, mul_zero, zero_add]
      have hf : (Finset.univ.filter (fun b' : Fin B => b'.val ≤ 0)) = {⟨0, hb⟩} := by
        ext b'; simp [Fin.ext_iff]
      rw [hf, Finset.sum_singleton, coe_sum]
      refine Finset.sum_congr rfl fun c _ => ?_
      rw [← EReal.coe_sub, Ideal.exp_coe]
  | succ b ih =>
    obtain ⟨m, hM, hub, ⟨b0, c0, hc0⟩, hl⟩ := ih (Nat.le_of_succ_le hb)
    obtain ⟨mb, hmb, hubb, cb, hcb⟩ := fold_max_real hC (r ⟨b + 1, hb⟩)
    have hM' : stepM (m : EReal) (fun c => (r ⟨b + 1, hb⟩ c : EReal)) = ((max m mb : ℝ) : EReal) := by
      rw [stepM, hmb]; exact (EReal.coe_strictMono.monotone.map_max).symm
    refine ⟨max m mb, ?_, ?_, ?_, ?_⟩
    · rw [online_succ]
      show stepM _ _ = _
      rw [hM]; exact hM'
    · intro b' hb' c
      rcases Nat.lt_or_ge b'.val (b + 1) with h | h
      · exact le_trans (hub b' (Nat.lt_succ_iff.mp h) c) (le_max_left _ _)
      · have : b' = ⟨b + 1, hb⟩ := Fin.ext (le_antisymm hb' h)
        subst this; exact le_trans (hubb c) (le_max_right _ _)
    · rcases le_total m mb with h | h
      · exact ⟨⟨b + 1, hb⟩, cb, by rw [max_eq_right h]; exact hcb⟩
      · exact ⟨b0, c0, by rw [max_eq_left h]; exact hc0⟩
    · rw [online_succ]
      show stepL _ _ _ = _
      rw [hM, hl]
      show stepL (m : EReal) _ (fun c => (r ⟨b + 1, hb⟩ c : EReal)) = _
      rw [stepL, hM']
      have hf : (Finset.univ.filter (fun b' : Fin B => b'.val ≤ b + 1))
          = insert ⟨b + 1, hb⟩ (Finset.univ.filter (fun b' : Fin B => b'.val ≤ b)) := by
        ext b'; simp [Fin.ext_iff]; omega
      have hnm : (⟨b + 1, hb⟩ : Fin B) ∉ Finset.univ.filter (fun b' : Fin B => b'.val ≤ b) := by simp
      have h1 : ∑ c : Fin C, Ideal.exp ((r ⟨b + 1, hb⟩ c : EReal) - ((max m mb : ℝ) : EReal))
          = ((∑ c : Fin C, Real.exp (r ⟨b + 1, hb⟩ c - max m mb) : ℝ) : EReal) := by
        rw [coe_sum]
        refine Finset.sum_congr rfl fun c _ => ?_
        rw [← EReal.coe_sub, Ideal.exp_coe]
      have h2 : Real.exp (m - max m mb)
            * ∑ b' ∈ Finset.univ.filter (fun b' : Fin B => b'.val ≤ b), ∑ c, Real.exp (r b' c - m)
          = ∑ b' ∈ Finset.univ.filter (fun b' : Fin B => b'.val ≤ b), ∑ c, Real.exp (r b' c - max m mb) := by
        rw [Finset.mul_sum]
        refine Finset.sum_congr rfl fun b' _ => ?_
        rw [Finset.mul_sum]
        refine Finset.sum_congr rfl fun c _ => ?_
        rw [← Real.exp_add]; congr 1; ring
      rw [h1, ← EReal.coe_sub, Ideal.exp_coe, ← EReal.coe_mul, ← EReal.coe_add, h2, hf,
        Finset.sum_insert hnm, add_comm]

/-- ONE ROW. `x` is the row in blocks (finite entries), `y` the same entries read through a
    bijection of the columns, `L` the picked column. The picked entry less the online
    log-sum-exp is the reference's log-softmax at the picked column. -/
theorem row_eq {B C n : ℕ} (hB : 0 < B) (hC : 0 < C) (x : Fin B → Fin C → EReal)
    (hx : ∀ b c, ∃ r : ℝ, x b c = (r : EReal))
    (y : Fin n → EReal) (σ : Fin n ≃ Fin B × Fin C) (hy : ∀ k, y k = x (σ k).1 (σ k).2) (L : Fin n) :
    y L - ((online x B le_rfl).1 + Ideal.log (online x B le_rfl).2)
      = (y L - rowMax y) - Ideal.log (0 + ∑ k : Fin n, Ideal.exp (y k - rowMax y)) := by
  choose r hr using hx
  obtain rfl : x = fun b c => (r b c : EReal) := funext fun b => funext fun c => hr b c
  obtain ⟨b, rfl⟩ : ∃ b, B = b + 1 := ⟨B - 1, by omega⟩
  obtain ⟨m, hM, hub, ⟨b0, c0, hc0⟩, hl⟩ := online_real hC r b le_rfl
  have hfilt : (Finset.univ.filter (fun b' : Fin (b + 1) => b'.val ≤ b)) = Finset.univ := by
    ext b'; simp; omega
  rw [hfilt] at hl
  have hyr : ∀ k, y k = ((r (σ k).1 (σ k).2 : ℝ) : EReal) := hy
  -- the reference's maximum is the same real
  have hRM : rowMax y = (m : EReal) := by
    rw [rowMax, max_eq_right bot_le, fold_max_eq_sup]
    apply le_antisymm
    · exact Finset.sup_le fun k _ => by
        rw [hyr]; exact EReal.coe_le_coe_iff.2 (hub _ (Nat.lt_succ_iff.mp (σ k).1.isLt) _)
    · have : (m : EReal) = y (σ.symm (b0, c0)) := by rw [hyr, Equiv.apply_symm_apply, hc0]
      rw [this]; exact Finset.le_sup (Finset.mem_univ _)
  -- the reference's sum is the same real sum, read through the bijection
  have hsum : ∑ k : Fin n, Ideal.exp (y k - rowMax y)
      = ((∑ b' : Fin (b + 1), ∑ c, Real.exp (r b' c - m) : ℝ) : EReal) := by
    rw [hRM, ← Fintype.sum_prod_type (f := fun p : Fin (b + 1) × Fin C => Real.exp (r p.1 p.2 - m)),
      ← Equiv.sum_comp σ, coe_sum]
    refine Finset.sum_congr rfl fun k _ => ?_
    rw [hyr, ← EReal.coe_sub, Ideal.exp_coe]
  have hSpos : 0 < ∑ b' : Fin (b + 1), ∑ c, Real.exp (r b' c - m) :=
    Finset.sum_pos (fun b' _ => Finset.sum_pos (fun c _ => Real.exp_pos _)
      ⟨⟨0, hC⟩, Finset.mem_univ _⟩) ⟨⟨0, Nat.succ_pos b⟩, Finset.mem_univ _⟩
  rw [hM, hl, hsum, zero_add, hRM, Ideal.log_coe, if_neg (not_le.mpr hSpos), hyr L,
    ← EReal.coe_add, ← EReal.coe_sub, ← EReal.coe_sub, ← EReal.coe_sub]
  congr 1; ring

/-- The column remap of row `i` with positive column `j`: column `i` goes to `j`, the columns
    strictly between move one step toward `i`, the rest stay. -/
def mcol (i j k : ℕ) : ℕ :=
  if k = i then j
  else if i < j then (if i < k ∧ k ≤ j then k - 1 else k)
  else (if j ≤ k ∧ k < i then k + 1 else k)

/-- The remap keeps a column below `n` below `n`. -/
theorem mcol_lt (n i j k : ℕ) (hi : i < n) (hj : j < n) (hk : k < n) : mcol i j k < n := by
  unfold mcol; split_ifs <;> omega

/-- The remap is injective: column `i` lands on `j`, the shifted run lands on the run next to it, the
    rest stay, and these images are disjoint. -/
theorem mcol_inj (i j k k' : ℕ) (h : mcol i j k = mcol i j k') : k = k' := by
  unfold mcol at h; split_ifs at h <;> omega

/-- It permutes the columns below `n`. -/
theorem mcol_bij (n i j : ℕ) (hi : i < n) (hj : j < n) :
    ∃ e : Fin n ≃ Fin n, ∀ k : Fin n, (e k).val = mcol i j k.val := by
  let f : Fin n → Fin n := fun k => ⟨mcol i j k.val, mcol_lt n i j k.val hi hj k.isLt⟩
  have hf : Function.Injective f := fun a b hab =>
    Fin.ext (mcol_inj i j a.val b.val (congrArg Fin.val hab))
  exact ⟨Equiv.ofBijective f (Finite.injective_iff_bijective.mp hf), fun k => rfl⟩

/-- The reference's divisor, the f32 nearest 0.1, is this rational. -/
theorem ofBits_tenth : Ideal.ofBits .f32 0x3DCCCCCD#32 = ((13421773 / 134217728 : ℝ) : EReal) := by
  simp [Ideal.ofBits, Ideal.ieee, -EReal.coe_mul]; norm_num

/-- Dividing by it is multiplying by its reciprocal, on every extended real. -/
theorem div_tenth (a : EReal) :
    Ideal.div a ((13421773 / 134217728 : ℝ) : EReal) = a * ((134217728 / 13421773 : ℝ) : EReal) := by
  rw [Ideal.div_coe (by norm_num)]
  norm_num

/-- f32 8192.0. -/
theorem ofBits_8192 : Ideal.ofBits .f32 0x46000000#32 = ((8192 : ℝ) : EReal) := by
  simp [Ideal.ofBits, Ideal.ieee, -EReal.coe_mul]; norm_num

/-- f32 -∞. -/
theorem ofBits_neg_inf : Ideal.ofBits .f32 0xFF800000#32 = (⊥ : EReal) := by
  simp [Ideal.ofBits, Ideal.ieee]

end Cert.LseSpec

end
-- ==== Proof.Model.lean ====
/-
  The loss as ONE closed form, twice: as the kernel computes it and as the reference computes it,
  over plain functions of the rows. `q t` are the two feature arrays by row and feature, `jn i`
  the sampled positive row of row `i`, `ln i` the picked column (label) of row `i`.

    s i   = Σ_d q i d · q (jn i) d                    the row's positive similarity
    T i k = Σ_d t i d · t k d                         the Gram matrix of t
    the reference reads column k of row i at row  mc i k  of t  (a permutation of the columns);

  kernel:     loss = -( (0 + Σ_i ( |s i - T i (mc i (ln i))| / c  -  lse_i )) / 8192 ),
              lse_i the online log-sum-exp of  |s i - T i k| · κ  over 8 blocks of 1024 columns;
  reference:  loss = -( (0 + Σ_i logsoftmax_i (ln i)) / 8192 )  of  |s i - T i (mc i k)| / c.

  `c` is the f32 nearest 0.1 and `κ` its exact reciprocal, so `x / c = x · κ`.
-/
import proofs.«408697_j30434138259689_1_alg».proof.Proof.Spec

noncomputable section

namespace Cert.LseModel

open Idealize.ShloMosaic Cert.LseSpec

/-- The reference's divisor and the kernel's factor. -/
def c₀ : EReal := ((13421773 / 134217728 : ℝ) : EReal)
def κ₀ : EReal := ((134217728 / 13421773 : ℝ) : EReal)

/-- |x| as the ideal instance computes it. -/
def absE (x : EReal) : EReal := max x (-x)

variable (q t : Fin 8192 → Fin 128 → EReal) (jn ln : Fin 8192 → Fin 8192)

def s (i : Fin 8192) : EReal := ∑ d : Fin 128, q i d * q (jn i) d
def T (i k : Fin 8192) : EReal := ∑ d : Fin 128, t i d * t k d

/-- Row `i`'s column remap, as a column. -/
def mc (i k : Fin 8192) : Fin 8192 := ⟨mcol i.val (jn i).val k.val, mcol_lt 8192 _ _ _ i.isLt (jn i).isLt k.isLt⟩

/-- Column `1024·b + c`. -/
def col (b : Fin 8) (c : Fin 1024) : Fin 8192 := ⟨1024 * b.val + c.val, by have := b.isLt; have := c.isLt; omega⟩

/-- The kernel's disparities of row `i`, in blocks. -/
def dK (i : Fin 8192) (b : Fin 8) (c : Fin 1024) : EReal := absE (s q jn i - T t i (col b c)) * κ₀
/-- The kernel's picked disparity of row `i`. -/
def pos (i : Fin 8192) : EReal := Ideal.div (absE (s q jn i - T t i (mc jn i (ln i)))) c₀
/-- The kernel's log-sum-exp of row `i`. -/
def lseK (i : Fin 8192) : EReal := (online (dK q t jn i) 8 le_rfl).1 + Ideal.log (online (dK q t jn i) 8 le_rfl).2
def lossK : EReal := -(Ideal.div (0 + ∑ i : Fin 8192, (pos q t jn ln i - lseK q t jn i)) ((8192 : ℝ) : EReal))

/-- The reference's disparities of row `i`, by (remapped) column. -/
def dR (i k : Fin 8192) : EReal := Ideal.div (absE (s q jn i - T t i (mc jn i k))) c₀
/-- The reference's log-softmax of row `i` at column `k`. -/
def logpR (i k : Fin 8192) : EReal :=
  (dR q t jn i k - rowMax (dR q t jn i)) - Ideal.log (0 + ∑ k' : Fin 8192, Ideal.exp (dR q t jn i k' - rowMax (dR q t jn i)))
def lossR : EReal := -(Ideal.div (0 + ∑ i : Fin 8192, logpR q t jn i (ln i)) ((8192 : ℝ) : EReal))

/-- Cutting a column into its block and its place in the block: the inverse of `col`. -/
def split : Fin 8192 ≃ Fin 8 × Fin 1024 where
  toFun k := (⟨k.val / 1024, by have := k.isLt; omega⟩, ⟨k.val % 1024, Nat.mod_lt _ (by norm_num)⟩)
  invFun p := col p.1 p.2
  left_inv k := Fin.ext (by simp only [col]; omega)
  right_inv p := by
    have h1 := p.1.isLt
    have h2 := p.2.isLt
    refine Prod.ext (Fin.ext ?_) (Fin.ext ?_)
    · simp only [col]; omega
    · simp only [col]; omega

theorem col_split (k : Fin 8192) : col (split k).1 (split k).2 = k := split.symm_apply_apply k

/-- A finite sum of products of reals is a real. -/
theorem dot_real {n : ℕ} (f g : Fin n → EReal) (hf : ∀ d, ∃ r : ℝ, f d = (r : EReal))
    (hg : ∀ d, ∃ r : ℝ, g d = (r : EReal)) : ∃ r : ℝ, ∑ d, f d * g d = (r : EReal) := by
  choose rf hrf using hf
  choose rg hrg using hg
  refine ⟨∑ d, rf d * rg d, ?_⟩
  rw [coe_sum]
  refine Finset.sum_congr rfl fun d _ => ?_
  rw [hrf, hrg, EReal.coe_mul]

/-- The absolute value of a real is a real. -/
theorem absE_real (r : ℝ) : absE (r : EReal) = ((max r (-r) : ℝ) : EReal) := by
  rw [absE, ← EReal.coe_neg]; exact (EReal.coe_strictMono.monotone.map_max).symm

/-- For finite features every disparity of the kernel is a real. -/
theorem dK_real (hq : ∀ i d, ∃ r : ℝ, q i d = (r : EReal)) (ht : ∀ i d, ∃ r : ℝ, t i d = (r : EReal))
    (i : Fin 8192) (b : Fin 8) (c : Fin 1024) : ∃ r : ℝ, dK q t jn i b c = (r : EReal) := by
  obtain ⟨a, ha⟩ := dot_real (q i) (q (jn i)) (hq i) (hq (jn i))
  obtain ⟨a', ha'⟩ := dot_real (t i) (t (col b c)) (ht i) (ht (col b c))
  refine ⟨max (a - a') (-(a - a')) * (134217728 / 13421773), ?_⟩
  rw [dK, s, T, ha, ha', ← EReal.coe_sub, absE_real, κ₀, ← EReal.coe_mul]

/-- ONE ROW of the loss: the kernel's term is the reference's. The reference's columns are the kernel's
    read through the remap followed by the cut into blocks, and dividing by `c₀` is multiplying by `κ₀`. -/
theorem row_term (hq : ∀ i d, ∃ r : ℝ, q i d = (r : EReal)) (ht : ∀ i d, ∃ r : ℝ, t i d = (r : EReal))
    (i : Fin 8192) : pos q t jn ln i - lseK q t jn i = logpR q t jn i (ln i) := by
  obtain ⟨e, he⟩ := mcol_bij 8192 i.val (jn i).val i.isLt (jn i).isLt
  have hmc : ∀ k, e k = mc jn i k := fun k => Fin.ext (he k)
  have hy : ∀ k, dR q t jn i k = dK q t jn i ((e.trans split) k).1 ((e.trans split) k).2 := by
    intro k
    show dR q t jn i k = dK q t jn i (split (e k)).1 (split (e k)).2
    rw [dR, dK, col_split, hmc, c₀, div_tenth, κ₀]
  exact row_eq (B := 8) (C := 1024) (by norm_num) (by norm_num) (dK q t jn i) (dK_real q t jn hq ht i)
    (dR q t jn i) (e.trans split) hy (ln i)

/-- For finite features the two closed forms are one number. -/
theorem model_eq (hq : ∀ i d, ∃ r : ℝ, q i d = (r : EReal)) (ht : ∀ i d, ∃ r : ℝ, t i d = (r : EReal)) :
    lossK q t jn ln = lossR q t jn ln := by
  unfold lossK lossR
  rw [Finset.sum_congr rfl fun i _ => row_term q t jn ln hq ht i]

end Cert.LseModel

end
-- ==== Proof.KBodyValue.lean ====
/-
  At the ideal instance the eight-step recurrence of one row block IS the online log-sum-exp of
  the model, row by row: for row r of the block, column block b and column c, the disparity is
  |x2 r - Σ_d x0 r d · x1 b c d| · κ (a matrix product against the transposed column block, the
  similarity broadcast along the row, κ the named reciprocal of the temperature); the running
  maximum buffer holds the model's running maximum at (r, 0), the running sum buffer its running
  sum; the stored result is maximum + log(sum).
-/
import proofs.«408697_j30434138259689_1_alg».proof.Proof.KStep
import proofs.«408697_j30434138259689_1_alg».proof.Proof.Model
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.LseValue

open Cert.KernelIdeal Cert.KernelIdeal.Gen Cert.KernelIdeal.Lse Idealize.ShloMosaic Idealize.ShloMosaic.ValueIdx Cert.LseSpec Cert.LseModel

/-- Row `r`'s disparities against column block `b`. -/
def blockD (x0 : Vec Ideal S1024x128 .bf16) (x1 : Fin 8 → Vec Ideal S1024x128 .bf16) (x2 : Vec Ideal S1024x1 .f32)
    (r : Fin 1024) (b : Fin 8) (c : Fin 1024) : EReal :=
  absE (x2 (ix2 r (0 : Fin 1)) - ∑ d : Fin 128, x0 (ix2 r d) * x1 b (ix2 c d)) * κ₀

/-- The named reciprocal of the temperature is the model's factor. -/
theorem kappa_eq : Named.named (F := Ideal) Cert.KernelIdeal.κ "inv_temperature" (φ := .f32) 0x41200000#32 = κ₀ :=
  IdealRules.named_const.ideal_named_scalar _ _ _ _ rfl

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The matrix product at an index -/

/-- The operand indices of the product at output (i₀, i₁) and feature q: the left operand is read at (i₀, q), the right at (i₁, q). -/
theorem lhs_dot_0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_dot_1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_dot_0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_dot_1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- The product into the zero accumulator, at (r, c): the rows r of the left and c of the right operand, multiplied along the features. -/
theorem matmul_ix (x0 x1 : FVec Ideal S1024x128 .bf16) (r c : Fin 1024) :
    matmul dot_S1024x128_S1024x128_S1024x1024_1_1_0_0_n_n none x0 x1 (constant (F := Ideal) S1024x1024 .f32 0x00000000#32) (ix2 r c)
      = ∑ d : Fin 128, x0 (ix2 r d) * x1 (ix2 c d) := by
  simp only [matmul]
  rw [Ideal.matmul_constant_zero_apply, ← Equiv.sum_comp (contrEquiv1 dot_S1024x128_S1024x128_S1024x1024_1_1_0_0_n_n 128 rfl rfl).symm]
  refine Finset.sum_congr rfl fun k _ => ?_
  have hk := contrEquiv1_symm_val dot_S1024x128_S1024x128_S1024x1024_1_1_0_0_n_n 128 rfl rfl k
  have el : dot_S1024x128_S1024x128_S1024x1024_1_1_0_0_n_n.lhsIdx (ix2 r c) ((contrEquiv1 dot_S1024x128_S1024x128_S1024x1024_1_1_0_0_n_n 128 rfl rfl).symm k) = ix2 r k := funext fun a => Fin.ext (by
    match a with
    | ⟨0, _⟩ => exact lhs_dot_0 _ _
    | ⟨1, _⟩ => exact (lhs_dot_1 _ _).trans hk)
  have er : dot_S1024x128_S1024x128_S1024x1024_1_1_0_0_n_n.rhsIdx (ix2 r c) ((contrEquiv1 dot_S1024x128_S1024x128_S1024x1024_1_1_0_0_n_n 128 rfl rfl).symm k) = ix2 c k := funext fun a => Fin.ext (by
    match a with
    | ⟨0, _⟩ => exact rhs_dot_0 _ _
    | ⟨1, _⟩ => exact (rhs_dot_1 _ _).trans hk)
  rw [el, er]

/-- The disparities of one column block at (r, c). -/
theorem pay5_apply (x0 x1 : Vec Ideal S1024x128 .bf16) (x2 : Vec Ideal S1024x1 .f32) (r c : Fin 1024) :
    k0_pay5 (F := Ideal) x0 x1 x2 (ix2 r c)
      = absE (x2 (ix2 r (0 : Fin 1)) - ∑ d : Fin 128, x0 (ix2 r d) * x1 (ix2 c d)) * κ₀ := by
  unfold k0_pay5
  simp only [shapeCast_self]
  rw [mulf_apply, broadcast_apply, kappa_eq]
  show absE (subf (broadcastTo S1024x1024 x2 broadcasts_S1024x1_S1024x1024)
      (matmul dot_S1024x128_S1024x128_S1024x1024_1_1_0_0_n_n none x0 x1 (constant (F := Ideal) S1024x1024 .f32 0x00000000#32)) (ix2 r c)) * κ₀ = _
  rw [subf_apply, broadcastTo_a1_ab_apply, matmul_ix]

/-- The index over row r with column c inserted on the reduced axis is (r, c). -/
theorem lift_row (r c : Fin 1024) :
    reduces_S1024x1024_S1024.lift (ix1 r) c = ix2 r c :=
  funext fun a => Fin.ext (by
    match a with
    | ⟨0, _⟩ => rfl
    | ⟨1, _⟩ => rfl)

/-- The running maximum after a column block, at row r. -/
theorem pay6_apply (x0 x1 : Vec Ideal S1024x128 .bf16) (x2 : Vec Ideal S1024x1 .f32) (s0 : Vec Ideal S1024x1 .f32) (r : Fin 1024) :
    k0_pay6 (F := Ideal) x0 x1 x2 s0 (ix2 r (0 : Fin 1))
      = stepM (s0 (ix2 r (0 : Fin 1))) (fun c : Fin 1024 => k0_pay5 (F := Ideal) x0 x1 x2 (ix2 r c)) := by
  unfold k0_pay6
  generalize k0_pay5 (F := Ideal) x0 x1 x2 = D
  show maximumf s0 (shapeCast S1024x1 (multiReduction (F := Ideal) .maximumf [1] S1024 D 0xFF800000#32 reduces_S1024x1024_S1024 (.inl rfl) rfl) shapeCasts_S1024_S1024x1) (ix2 r (0 : Fin 1)) = _
  rw [maximumf_apply, shapeCast_a_a1_apply]
  refine congrArg (max _) ?_
  refine (Ideal.multiReduction_maximumf_single D _ reduces_S1024x1024_S1024 (.inl rfl) rfl (ix1 r)).trans ?_
  show (Finset.univ : Finset (Fin 1024)).fold max (Ideal.ofBits .f32 0xFF800000#32) (fun c => D (reduces_S1024x1024_S1024.lift (ix1 r) c)) = _
  rw [ofBits_neg_inf]
  exact congrArg (fun f => (Finset.univ : Finset (Fin 1024)).fold max ⊥ f) (funext fun c => congrArg D (lift_row r c))

/-- The running sum after a column block, at row r. -/
theorem pay7_apply (x0 x1 : Vec Ideal S1024x128 .bf16) (x2 : Vec Ideal S1024x1 .f32) (s0 s1 : Vec Ideal S1024x1 .f32) (r : Fin 1024) :
    k0_pay7 (F := Ideal) x0 x1 x2 s0 s0 s1 (ix2 r (0 : Fin 1))
      = stepL (s0 (ix2 r (0 : Fin 1))) (s1 (ix2 r (0 : Fin 1))) (fun c : Fin 1024 => k0_pay5 (F := Ideal) x0 x1 x2 (ix2 r c)) := by
  unfold k0_pay7
  have h6 := pay6_apply x0 x1 x2 s0 r
  generalize k0_pay6 (F := Ideal) x0 x1 x2 s0 = M at h6 ⊢
  generalize k0_pay5 (F := Ideal) x0 x1 x2 = D at h6 ⊢
  show addf (mulf (exp (subf s0 M)) s1) (shapeCast S1024x1 (multiReduction (F := Ideal) .add [1] S1024
      (exp (subf D (broadcastTo S1024x1024 M broadcasts_S1024x1_S1024x1024))) 0x00000000#32 reduces_S1024x1024_S1024 (.inl rfl) rfl)
      shapeCasts_S1024_S1024x1) (ix2 r (0 : Fin 1)) = _
  rw [addf_apply, mulf_apply, shapeCast_a_a1_apply]
  unfold stepL
  rw [← h6]
  refine congrArg₂ (· + ·) rfl ?_
  refine (Ideal.multiReduction_add_single _ _ reduces_S1024x1024_S1024 (.inl rfl) rfl (ix1 r)).trans ?_
  refine Finset.sum_congr rfl fun (c : Fin 1024) _ => ?_
  show Ideal.exp (D (reduces_S1024x1024_S1024.lift (ix1 r) c) - broadcastTo S1024x1024 M broadcasts_S1024x1_S1024x1024 (reduces_S1024x1024_S1024.lift (ix1 r) c)) = _
  rw [lift_row r c]
  exact congrArg (fun m => Ideal.exp (D (ix2 r c) - m)) (broadcastTo_a1_ab_apply M broadcasts_S1024x1_S1024x1024 r c)

/-- Row r of the block's disparities is the model's row. -/
theorem pay5_row (x0 : Vec Ideal S1024x128 .bf16) (x1 : Fin 8 → Vec Ideal S1024x128 .bf16) (x2 : Vec Ideal S1024x1 .f32)
    (r : Fin 1024) (b : Fin 8) :
    (fun c : Fin 1024 => k0_pay5 (F := Ideal) x0 (x1 b) x2 (ix2 r c)) = blockD x0 x1 x2 r b :=
  funext fun c => pay5_apply x0 (x1 b) x2 r c

theorem stepS0_apply (x0 x1 : Vec Ideal S1024x128 .bf16) (x2 : Vec Ideal S1024x1 .f32) (s0 : Vec Ideal S1024x1 .f32) (r : Fin 1024) :
    stepS0 (F := Ideal) x0 x1 x2 s0 (ix2 r (0 : Fin 1))
      = stepM (s0 (ix2 r (0 : Fin 1))) (fun c : Fin 1024 => k0_pay5 (F := Ideal) x0 x1 x2 (ix2 r c)) := by
  unfold stepS0 k0_pay8
  simp only [shapeCast_self]
  exact pay6_apply x0 x1 x2 s0 r

theorem stepS1_apply (x0 x1 : Vec Ideal S1024x128 .bf16) (x2 : Vec Ideal S1024x1 .f32) (s0 s1 : Vec Ideal S1024x1 .f32) (r : Fin 1024) :
    stepS1 (F := Ideal) x0 x1 x2 s0 s1 (ix2 r (0 : Fin 1))
      = stepL (s0 (ix2 r (0 : Fin 1))) (s1 (ix2 r (0 : Fin 1))) (fun c : Fin 1024 => k0_pay5 (F := Ideal) x0 x1 x2 (ix2 r c)) := by
  unfold stepS1 k0_pay1
  simp only [shapeCast_self]
  exact pay7_apply x0 x1 x2 s0 s1 r

/-- The reset maximum is -∞ … -/
theorem resetS0_apply (i : S1024x1.Idx) : resetS0 (F := Ideal) i = (⊥ : EReal) := by
  unfold resetS0 k0_pay3
  simp only [shapeCast_self]
  rw [broadcast_apply]
  exact ofBits_neg_inf

/-- … and the reset sum is 0. -/
theorem resetS1_apply (i : S1024x1.Idx) : resetS1 (F := Ideal) i = (0 : EReal) := by
  unfold resetS1 k0_pay4
  simp only [shapeCast_self]
  rw [broadcast_apply]
  exact Ideal.ofBits_zero_f32

/-- What the last block stores, at an index: maximum + log(sum). -/
theorem outVal_apply (s0 s1 : Vec Ideal S1024x1 .f32) (i : S1024x1.Idx) :
    outVal (F := Ideal) s0 s1 i = s0 i + Ideal.log (s1 i) := rfl

/-- After k column blocks the two buffers hold, at row r, the model's running pair. -/
theorem recur_value (x0 : Vec Ideal S1024x128 .bf16) (x1 : Fin 8 → Vec Ideal S1024x128 .bf16) (x2 : Vec Ideal S1024x1 .f32)
    (r : Fin 1024) (k : ℕ) (hk : k ≤ 8) :
    ((recur (F := Ideal) x0 x1 x2 k hk).1 (ix2 r (0 : Fin 1)), (recur (F := Ideal) x0 x1 x2 k hk).2 (ix2 r (0 : Fin 1)))
      = online (blockD x0 x1 x2 r) k hk := by
  induction k with
  | zero =>
    rw [recur_zero, online_zero]
    exact Prod.ext (resetS0_apply (ix2 r (0 : Fin 1))) (resetS1_apply (ix2 r (0 : Fin 1)))
  | succ k ih =>
    have ih' := ih (Nat.le_of_succ_le hk)
    have e1 : (recur (F := Ideal) x0 x1 x2 k (Nat.le_of_succ_le hk)).1 (ix2 r (0 : Fin 1))
        = (online (blockD x0 x1 x2 r) k (Nat.le_of_succ_le hk)).1 := congrArg Prod.fst ih'
    have e2 : (recur (F := Ideal) x0 x1 x2 k (Nat.le_of_succ_le hk)).2 (ix2 r (0 : Fin 1))
        = (online (blockD x0 x1 x2 r) k (Nat.le_of_succ_le hk)).2 := congrArg Prod.snd ih'
    rw [recur_succ, online_succ]
    refine Prod.ext ?_ ?_
    · show stepS0 (F := Ideal) x0 (x1 ⟨k, hk⟩) x2 (recur x0 x1 x2 k (Nat.le_of_succ_le hk)).1 (ix2 r (0 : Fin 1)) = _
      rw [stepS0_apply, pay5_row x0 x1 x2 r ⟨k, hk⟩, e1]
    · show stepS1 (F := Ideal) x0 (x1 ⟨k, hk⟩) x2 (recur x0 x1 x2 k (Nat.le_of_succ_le hk)).1
          (recur x0 x1 x2 k (Nat.le_of_succ_le hk)).2 (ix2 r (0 : Fin 1)) = _
      rw [stepS1_apply, pay5_row x0 x1 x2 r ⟨k, hk⟩, e1, e2]

/-- Maximum + log(sum) of the buffers after k column blocks, at row r. -/
theorem out_value_at (x0 : Vec Ideal S1024x128 .bf16) (x1 : Fin 8 → Vec Ideal S1024x128 .bf16) (x2 : Vec Ideal S1024x1 .f32)
    (r : Fin 1024) (k : ℕ) (hk : k ≤ 8) :
    outVal (F := Ideal) (recur x0 x1 x2 k hk).1 (recur x0 x1 x2 k hk).2 (ix2 r (0 : Fin 1))
      = (online (blockD x0 x1 x2 r) k hk).1 + Ideal.log (online (blockD x0 x1 x2 r) k hk).2 := by
  have h := recur_value x0 x1 x2 r k hk
  have e1 : (recur (F := Ideal) x0 x1 x2 k hk).1 (ix2 r (0 : Fin 1))
      = (online (blockD x0 x1 x2 r) k hk).1 := congrArg Prod.fst h
  have e2 : (recur (F := Ideal) x0 x1 x2 k hk).2 (ix2 r (0 : Fin 1))
      = (online (blockD x0 x1 x2 r) k hk).2 := congrArg Prod.snd h
  rw [outVal_apply, e1, e2]

/-- The stored result at row r. -/
theorem out_value (x0 : Vec Ideal S1024x128 .bf16) (x1 : Fin 8 → Vec Ideal S1024x128 .bf16) (x2 : Vec Ideal S1024x1 .f32) (r : Fin 1024) :
    outVal (F := Ideal) (recur x0 x1 x2 8 le_rfl).1 (recur x0 x1 x2 8 le_rfl).2 (ix2 r (0 : Fin 1))
      = (online (blockD x0 x1 x2 r) 8 le_rfl).1 + Ideal.log (online (blockD x0 x1 x2 r) 8 le_rfl).2 := by
  exact out_value_at x0 x1 x2 r 8 le_rfl

end Cert.KernelIdeal.LseValue

end
-- ==== Proof.KHostValue.lean ====
/-
  The kernel program's host operations at the ideal instance. Before the region: the similarity
  array (window 2's array) holds s, the feature array the two feature windows stage is t (the
  change of format is the identity), and the picked disparities are |s - t_i · t_{m_i}| / c with
  m_i the remapped label — the same remap formula as the reference's, computed elementwise. After
  the region: the loss is the negated mean of (picked disparity - log-sum-exp). The two index
  inputs are taken in [0, 8192), where both takes read in range.
-/
import proofs.«408697_j30434138259689_1_alg».proof.Proof.KRuns
import proofs.«408697_j30434138259689_1_alg».proof.Proof.Model
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.LseHost

open Cert.KernelIdeal Cert.KernelIdeal.Gen Cert.KernelIdeal.Lse
open Idealize.ShloMosaic Idealize.ShloMosaic.TcCoe Idealize.SL.Sem Idealize.ShloMosaic.StableHlo Idealize.ShloMosaic.ValueIdx Cert.LseModel

variable (m : (ℓ : Loc nD τ sig) → Buf (Elt Ideal) ℓ)

/-- The four arguments on core `c`. -/
abbrev qA (c : Dev nD) : FVec Ideal S8192x128 .f32 := m ((c : Thread nD τ).loc main_arg0)
abbrev tA (c : Dev nD) : FVec Ideal S8192x128 .f32 := m ((c : Thread nD τ).loc main_arg1)
abbrev labA (c : Dev nD) : IVec S8192 32 := m ((c : Thread nD τ).loc main_arg2)
abbrev jdxA (c : Dev nD) : IVec S8192 32 := m ((c : Thread nD τ).loc main_arg3)

/-- Features by (row, feature); indices as columns. -/
abbrev rows (x : FVec Ideal S8192x128 .f32) : Fin 8192 → Fin 128 → EReal := fun i d => x (ix2 i d)
abbrev cols (x : IVec S8192 32) (h : ∀ i : S8192.Idx, (x i).toNat < 8192) : Fin 8192 → Fin 8192 := fun i => ⟨(x (ix1 i)).toNat, h _⟩

/-- The arguments are what the launch put there. -/
theorem V_arg0 (c : Dev nD) : V m c main_arg0 = m ((c : Thread nD τ).loc main_arg0) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg1 (c : Dev nD) : V m c main_arg1 = m ((c : Thread nD τ).loc main_arg1) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg2 (c : Dev nD) : V m c main_arg2 = m ((c : Thread nD τ).loc main_arg2) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem V_arg3 (c : Dev nD) : V m c main_arg3 = m ((c : Thread nD τ).loc main_arg3) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp

/-- The array both feature windows stage is t. -/
theorem V_v27 (c : Dev nD) (i : S8192x128.Idx) :
    (V m c main_v27 : S8192x128.Idx → EReal) i = tA m c i := by
  have e : (V m c main_v27 : S8192x128.Idx → EReal)
      = (truncf (F := Ideal) .bf16 (tA m c) bitsLt_bf16_f32 : S8192x128.Idx → EReal) := by
    dsimp only [V, V0]
    simp only [hostOps0, hostOps0_1, hostOps0_2, hostOps0_3, hostOps0_4, hostOps0_5, hostOps0_6, hostOps0_7, hostOps0_8, hostOps0_9, List.flatten_cons, List.flatten_nil, List.append_nil, List.cons_append, List.nil_append]
    after_results_simp
  rw [e]
  rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun a => rfl⟩ _ _
    (fun i => congrArg f (eq_ix1 i))

/-- An [n, 1] column cast to a vector reads, at i, the column at (i, 0). -/
theorem shapeCast_col_apply {α : Type} {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

/-- A vector cast to an [n, 1] column reads, at (i, 0), the vector at i. -/
theorem shapeCast_to_col_apply {α : Type} {n : Nat} (x : (⟨1, ![n]⟩ : Shape).Idx → α)
    (h : (⟨1, ![n]⟩ : Shape).ShapeCasts ⟨2, ![n, 1]⟩) (i : Fin n) :
    shapeCast ⟨2, ![n, 1]⟩ x h (ix2 i (0 : Fin 1)) = x (ix1 i) :=
  shapeCast_apply x h _ _ (by
    rw [Shape.rowMajor_val_two, Shape.rowMajor_val_one]
    show i.val = i.val * 1 + 0
    omega)

/-! ## The host operations before the region as pure functions of the four arguments -/

/-- The start indices the printed take gathers at: a negative index wrapped by the extent, as a column. -/
def wrapIdx (j : IVec S8192 32) : IVec S8192x1 32 :=
  broadcastInDim S8192x1 ![0] bcast_S8192_S8192x1_0
    (select (cmpi .slt j (broadcastInDim S8192 ![] bcast_S_S8192 (constantI S_ 32 0#32)))
      (addi j (broadcastInDim S8192 ![] bcast_S_S8192 (constantI S_ 32 8192#32))) j)

/-- The printed take of rows: row j_i of x where the wrapped index is in [0, 8191], the fill pattern elsewhere. -/
def takeF (x : FVec Ideal S8192x128 .f32) (j : IVec S8192 32) : FVec Ideal S8192x128 .f32 :=
  select
    (broadcastInDim S8192x128 ![0] bcast_S8192_S8192x128_0
      (Host.reduce IntOp.andi
        (andi (cmpi .sge (wrapIdx j) (broadcastInDim S8192x1 ![] bcast_S_S8192x1 (constantI S_ 32 0#32)))
          (cmpi .sle (wrapIdx j) (broadcastInDim S8192x1 ![0, 1] bcast_S1x1_S8192x1_0_1
            (broadcastInDim S1x1 ![1] bcast_S1_S1x1_1 (constantI S1 32 8191#32)))))
        (constantI S_ 1 1#1) reducesTo_S8192x1_S8192_d1 h_S_))
    (Host.gather gather_S8192x128_S8192x1_S8192x128_1_0_n_n_0_1_1128 x (wrapIdx j))
    (broadcastInDim S8192x128 ![] bcast_S_S8192x128 (constant S_ .f32 0x7FC00000#32))

/-- Row i of x against row j_i of x: the sum over the features of the products, from zero. -/
def dotF (x : FVec Ideal S8192x128 .f32) (j : IVec S8192 32) : FVec Ideal S8192 .f32 :=
  Host.reduceAdd (mulf x (takeF x j)) (constant S_ .f32 0x00000000#32) reducesTo_S8192x128_S8192_d1 h_S_

/-- The remapped label word, elementwise: the nested selects over the comparisons of label, position and positive. -/
def remapF (lab jdx : IVec S8192 32) : IVec S8192 32 :=
  select (cmpi .eq lab (iotaInDim S8192 32 0)) jdx
    (select (cmpi .sgt jdx (iotaInDim S8192 32 0))
      (select (andi (cmpi .sgt lab (iotaInDim S8192 32 0)) (cmpi .sle lab jdx))
        (subi lab (broadcastInDim S8192 ![] bcast_S_S8192 (constantI S_ 32 1#32))) lab)
      (select (andi (cmpi .sge lab jdx) (cmpi .slt lab (iotaInDim S8192 32 0)))
        (addi lab (broadcastInDim S8192 ![] bcast_S_S8192 (constantI S_ 32 1#32))) lab))

/-- The picked disparities. -/
def posF (q t : FVec Ideal S8192x128 .f32) (lab jdx : IVec S8192 32) : FVec Ideal S8192 .f32 :=
  Host.divf (Host.absf (subf (dotF q jdx) (dotF t (remapF lab jdx))))
    (broadcastInDim S8192 ![] bcast_S_S8192 (constant S_ .f32 0x3DCCCCCD#32))

/-! ## Reading the printed take -/

/-- A left fold by `and` over ones, from one, is one. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l fun n hn => h n (List.mem_cons_of_mem _ hn)

/-- A reduce by `and` of an array of ones, from one, is one everywhere. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_ones x _ fun n _ => hx n

/-- The printed gather of rows read at (p, q): the operand at row (the start index at (p, 0), read signed and clamped
    into the table) and column q. -/
theorem gather_row {α : Type} (x : S8192x128.Idx → α) (idx : IVec S8192x1 32) (p : Fin 8192) (q : Fin 128) :
    Host.gather gather_S8192x128_S8192x1_S8192x128_1_0_n_n_0_1_1128 x idx (ix2 p q)
      = x (ix2 (⟨min (idx (ix2 p (0 : Fin 1))).toInt.toNat 8191, by omega⟩ : Fin 8192) q) := by
  unfold Host.gather
  congr 1
  funext a
  apply Fin.ext
  match a with
  | ⟨0, _⟩ =>
    show GatherDims.start _ (ix2 p q) idx 0 + GatherDims.batchCoord _ (ix2 p q) 0 + GatherDims.offCoord _ (ix2 p q) 0 = min _ 8191
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x128_S8192x1_S8192x128_1_0_n_n_0_1_1128.startIndexMap from List.mem_singleton.mpr rfl)]
    have hsi : gather_S8192x128_S8192x1_S8192x128_1_0_n_n_0_1_1128.siIdx (ix2 p q)
        ⟨List.idxOf (0 : Fin 2) gather_S8192x128_S8192x1_S8192x128_1_0_n_n_0_1_1128.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show GatherDims.start _ (ix2 p q) idx 1 + GatherDims.batchCoord _ (ix2 p q) 1 + GatherDims.offCoord _ (ix2 p q) 1 = q.val
    rw [GatherDims.batchCoord_eq_zero _ _ _ List.not_mem_nil]
    unfold GatherDims.start
    rw [dif_neg (show (1 : Fin 2) ∉ gather_S8192x128_S8192x1_S8192x128_1_0_n_n_0_1_1128.startIndexMap from by decide)]
    unfold GatherDims.offCoord
    rw [dif_pos (show (1 : Fin 2) ∈ gather_S8192x128_S8192x1_S8192x128_1_0_n_n_0_1_1128.sKept from by decide)]
    simp only [Nat.zero_add, Nat.add_zero]
    rfl

/-! ## The remapped label word -/

/-- The nested selects over the signed comparisons of three words below 8192, the position a literal: the column remap
    of the position, the positive and the label. -/
theorem remap_word (L J : BitVec 32) (i : Nat) (hL : L.toNat < 8192) (hJ : J.toNat < 8192) (hi : i < 8192) :
    (Scalar.select (IntOp.cmpi .eq L (BitVec.ofNat 32 i)) J
      (Scalar.select (IntOp.cmpi .sgt J (BitVec.ofNat 32 i))
        (Scalar.select (IntOp.andi (IntOp.cmpi .sgt L (BitVec.ofNat 32 i)) (IntOp.cmpi .sle L J)) (IntOp.subi L 1#32) L)
        (Scalar.select (IntOp.andi (IntOp.cmpi .sge L J) (IntOp.cmpi .slt L (BitVec.ofNat 32 i))) (IntOp.addi L 1#32) L))).toNat
      = Cert.LseSpec.mcol i J.toNat L.toNat := by
  have hI : (BitVec.ofNat 32 i).toNat = i := by rw [BitVec.toNat_ofNat]; omega
  have bL : L.toNat < 2 ^ 31 := by omega
  have bJ : J.toNat < 2 ^ 31 := by omega
  have bI : (BitVec.ofNat 32 i).toNat < 2 ^ 31 := by omega
  have e1 : IntOp.cmpi .eq L (BitVec.ofNat 32 i) = 1#1 ↔ L.toNat = i := by
    rw [StableHlo.Predicate.cmpi_eq_iff, ← BitVec.toNat_inj, hI]
  have e2 : IntOp.cmpi .sgt J (BitVec.ofNat 32 i) = 1#1 ↔ i < J.toNat := by
    rw [StableHlo.Predicate.sgt_iff_toNat bJ bI, hI]
  have e3 : IntOp.cmpi .sgt L (BitVec.ofNat 32 i) = 1#1 ↔ i < L.toNat := by
    rw [StableHlo.Predicate.sgt_iff_toNat bL bI, hI]
  have e4 : IntOp.cmpi .sle L J = 1#1 ↔ L.toNat ≤ J.toNat := StableHlo.Predicate.sle_iff_toNat bL bJ
  have e5 : IntOp.cmpi .sge L J = 1#1 ↔ J.toNat ≤ L.toNat := StableHlo.Predicate.sge_iff_toNat bL bJ
  have e6 : IntOp.cmpi .slt L (BitVec.ofNat 32 i) = 1#1 ↔ L.toNat < i := by
    rw [StableHlo.Predicate.slt_iff_toNat bL bI, hI]
  have sel : ∀ {α : Type} (c : BitVec 1) (a b : α), Scalar.select c a b = if c = 1#1 then a else b := fun _ _ _ => rfl
  simp only [sel, IntOp.andi_eq_one, e1, e2, e3, e4, e5, e6]
  unfold Cert.LseSpec.mcol
  split_ifs <;> simp only [IntOp.subi, IntOp.addi, BitVec.toNat_sub, BitVec.toNat_add, BitVec.toNat_ofNat] <;> omega

/-! ## The pure functions read at an index -/

/-- A vector laid down the rows of a column or a rectangle reads, at row p, the vector at p. -/
theorem bcast_rows1 {α : Type} (h : S8192.BroadcastsInDim S8192x1 ![0]) (v : S8192.Idx → α) (i' : S8192x1.Idx) :
    broadcastInDim S8192x1 ![0] h v i' = v (ix1 (i' 0)) :=
  broadcastInDim_apply _ _ _ _ _ fun a => match a with
    | ⟨0, _⟩ => by
      show (i' 0).val = if (8192 : ℕ) = 1 then 0 else (i' 0).val
      rw [if_neg (by decide)]
theorem bcast_rows128 {α : Type} (h : S8192.BroadcastsInDim S8192x128 ![0]) (v : S8192.Idx → α) (i' : S8192x128.Idx) :
    broadcastInDim S8192x128 ![0] h v i' = v (ix1 (i' 0)) :=
  broadcastInDim_apply _ _ _ _ _ fun a => match a with
    | ⟨0, _⟩ => by
      show (i' 0).val = if (8192 : ℕ) = 1 then 0 else (i' 0).val
      rw [if_neg (by decide)]

/-- A word below 2³¹ is not negative. -/
theorem slt_zero_of_lt (x : BitVec 32) (hx : x.toNat < 2 ^ 31) : IntOp.cmpi .slt x 0#32 = 0#1 :=
  eq_zero_of_ne_one fun h => by
    have := (StableHlo.Predicate.slt_iff_toNat hx (by decide)).1 h
    simp at this

/-- In range, the wrapped index is the index. -/
theorem wrapIdx_apply (j : IVec S8192 32) (hj : ∀ i, (j i).toNat < 8192) (i' : S8192x1.Idx) :
    wrapIdx j i' = j (ix1 (i' 0)) := by
  unfold wrapIdx
  rw [bcast_rows1]
  show Scalar.select (IntOp.cmpi .slt (j (ix1 (i' 0))) 0#32) (IntOp.addi (j (ix1 (i' 0))) 8192#32) (j (ix1 (i' 0))) = _
  rw [slt_zero_of_lt _ (by have := hj (ix1 (i' 0)); omega), select_zero]

/-- In range, the take reads the indexed row. -/
theorem takeF_apply (x : FVec Ideal S8192x128 .f32) (j : IVec S8192 32) (hj : ∀ i, (j i).toNat < 8192) (p : Fin 8192) (q : Fin 128) :
    takeF x j (ix2 p q) = x (ix2 (⟨(j (ix1 p)).toNat, hj _⟩ : Fin 8192) q) := by
  unfold takeF
  rw [select_apply, bcast_rows128]
  have hc : Host.reduce IntOp.andi
      (andi (cmpi .sge (wrapIdx j) (broadcastInDim S8192x1 ![] bcast_S_S8192x1 (constantI S_ 32 0#32)))
        (cmpi .sle (wrapIdx j) (broadcastInDim S8192x1 ![0, 1] bcast_S1x1_S8192x1_0_1
          (broadcastInDim S1x1 ![1] bcast_S1_S1x1_1 (constantI S1 32 8191#32)))))
      (constantI S_ 1 1#1) reducesTo_S8192x1_S8192_d1 h_S_ (ix1 ((ix2 p q : S8192x128.Idx) 0)) = 1#1 := by
    refine reduce_andi_ones _ _ _ _ _ rfl fun i' => ?_
    show IntOp.andi (IntOp.cmpi .sge (wrapIdx j i') 0#32) (IntOp.cmpi .sle (wrapIdx j i') 8191#32) = 1#1
    rw [wrapIdx_apply j hj]
    have hb := hj (ix1 (i' 0))
    rw [IntOp.andi_eq_one]
    exact ⟨(StableHlo.Predicate.sge_iff_toNat (by omega) (by decide)).2 (Nat.zero_le _),
      (StableHlo.Predicate.sle_iff_toNat (by omega) (by decide)).2 (by show _ ≤ 8191; omega)⟩
  rw [hc, select_one, gather_row]
  congr 2
  apply Fin.ext
  show min (wrapIdx j (ix2 p (0 : Fin 1))).toInt.toNat 8191 = (j (ix1 p)).toNat
  rw [wrapIdx_apply j hj]
  show min (j (ix1 p)).toInt.toNat 8191 = (j (ix1 p)).toNat
  have hb := hj (ix1 p)
  rw [StableHlo.Predicate.toInt_eq_toNat_of_lt (by omega), Int.toNat_natCast]
  omega

/-- In range, row i against the indexed row: the sum of the products over the features. -/
theorem dotF_apply (x : FVec Ideal S8192x128 .f32) (j : IVec S8192 32) (hj : ∀ i, (j i).toNat < 8192) (p : Fin 8192) :
    dotF x j (ix1 p) = ∑ d : Fin 128, x (ix2 p d) * x (ix2 (⟨(j (ix1 p)).toNat, hj _⟩ : Fin 8192) d) := by
  unfold dotF
  show Ideal.hostReduceAdd reducesTo_S8192x128_S8192_d1 (mulf x (takeF x j)) (Ideal.ofBits .f32 0x00000000#32) (ix1 p) = _
  rw [Ideal.hostReduceAdd_single _ (by decide : S8192x128.Reduces [1] S8192), Ideal.ofBits_zero_f32, zero_add]
  show ∑ d : Fin 128, (mulf x (takeF x j)) ((by decide : S8192x128.Reduces [1] S8192).lift (ix1 p) d) = _
  refine Finset.sum_congr rfl fun d _ => ?_
  have hl : (by decide : S8192x128.Reduces [1] S8192).lift (ix1 p) d = ix2 p d := by
    funext a
    match a with
    | ⟨0, _⟩ => rfl
    | ⟨1, _⟩ => rfl
  rw [hl, mulf_apply, takeF_apply x j hj]

/-- The remapped label word is the column remap, so below 8192. -/
theorem remapF_apply (lab jdx : IVec S8192 32) (hl : ∀ i, (lab i).toNat < 8192) (hj : ∀ i, (jdx i).toNat < 8192) (p : Fin 8192) :
    (remapF lab jdx (ix1 p)).toNat = Cert.LseSpec.mcol p.val (jdx (ix1 p)).toNat (lab (ix1 p)).toNat :=
  remap_word (lab (ix1 p)) (jdx (ix1 p)) p.val (hl _) (hj _) p.isLt

theorem remapF_lt (lab jdx : IVec S8192 32) (hl : ∀ i, (lab i).toNat < 8192) (hj : ∀ i, (jdx i).toNat < 8192) (i : S8192.Idx) :
    (remapF lab jdx i).toNat < 8192 := by
  obtain ⟨p, rfl⟩ : ∃ p : Fin 8192, i = ix1 p := ⟨i 0, eq_ix1 i⟩
  rw [remapF_apply lab jdx hl hj]
  exact Cert.LseSpec.mcol_lt 8192 _ _ _ p.isLt (hj _) (hl _)

/-! ## The fold before the region is these functions of the launch contents -/

/-- Contents moved to a typed reference's buffer type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- What the region finds in the similarity window's array. -/
theorem V_v28_eq (c : Dev nD) :
    (V m c main_v28 : S8192x1.Idx → EReal) = shapeCast S8192x1 (dotF (qA m c) (jdxA m c)) shapeCasts_S8192_S8192x1 := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  rfl

/-- What the region finds in the picked-disparity array. -/
theorem V_v26_eq (c : Dev nD) :
    (V m c main_v26 : S8192.Idx → EReal) = posF (qA m c) (tA m c) (labA m c) (jdxA m c) := by
  dsimp only [V, V0]
  simp only [hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
  simp only [ofBuf_toBuf]
  unfold posF dotF takeF wrapIdx remapF
  rfl

/-- The similarity window's array is s, as a column. -/
theorem V_v28 (c : Dev nD) (hj : ∀ i : S8192.Idx, (jdxA m c i).toNat < 8192) (i : Fin 8192) :
    (V m c main_v28 : S8192x1.Idx → EReal) (ix2 i (0 : Fin 1)) = s (rows (qA m c)) (cols (jdxA m c) hj) i := by
  rw [V_v28_eq, shapeCast_to_col_apply, dotF_apply _ _ hj]
  rfl

/-- The picked disparities. -/
theorem V_v26 (c : Dev nD) (hl : ∀ i : S8192.Idx, (labA m c i).toNat < 8192) (hj : ∀ i : S8192.Idx, (jdxA m c i).toNat < 8192) (i : Fin 8192) :
    (V m c main_v26 : S8192.Idx → EReal) (ix1 i)
      = pos (rows (qA m c)) (rows (tA m c)) (cols (jdxA m c) hj) (cols (labA m c) hl) i := by
  rw [V_v26_eq]
  unfold posF
  show Ideal.div (max (dotF (qA m c) (jdxA m c) (ix1 i) - dotF (tA m c) (remapF (labA m c) (jdxA m c)) (ix1 i))
      (-(dotF (qA m c) (jdxA m c) (ix1 i) - dotF (tA m c) (remapF (labA m c) (jdxA m c)) (ix1 i))))
      (Ideal.ofBits .f32 0x3DCCCCCD#32) = _
  rw [dotF_apply _ _ hj, dotF_apply _ _ (remapF_lt _ _ hl hj), Cert.LseSpec.ofBits_tenth]
  unfold Cert.LseModel.pos Cert.LseModel.absE Cert.LseModel.c₀ Cert.LseModel.s Cert.LseModel.T Cert.LseModel.mc
  have hk : ∀ h, (⟨(remapF (labA m c) (jdxA m c) (ix1 i)).toNat, h⟩ : Fin 8192)
      = ⟨Cert.LseSpec.mcol i.val (cols (jdxA m c) hj i).val (cols (labA m c) hl i).val,
          Cert.LseSpec.mcol_lt 8192 _ _ _ i.isLt (cols (jdxA m c) hj i).isLt (cols (labA m c) hl i).isLt⟩ :=
    fun h => Fin.ext (remapF_apply _ _ hl hj i)
  rw [hk]

/-- The operations after the region, from any contents `W` holding the picked disparities `v26` and the kernel's result
    `v29`: the loss. -/
theorem tail_v34 (W : Valuation τ sig (Elt Ideal)) (v26 : S8192.Idx → EReal) (v29 : S8192x1.Idx → EReal)
    (h26 : W (Proc.devRef .tc main_v26) = v26) (h29 : W (Proc.devRef .tc main_v29) = v29) :
    StableHlo.after hostOps1 W (Proc.devRef .tc main_v34)
      = fun _ => -(Ideal.div (0 + ∑ i : Fin 8192, (v26 (ix1 i) - v29 (ix2 i (0 : Fin 1)))) ((8192 : ℝ) : EReal)) := by
  after_results_simp
  rw [h26, h29]
  funext x
  show -(Ideal.div (Ideal.hostReduceAdd reducesTo_S8192_S_d0
      (subf (F := Ideal) v26 fun i => shapeCast S8192 v29 shapeCasts_S8192x1_S8192 i) (Ideal.ofBits .f32 0x00000000#32) x)
      (Ideal.ofBits .f32 0x46000000#32)) = _
  rw [Ideal.hostReduceAdd_total _ (fun b => b.elim0), Ideal.ofBits_zero_f32, Cert.LseSpec.ofBits_8192, sum_idx1]
  congr 3
  refine Finset.sum_congr rfl fun i _ => ?_
  show v26 (ix1 i) - shapeCast S8192 v29 shapeCasts_S8192x1_S8192 (ix1 i) = _
  rw [shapeCast_col_apply]

/-- They leave the arguments alone. -/
theorem tail_arg0 (W : Valuation τ sig (Elt Ideal)) : StableHlo.after hostOps1 W (Proc.devRef .tc main_arg0) = W (Proc.devRef .tc main_arg0) := by
  after_results_simp
theorem tail_arg1 (W : Valuation τ sig (Elt Ideal)) : StableHlo.after hostOps1 W (Proc.devRef .tc main_arg1) = W (Proc.devRef .tc main_arg1) := by
  after_results_simp
theorem tail_arg2 (W : Valuation τ sig (Elt Ideal)) : StableHlo.after hostOps1 W (Proc.devRef .tc main_arg2) = W (Proc.devRef .tc main_arg2) := by
  after_results_simp
theorem tail_arg3 (W : Valuation τ sig (Elt Ideal)) : StableHlo.after hostOps1 W (Proc.devRef .tc main_arg3) = W (Proc.devRef .tc main_arg3) := by
  after_results_simp

end Cert.KernelIdeal.LseHost

end
-- ==== Proof.KValue1.lean ====
/-
  The blocks the body loaded, read where their rectangles say: the block of a window at a point is the
  window's array at (block index × block size + the coordinate inside the block) on each axis. Row block I
  reads rows 1024·I + r of t and of the similarities; column block b reads rows 1024·b + c of t.
  So row r of row block I sees exactly the model's disparities of row 1024·I + r, block by block.
-/
import proofs.«408697_j30434138259689_1_alg».proof.Proof.KPoints
import proofs.«408697_j30434138259689_1_alg».proof.Proof.KBodyValue
import proofs.«408697_j30434138259689_1_alg».proof.Proof.KHostValue

set_option maxRecDepth 16384

noncomputable section

namespace Cert.KernelIdeal.LseValue

open Cert.KernelIdeal Cert.KernelIdeal.Gen Cert.KernelIdeal.Lse Cert.KernelIdeal.LseHost
open Idealize.ShloMosaic Idealize.ShloMosaic.TcCoe Idealize.SL.Sem Idealize.ShloMosaic.ValueIdx Cert.LseSpec Cert.LseModel
open Idealize.ShloMosaic.Pipeline (Dat Cfg Window)

variable (m : (ℓ : Loc nD τ sig) → Buf (Elt Ideal) ℓ)

/-- The printed index maps, decided over the grid: the row-indexed windows sit at block ⌊t/8⌋, the column window at
    block t mod 8, all at column block 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- Row block `I`'s own rows are rows 1024·I + r of the array. -/
theorem rowBlk_at (c : Dev nD) (I : Fin 8) (r : Fin 1024) (d : Fin 128) :
    (rowBlk m c I : S1024x128.Idx → EReal) (ix2 r d)
      = (V m c main_v27 : S8192x128.Idx → EReal) (ix2 ⟨1024 * I.val + r.val, by have := I.isLt; have := r.isLt; omega⟩ d) := by
  obtain ⟨e0, e1, -⟩ := idx_facts ⟨8 * I.val, by have := I.isLt; have : cfg0.N = 64 := N_0; omega⟩
  unfold rowBlk iblk
  rw [View.read_apply]
  show V m c main_v27 _ = V m c main_v27 _
  congr 1
  funext a
  apply Fin.ext
  match a with
  | ⟨0, _⟩ =>
    show win0_0.index ⟨8 * I.val, _⟩ (0 : Fin 2) * 1024 + 1 * r.val = 1024 * I.val + r.val
    rw [e0]; simp only; omega
  | ⟨1, _⟩ =>
    show win0_0.index ⟨8 * I.val, _⟩ (1 : Fin 2) * 128 + 1 * d.val = d.val
    rw [e1]; omega

/-- Column block `b`'s rows are rows 1024·b + c of the array, whatever the row block. -/
theorem colBlk_at (c : Dev nD) (I b : Fin 8) (cc : Fin 1024) (d : Fin 128) :
    (colBlk m c I b : S1024x128.Idx → EReal) (ix2 cc d)
      = (V m c main_v27 : S8192x128.Idx → EReal) (ix2 ⟨1024 * b.val + cc.val, by have := b.isLt; have := cc.isLt; omega⟩ d) := by
  obtain ⟨-, -, e0, e1, -⟩ := idx_facts ⟨8 * I.val + b.val, by have := I.isLt; have := b.isLt; have : cfg0.N = 64 := N_0; omega⟩
  unfold colBlk iblk
  rw [View.read_apply]
  show V m c main_v27 _ = V m c main_v27 _
  congr 1
  funext a
  apply Fin.ext
  match a with
  | ⟨0, _⟩ =>
    show win0_1.index ⟨8 * I.val + b.val, _⟩ (0 : Fin 2) * 1024 + 1 * cc.val = 1024 * b.val + cc.val
    have := b.isLt
    rw [e0]; simp only; omega
  | ⟨1, _⟩ =>
    show win0_1.index ⟨8 * I.val + b.val, _⟩ (1 : Fin 2) * 128 + 1 * d.val = d.val
    rw [e1]; omega

/-- Row block `I`'s similarities are rows 1024·I + r of the similarity column. -/
theorem simBlk_at (c : Dev nD) (I : Fin 8) (r : Fin 1024) :
    (simBlk m c I : S1024x1.Idx → EReal) (ix2 r (0 : Fin 1))
      = (V m c main_v28 : S8192x1.Idx → EReal) (ix2 ⟨1024 * I.val + r.val, by have := I.isLt; have := r.isLt; omega⟩ (0 : Fin 1)) := by
  obtain ⟨-, -, -, -, e0, e1, -⟩ := idx_facts ⟨8 * I.val, by have := I.isLt; have : cfg0.N = 64 := N_0; omega⟩
  unfold simBlk iblk
  rw [View.read_apply]
  show V m c main_v28 _ = V m c main_v28 _
  congr 1
  funext a
  apply Fin.ext
  match a with
  | ⟨0, _⟩ =>
    show win0_2.index ⟨8 * I.val, _⟩ (0 : Fin 2) * 1024 + 1 * r.val = 1024 * I.val + r.val
    rw [e0]; simp only; omega
  | ⟨1, _⟩ =>
    show win0_2.index ⟨8 * I.val, _⟩ (1 : Fin 2) * 1 + 1 * (0 : Fin 1).val = (0 : Fin 1).val
    rw [e1]; rfl

/-- So row `r` of row block `I` sees the model's disparities of row 1024·I + r, block by block. -/
theorem blockD_eq (c : Dev nD) (hj : ∀ i : S8192.Idx, (jdxA m c i).toNat < 8192) (I : Fin 8) (r : Fin 1024) :
    blockD (rowBlk m c I) (colBlk m c I) (simBlk m c I) r
      = dK (rows (qA m c)) (rows (tA m c)) (cols (jdxA m c) hj)
          ⟨1024 * I.val + r.val, by have := I.isLt; have := r.isLt; omega⟩ := by
  funext b cc
  unfold blockD dK
  rw [simBlk_at, V_v28 m c hj]
  have hT : ∑ d : Fin 128, rowBlk m c I (ix2 r d) * colBlk m c I b (ix2 cc d)
      = Cert.LseModel.T (rows (tA m c)) ⟨1024 * I.val + r.val, by have := I.isLt; have := r.isLt; omega⟩ (col b cc) := by
    unfold Cert.LseModel.T
    refine Finset.sum_congr rfl fun d _ => ?_
    rw [rowBlk_at, colBlk_at, V_v27, V_v27]
    rfl
  rw [hT]

end Cert.KernelIdeal.LseValue

end
-- ==== Proof.KValue.lean ====
/-
  The result array after the region. The result window is written back at the last column block of
  each row block; its 8 blocks of 1024 rows tile the [8192, 1] array, so the array after the run is
  read block by block. Row i = 1024·I + r of the array is row r of row block I's stored result:
  the online log-sum-exp of that row's disparities against all 8192 columns — the model's `lseK`.
  The blocks the body loaded are blocks of the arrays the region found: the row block's own rows
  and each column block's rows of t, and the row block's similarities s.
-/
import proofs.«408697_j30434138259689_1_alg».proof.Proof.KPoints
import proofs.«408697_j30434138259689_1_alg».proof.Proof.KBodyValue
import proofs.«408697_j30434138259689_1_alg».proof.Proof.KHostValue
import proofs.«408697_j30434138259689_1_alg».proof.Proof.KValue1

set_option maxRecDepth 16384

noncomputable section

namespace Cert.KernelIdeal.LseValue

open Cert.KernelIdeal Cert.KernelIdeal.Gen Cert.KernelIdeal.Lse Cert.KernelIdeal.LseHost
open Idealize.ShloMosaic Idealize.ShloMosaic.TcCoe Idealize.SL.Sem Idealize.ShloMosaic.ValueIdx Cert.LseSpec Cert.LseModel
open Idealize.ShloMosaic.Pipeline (Dat Cfg Window)

variable (m : (ℓ : Loc nD τ sig) → Buf (Elt Ideal) ℓ)

/-- The last point of row block `I`. -/
abbrev pt7 (I : Fin 8) : Fin cfg0.N := ⟨8 * I.val + 7, by have := I.isLt; have : cfg0.N = 64 := N_0; omega⟩

/-- The whole result array: row `i` holds the model's log-sum-exp of row `i`. -/
abbrev G (c : Dev nD) (hj : ∀ i : S8192.Idx, (jdxA m c i).toNat < 8192) : S8192x1.Idx → EReal :=
  fun j => lseK (rows (qA m c)) (rows (tA m c)) (cols (jdxA m c) hj) (j 0)

/-- What the last point of row block `I` leaves in the result window's buffer, at row `r`. -/
theorem flushed_at (c : Dev nD) (hj : ∀ i : S8192.Idx, (jdxA m c i).toNat < 8192) (I : Fin 8) (r : Fin 1024) :
    ((dats (F := Ideal) m 0 c).after 3 (pt7 I) : S1024x1.Idx → EReal) (ix2 r (0 : Fin 1))
      = lseK (rows (qA m c)) (rows (tA m c)) (cols (jdxA m c) hj)
          ⟨1024 * I.val + r.val, by have := I.isLt; have := r.isLt; omega⟩ := by
  rw [after0_3]
  show (outsAt0 m c (8 * I.val + 7) _).1 (ix2 r (0 : Fin 1)) = _
  rw [out_last m c I, out_value, blockD_eq m c hj I r]
  rfl

/-- WHAT THE LAST POINT OF ROW BLOCK `I` WRITES BACK is its block of the whole result array. -/
theorem flushed_eq_pt (c : Dev nD) (hj : ∀ i : S8192.Idx, (jdxA m c i).toNat < 8192) (I : Fin 8) :
    (dats (F := Ideal) m 0 c).flushed 3 (pt7 I) = ((cfg0.win 3).blk (pt7 I)).view.read (Elt Ideal) (G m c hj) := by
  obtain ⟨-, -, -, -, -, -, e0, e1⟩ := idx_facts (pt7 I)
  funext j
  rw [View.read_apply]
  have hj0 : (j 0).val < 1024 := (j 0).isLt
  have hj1 : (j 1).val < 1 := (j 1).isLt
  have ej : (j : S1024x1.Idx) = ix2 ⟨(j 0).val, hj0⟩ (0 : Fin 1) := by
    funext a
    apply Fin.ext
    match a with
    | ⟨0, _⟩ => rfl
    | ⟨1, _⟩ => show (j 1).val = 0; omega
  show ((dats (F := Ideal) m 0 c).after 3 (pt7 I) : S1024x1.Idx → EReal) j
    = lseK (rows (qA m c)) (rows (tA m c)) (cols (jdxA m c) hj) ((((cfg0.win 3).blk (pt7 I)).view.emb j) 0)
  refine (congrArg ((dats (F := Ideal) m 0 c).after 3 (pt7 I) : S1024x1.Idx → EReal) ej).trans ?_
  rw [flushed_at m c hj I ⟨(j 0).val, hj0⟩]
  congr 1
  apply Fin.ext
  show 1024 * I.val + (j 0).val = win0_3.index (pt7 I) (0 : Fin 2) * 1024 + 1 * (j 0).val
  rw [e0]; simp only; omega

/-- Every point that writes the result window back writes its block of the whole result array. -/
theorem flushed_eq (c : Dev nD) (hj : ∀ i : S8192.Idx, (jdxA m c i).toNat < 8192) (t : Fin cfg0.N)
    (hf : (cfg0.win 3).flush t = true) :
    (dats (F := Ideal) m 0 c).flushed 3 t = ((cfg0.win 3).blk t).view.read (Elt Ideal) (G m c hj) := by
  have h7 := (flush0_3 t).mp hf
  have hN : cfg0.N = 64 := N_0
  have hI : t.val / 8 < 8 := by have := t.isLt; omega
  have e : t = pt7 ⟨t.val / 8, hI⟩ := Fin.ext (by show t.val = 8 * (t.val / 8) + 7; omega)
  rw [e]
  exact flushed_eq_pt m c hj ⟨t.val / 8, hI⟩

/-- An index of the result array is in point `t`'s block iff each coordinate is in the block's range on its axis. -/
theorem mem_blk (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v29).slice (win0_3.rect t)).set ↔ _
  rw [View.set_slice_whole, Rect.mem_set_unit]
  exact Iff.rfl

/-- The eight written-back blocks cover the result array: row `i` is in the block of row block ⌊i/1024⌋. -/
theorem cover (i : S8192x1.Idx) :
    ∃ t : Fin cfg0.N, (cfg0.win 3).flush t = true ∧ i ∈ ((cfg0.win 3).blk t).view.set := by
  have h0 : (i 0).val < 8192 := (i 0).isLt
  have h1 : (i 1).val < 1 := (i 1).isLt
  have hI : (i 0).val / 1024 < 8 := by omega
  refine ⟨pt7 ⟨(i 0).val / 1024, hI⟩, (flush0_3 _).mpr (by show (8 * ((i 0).val / 1024) + 7) % 8 = 7; omega), ?_⟩
  rw [mem_blk]
  obtain ⟨-, -, -, -, -, -, e0, e1⟩ := idx_facts (pt7 ⟨(i 0).val / 1024, hI⟩)
  intro a
  match a with
  | ⟨0, _⟩ =>
    show win0_3.index (pt7 ⟨(i 0).val / 1024, hI⟩) (0 : Fin 2) * 1024 ≤ (i 0).val
      ∧ (i 0).val < win0_3.index (pt7 ⟨(i 0).val / 1024, hI⟩) (0 : Fin 2) * 1024 + 1024
    rw [e0]; simp only; omega
  | ⟨1, _⟩ =>
    show win0_3.index (pt7 ⟨(i 0).val / 1024, hI⟩) (1 : Fin 2) * 1 ≤ (i 1).val
      ∧ (i 1).val < win0_3.index (pt7 ⟨(i 0).val / 1024, hI⟩) (1 : Fin 2) * 1 + 1
    rw [e1]; omega

/-- The result array after the run, at row `i`: the model's log-sum-exp of row `i`. -/
theorem arr_final (c : Dev nD) (hj : ∀ i : S8192.Idx, (jdxA m c i).toNat < 8192) (i : Fin 8192) :
    ((dats (F := Ideal) m 0 c).arrAt 3 cfg0.N : S8192x1.Idx → EReal) (ix2 i (0 : Fin 1))
      = lseK (rows (qA m c)) (rows (tA m c)) (cols (jdxA m c) hj) i := by
  have h := (dats (F := Ideal) m 0 c).arrAt_eq_of_cover 3 (G m c hj) (fun t hf => flushed_eq m c hj t hf) cover
  exact congrFun h (ix2 i (0 : Fin 1))

end Cert.KernelIdeal.LseValue

end
-- ==== Proof.KAlg.lean ====
/-
  The kernel program's result at the ideal instance is the model's kernel-side closed form: the
  host operations after the region take the picked disparities (held by a bypassing buffer since
  before the region) and the kernel's row-wise log-sum-exp (the result array) to the negated mean
  of their difference.
-/
import proofs.«408697_j30434138259689_1_alg».proof.Proof.KClaims
import proofs.«408697_j30434138259689_1_alg».proof.Proof.KValue

set_option maxRecDepth 16384

noncomputable section

namespace Cert.KernelIdeal.LseValue

open Cert.KernelIdeal Cert.KernelIdeal.Gen Cert.KernelIdeal.Lse Cert.KernelIdeal.LseHost
open Idealize.ShloMosaic Idealize.ShloMosaic.TcCoe Idealize.SL.Sem Idealize.ShloMosaic.ValueIdx Cert.LseSpec Cert.LseModel

variable (m : (ℓ : Loc nD τ sig) → Buf (Elt Ideal) ℓ)

/-- The exit contents at the picked disparities' buffer are the region-entry ones. -/
theorem W1_v26 (c : Dev nD) : W1 m (dats m) c (Proc.devRef .tc main_v26) = V m c main_v26 :=
  W1g_ne (V0 m c) ((dats (F := Ideal) m 0 c).arrAt 3 cfg0.N) main_v26 (by decide)

/-- … and at the result array, its final contents. -/
theorem W1_v29 (c : Dev nD) : W1 m (dats m) c (Proc.devRef .tc main_v29) = (dats (F := Ideal) m 0 c).arrAt 3 cfg0.N :=
  W1g_self (V0 m c) ((dats (F := Ideal) m 0 c).arrAt 3 cfg0.N)

set_option maxHeartbeats 2000000 in
/-- The loss buffer after the run. -/
theorem Wend_v34 (c : Dev nD) (hl : ∀ i : S8192.Idx, (labA m c i).toNat < 8192) (hj : ∀ i : S8192.Idx, (jdxA m c i).toNat < 8192) :
    Wend m (dats m) c (Proc.devRef .tc main_v34)
      = fun _ => lossK (rows (qA m c)) (rows (tA m c)) (cols (jdxA m c) hj) (cols (labA m c) hl) := by
  obtain ⟨v26, hv26⟩ : ∃ v26 : S8192.Idx → EReal, v26 = V m c main_v26 := ⟨_, rfl⟩
  obtain ⟨v29, hv29⟩ : ∃ v29 : S8192x1.Idx → EReal, v29 = (dats (F := Ideal) m 0 c).arrAt 3 cfg0.N := ⟨_, rfl⟩
  have e := tail_v34 (W1 m (dats m) c) v26 v29 ((W1_v26 m c).trans hv26.symm) ((W1_v29 m c).trans hv29.symm)
  have hsum : ∀ i : Fin 8192, v26 (ix1 i) - v29 (ix2 i (0 : Fin 1))
      = pos (rows (qA m c)) (rows (tA m c)) (cols (jdxA m c) hj) (cols (labA m c) hl) i - lseK (rows (qA m c)) (rows (tA m c)) (cols (jdxA m c) hj) i := fun i => by
    rw [hv26, hv29, V_v26 m c hl hj i, arr_final m c hj i]
  unfold Wend
  rw [e]
  funext _
  unfold lossK
  rw [Finset.sum_congr rfl fun i _ => hsum i]

/-- THE VALUE RUN: every weakly fair execution terminates, the loss buffer holds the model's kernel-side closed form (for
    index inputs in range) and the arguments are unchanged. -/
theorem run_value (ρ : Dev nD → PrngReg)
    (hl : ∀ c, ∀ i : S8192.Idx, (labA m c i).toNat < 8192) (hj : ∀ c, ∀ i : S8192.Idx, (jdxA m c i).toNat < 8192) :
    θ_run defs (onTc (τ := τ) (main (F := Ideal))) ⟨m, fun _ => 0, ρ⟩ (fun r => ∀ c : Dev nD,
      r.2.mem ((c.tc : Thread nD τ).loc main_v34) = (fun _ => lossK (rows (qA m c)) (rows (tA m c)) (cols (jdxA m c) (hj c)) (cols (labA m c) (hl c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v34 (Pipeline.mem_restRefs_of main_v34 rfl (by decide))).trans (Wend_v34 m c (hl c) (hj c)),
     ((h c).2 main_arg0 (Pipeline.mem_restRefs_of main_arg0 rfl (by decide))).trans (Wend_arg0 m c),
     ((h c).2 main_arg1 (Pipeline.mem_restRefs_of main_arg1 rfl (by decide))).trans (Wend_arg1 m c),
     ((h c).2 main_arg2 (Pipeline.mem_restRefs_of main_arg2 rfl (by decide))).trans (Wend_arg2 m c),
     ((h c).2 main_arg3 (Pipeline.mem_restRefs_of main_arg3 rfl (by decide))).trans (Wend_arg3 m c)⟩)
    (run_main (F := Ideal) m ρ)

end Cert.KernelIdeal.LseValue

end
-- ==== Proof.RefRunThm.lean ====
/-
  The reference program's run, read back at its result: every weakly fair execution of its @main
  terminates, the result buffer holds the last stage of the program's operations applied to the
  launch contents of the four arguments, and the arguments are unchanged.

  The program is a straight line of operations in single-assignment form: each operation writes one
  reference, no reference is written twice, and an operation reads only arguments and references
  written before it. So the contents `R` the line leaves satisfy one equation per operation,
  `R y = f (R a) (R b) …` (the `k`-th operation's result over what the first `k` operations leave, and
  none of `a`, `b`, … is written from the `k`-th operation on), and `R` at an argument is the launch
  contents. Reading these equations in program order gives, stage by stage, `R y = val_y` — each stage
  of the read-back is by definition its operation applied to the stages of its operands — without the
  composed term of the whole program ever being formed.
-/
import proofs.«408697_j30434138259689_1_alg».proof.Proof.RefRead

noncomputable section

namespace Cert.ReferenceIdeal.RefRunV

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

section SingleAssignment

variable {τ : Topo} {sig : RefSig} {Val : EltTy → Type}

/-- `ys` names, operation by operation, the one reference each operation of `l` writes. -/
def Tracks : List (HloOp τ sig Val) → List (Ref sig .tc) → Prop
  | [], [] => True
  | op :: l, y :: ys => op.writes = {Proc.devRef .tc y} ∧ Tracks l ys
  | _, _ => False

/-- A reference none of the operations writes keeps its contents through the line. -/
theorem Tracks.skip : ∀ {l : List (HloOp τ sig Val)} {ys : List (Ref sig .tc)}, Tracks l ys →
    ∀ {r : Ref sig .tc}, r ∉ ys → ∀ W : Valuation τ sig Val, after l W (Proc.devRef .tc r) = W (Proc.devRef .tc r)
  | [], [], _, _, _, _ => rfl
  | [], _ :: _, h, _, _, _ => h.elim
  | _ :: _, [], h, _, _, _ => h.elim
  | op :: l, y :: ys, h, r, hr, W => by
    rw [after_cons, Tracks.skip h.2 (fun hm => hr (List.mem_cons_of_mem _ hm)),
      op.result_of_not_mem W (by
        rw [h.1, Finset.mem_singleton]
        exact devRef_ne_of_ne fun e => hr (e ▸ List.mem_cons_self))]

/-- In a line that writes each reference once, the final contents of the reference the `k`-th operation writes are
    that operation's result over the contents the first `k` operations leave. -/
theorem Tracks.result_at : ∀ {l : List (HloOp τ sig Val)} {ys : List (Ref sig .tc)}, Tracks l ys →
    ∀ (k : Nat) {op : HloOp τ sig Val} {y : Ref sig .tc}, l[k]? = some op → ys[k]? = some y → y ∉ ys.drop (k + 1) →
    ∀ W : Valuation τ sig Val, after l W (Proc.devRef .tc y) = op.result (after (l.take k) W) (Proc.devRef .tc y)
  | [], [], _, _, _, _, hop, _, _, _ => by simp at hop
  | [], _ :: _, h, _, _, _, _, _, _, _ => h.elim
  | _ :: _, [], h, _, _, _, _, _, _, _ => h.elim
  | op' :: l, y' :: ys, h, 0, op, y, hop, hy, hn, W => by
    simp only [List.getElem?_cons_zero, Option.some.injEq] at hop hy
    subst hop; subst hy
    rw [after_cons, Tracks.skip h.2 (by simpa using hn)]
    rfl
  | op' :: l, y' :: ys, h, k + 1, op, y, hop, hy, hn, W => by
    simp only [List.getElem?_cons_succ] at hop hy
    rw [after_cons, Tracks.result_at h.2 k hop hy (by simpa using hn), List.take_succ_cons, after_cons]

/-- A reference that no operation from the `k`-th on writes holds, after the first `k` operations, what it holds at the end. -/
theorem Tracks.take_eq : ∀ {l : List (HloOp τ sig Val)} {ys : List (Ref sig .tc)}, Tracks l ys →
    ∀ (k : Nat) {a : Ref sig .tc}, a ∉ ys.drop k →
    ∀ W : Valuation τ sig Val, after (l.take k) W (Proc.devRef .tc a) = after l W (Proc.devRef .tc a)
  | l, ys, h, 0, a, ha, W => by
    rw [List.take_zero, after_nil, Tracks.skip h (by simpa using ha)]
  | [], [], _, _ + 1, _, _, _ => rfl
  | [], _ :: _, h, _ + 1, _, _, _ => h.elim
  | _ :: _, [], h, _ + 1, _, _, _ => h.elim
  | op :: l, y :: ys, h, k + 1, a, ha, W => by
    rw [List.take_succ_cons, after_cons, after_cons, Tracks.take_eq h.2 k (by simpa using ha)]

end SingleAssignment

variable {F : FTy → Type} [FloatOps F]
/-- The references the program's operations write, in program order. -/
def written : List (Ref sig .tc) :=
  [main_v0, main_v1, main_v2, main_v3, main_v4, main_c, main_v5, main_v6, main_c_0, main_v7, main_v8, main_v9, main_v10, main_v11, main_v12, main_cst, main_v13, main_v14, main_v15, main_v16, main_v17, main_v18, main_v19, main_v20, main_v21, main_v22, main_v23, main_v24, main_c_1, main_v25, main_v26, main_call0_v0, main_call0_v1, main_v27, main_v28, main_v29, main_v30, main_v31, main_v32, main_v33, main_v34, main_c_2, main_v35, main_v36, main_call1_v0, main_call1_v1, main_v37, main_call2_v0, main_v38, main_call3_v0, main_v39, main_v40, main_v41, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v42, main_v43, main_v44, main_v45, main_v46, main_cst_3, main_v47, main_v48, main_call5_cst, main_call5_v0, main_call5_cst_0, main_call5_v1, main_call5_v2, main_call5_v3, main_call5_v4, main_call5_v5, main_call5_v6, main_call5_cst_1, main_call5_v7, main_call5_v8, main_call5_v9, main_call5_v10, main_v49, main_v50, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v51, main_cst_4, main_v52, main_cst_5, main_v53, main_v54]

set_option maxRecDepth 8192 in
/-- Each operation of the program writes the reference of the same position in `written`. -/
theorem tracks_ops : Tracks (ops (F := F)) written := by
  unfold written
  repeat (first | exact True.intro | refine And.intro rfl ?_)

theorem st_main_arg0 (V : Valuation τ sig (Elt F)) :
    after (ops (F := F)) V (Proc.devRef .tc main_arg0) = V (Proc.devRef .tc main_arg0) :=
  (tracks_ops (F := F)).skip (by decide) V
theorem st_main_arg1 (V : Valuation τ sig (Elt F)) :
    after (ops (F := F)) V (Proc.devRef .tc main_arg1) = V (Proc.devRef .tc main_arg1) :=
  (tracks_ops (F := F)).skip (by decide) V
theorem st_main_arg2 (V : Valuation τ sig (Elt F)) :
    after (ops (F := F)) V (Proc.devRef .tc main_arg2) = V (Proc.devRef .tc main_arg2) :=
  (tracks_ops (F := F)).skip (by decide) V
theorem st_main_arg3 (V : Valuation τ sig (Elt F)) :
    after (ops (F := F)) V (Proc.devRef .tc main_arg3) = V (Proc.devRef .tc main_arg3) :=
  (tracks_ops (F := F)).skip (by decide) V

/-- The operation writing `main_v42`, over variables: its value carried along the identities of its operands' and its result's types is its value. -/
theorem core_main_v42 (c : (⟨S8192x8192, .i1⟩ : BufTy).Contents (Elt F)) (a b : (⟨S8192x8192, .f32⟩ : BufTy).Contents (Elt F)) :
    (TRef.of (T := ⟨S8192x8192, .f32⟩) main_v42).toBuf (Val := Elt F)
      (select ((TRef.of (T := ⟨S8192x8192, .i1⟩) main_call4_v12).ofBuf (Val := Elt F) c)
        ((TRef.of (T := ⟨S8192x8192, .f32⟩) main_call4_v13).ofBuf (Val := Elt F) a)
        ((TRef.of (T := ⟨S8192x8192, .f32⟩) main_call4_v14).ofBuf (Val := Elt F) b)) = select c a b := by
  rfl

/-- The same for the operation writing `main_call5_v2`. -/
theorem core_main_call5_v2 (a b : (⟨S8192, .f32⟩ : BufTy).Contents (Elt F)) :
    (TRef.of (T := ⟨S8192, .f32⟩) main_call5_v2).toBuf (Val := Elt F)
      (maximumf ((TRef.of (T := ⟨S8192, .f32⟩) main_call5_v1).ofBuf (Val := Elt F) a)
        ((TRef.of (T := ⟨S8192, .f32⟩) main_call5_v0).ofBuf (Val := Elt F) b)) = maximumf a b := by
  rfl

open Lean Meta Elab Tactic in
/-- Name by a variable every stage value (an application of a `ReadP.val_…` constant) that occurs in the goal, largest
    first: the goal that is left compares an operation over variables with itself. -/
local elab "name_stage_values" : tactic => do
  let isStage (e : Expr) : Bool := match e.getAppFn with
    | .const c _ => !e.hasLooseBVars && (`Cert.ReferenceIdeal.ReadP).isPrefixOf c &&
        (match c with | .str _ s => s.startsWith "val_" | _ => false)
    | _ => false
  for _ in [0:16] do
    let g ← getMainGoal
    let ty ← instantiateMVars (← g.getType)
    match ty.find? isStage with
    | none => break
    | some e =>
      let (_, g') ← g.generalize #[{ expr := e }]
      replaceMainGoal [g']

/-- One stage: the final contents of the reference the `k`-th operation writes are that operation applied to the final
    contents of its operands (none of which is written again), which the earlier stages name; this is the stage's
    definition once opened. The operands' stages are named by variables before the two sides are compared, so the
    comparison (which for an operation of a called function moves contents along identities of types) opens no stage. -/
local macro "stage " k:num v:ident " [" hs:Lean.Parser.Tactic.rwRule,* "]" : tactic => `(tactic| (
  rw [Tracks.result_at tracks_ops $k rfl rfl (by decide)]
  first | rw [unary_result] | rw [binary_result] | rw [ternary_result] | rw [reshape_result]
  repeat (rw [Tracks.take_eq tracks_ops $k]; rotate_left; decide)
  rw [$hs,*]
  rw [$v:ident]
  all_goals (name_stage_values; rfl)))

/-- A stage with no operand: a constant. -/
local macro "stage0 " k:num v:ident : tactic => `(tactic| (
  rw [Tracks.result_at tracks_ops $k rfl rfl (by decide), nullary_result]
  rw [$v:ident]
  all_goals rfl))

/-- A stage whose comparison over variables is stated apart (`core`). -/
local macro "stageC " k:num v:ident c:ident " [" hs:Lean.Parser.Tactic.rwRule,* "]" : tactic => `(tactic| (
  rw [Tracks.result_at tracks_ops $k rfl rfl (by decide)]
  first | rw [unary_result] | rw [binary_result] | rw [ternary_result] | rw [reshape_result]
  repeat (rw [Tracks.take_eq tracks_ops $k]; rotate_left; decide)
  rw [$hs,*]
  rw [$v:ident]
  name_stage_values
  apply $c))

/-- A stage whose identities of types are dropped by rewriting (`cast_eq`) once the operands' stages are variables. -/
local macro "stageS " k:num v:ident " [" hs:Lean.Parser.Tactic.rwRule,* "]" : tactic => `(tactic| (
  rw [Tracks.result_at tracks_ops $k rfl rfl (by decide)]
  first | rw [unary_result] | rw [binary_result] | rw [ternary_result] | rw [reshape_result]
  repeat (rw [Tracks.take_eq tracks_ops $k]; rotate_left; decide)
  rw [$hs,*]
  rw [$v:ident]
  name_stage_values
  simp only [TRef.ofBuf, TRef.toBuf, cast_eq]
  all_goals rfl))

theorem st_main_v0 (V : Valuation τ sig (Elt F)) :
    after (ops (F := F)) V (Proc.devRef .tc main_v0) = val_main_v0 (F := F) := by
  stage0 0 val_main_v0
theorem st_main_v1 (V : Valuation τ sig (Elt F)) :
    after (ops (F := F)) V (Proc.devRef .tc main_v1) = val_main_v1 (F := F) := by
  stage 1 val_main_v1 [st_main_v0 V]
theorem st_main_v2 (V : Valuation τ sig (Elt F)) :
    after (ops (F := F)) V (Proc.devRef .tc main_v2) = val_main_v2 (F := F) := by
  stage0 2 val_main_v2
theorem st_main_v3 (V : Valuation τ sig (Elt F)) :
    after (ops (F := F)) V (Proc.devRef .tc main_v3) = val_main_v3 (F := F) := by
  stage 3 val_main_v3 [st_main_v2 V]
theorem st_main_v4 (V : Valuation τ sig (Elt F)) :
    after (ops (F := F)) V (Proc.devRef .tc main_v4) = val_main_v4 (F := F) (V (Proc.devRef .tc main_arg3)) := by
  stage 4 val_main_v4 [st_main_arg3 V]
theorem st_main_c (V : Valuation τ sig (Elt F)) :
    after (ops (F := F)) V (Proc.devRef .tc main_c) = val_main_c (F := F) := by
  stage0 5 val_main_c
theorem st_main_v5 (V : Valuation τ sig (Elt F)) :
    after (ops (F := F)) V (Proc.devRef .tc main_v5) = val_main_v5 (F := F) := by
  stage 6 val_main_v5 [st_main_c V]
theorem st_main_v6 (V : Valuation τ sig (Elt F)) :
    after (ops (F := F)) V (Proc.devRef .tc main_v6) = val_main_v6 (F := F) (V (Proc.devRef .tc main_arg3)) := by
  stage 7 val_main_v6 [st_main_arg3 V, st_main_v5 V]
theorem st_main_c_0 (V : Valuation τ sig (Elt F)) :
    after (ops (F := F)) V (Proc.devRef .tc main_c_0) = val_main_c_0 (F := F) := by
  stage0 8 val_main_c_0
theorem st_main_v7 (V : Valuation τ sig (Elt F)) :
    after (ops (F := F)) V (Proc.devRef .tc main_v7) = val_main_v7 (F := F) := by
  stage 9 val_main_v7 [st_main_c_0 V]
theorem st_main_v8 (V : Valuation τ sig (Elt F)) :
    after (ops (F := F)) V (Proc.devRef .tc main_v8) = val_main_v8 (F := F) (V (Proc.devRef .tc main_arg3)) := by
  stage 10 val_main_v8 [st_main_arg3 V, st_main_v7 V]
theorem st_main_v9 (V : Valuation τ sig (Elt F)) :
    after (ops (F := F)) V (Proc.devRef .tc main_v9) = val_main_v9 (F := F) (V (Proc.devRef .tc main_arg3)) := by
  stage 11 val_main_v9 [st_main_v6 V, st_main_v8 V, st_main_arg3 V]
theorem st_main_v10 (V : Valuation τ sig (Elt F)) :
    after (ops (F := F)) V (Proc.devRef .tc main_v10) = val_main_v10 (F := F) (V (Proc.devRef .tc main_arg3)) := by
  stage 12 val_main_v10 [st_main_v9 V]
theorem st_main_v11 (V : Valuation τ sig (Elt F)) :
    after (ops (F := F)) V (Proc.devRef .tc main_v11) = val_main_v11 (F := F) (V (Proc.devRef .tc main_arg0)) (V (Proc.devRef .tc main_arg3)) := by
  stage 13 val_main_v11 [st_main_arg0 V, st_main_v10 V]
theorem st_main_v12 (V : Valuation τ sig (Elt F)) :
    after (ops (F := F)) V (Proc.devRef .tc main_v12) = val_main_v12 (F := F) (V (Proc.devRef .tc main_arg0)) (V (Proc.devRef .tc main_arg3)) := by
  stage 14 val_main_v12 [st_main_arg0 V, st_main_v11 V]
theorem st_main_cst (V : Valuation τ sig (Elt F)) :
    after (ops (F := F)) V (Proc.devRef .tc main_cst) = val_main_cst (F := F) := by
  stage0 15 val_main_cst
theorem st_main_v13 (V : Valuation τ sig (Elt F)) :
    after (ops (F := F)) V (Proc.devRef .tc main_v13) = val_main_v13 (F := F) (V (Proc.devRef .tc main_arg0)) (V (Proc.devRef .tc main_arg3)) := by
  stage 16 val_main_v13 [st_main_v12 V, st_main_cst V]
theorem st_main_v14 (V : Valuation τ sig (Elt F)) :
    after (ops (F := F)) V (Proc.devRef .tc main_v14) = val_main_v14 (F := F) := by
  stage 17 val_main_v14 [st_main_v3 V]
theorem st_main_v15 (V : Valuation τ sig (Elt F)) :
    after (ops (F := F)) V (Proc.devRef .tc main_v15) = val_main_v15 (F := F) := by
  stage 18 val_main_v15 [st_main_v1 V]
theorem st_main_v16 (V : Valuation τ sig (Elt F)) :
    after (ops (F := F)) V (Proc.devRef .tc main_v16) = val_main_v16 (F := F) := by
  stage 19 val_main_v16 [st_main_v14 V, st_main_v15 V]
theorem st_main_v17 (V : Valuation τ sig (Elt F)) :
    after (ops (F := F)) V (Proc.devRef .tc main_v17) = val_main_v17 (F := F) (V (Proc.devRef .tc main_arg3)) := by
  stage 20 val_main_v17 [st_main_v4 V, st_main_v1 V]
theorem st_main_v18 (V : Valuation τ sig (Elt F)) :
    after (ops (F := F)) V (Proc.devRef .tc main_v18) = val_main_v18 (F := F) := by
  stage 21 val_main_v18 [st_main_v3 V]
theorem st_main_v19 (V : Valuation τ sig (Elt F)) :
    after (ops (F := F)) V (Proc.devRef .tc main_v19) = val_main_v19 (F := F) := by
  stage 22 val_main_v19 [st_main_v1 V]
theorem st_main_v20 (V : Valuation τ sig (Elt F)) :
    after (ops (F := F)) V (Proc.devRef .tc main_v20) = val_main_v20 (F := F) := by
  stage 23 val_main_v20 [st_main_v18 V, st_main_v19 V]
theorem st_main_v21 (V : Valuation τ sig (Elt F)) :
    after (ops (F := F)) V (Proc.devRef .tc main_v21) = val_main_v21 (F := F) := by
  stage 24 val_main_v21 [st_main_v3 V]
theorem st_main_v22 (V : Valuation τ sig (Elt F)) :
    after (ops (F := F)) V (Proc.devRef .tc main_v22) = val_main_v22 (F := F) (V (Proc.devRef .tc main_arg3)) := by
  stage 25 val_main_v22 [st_main_v4 V]
theorem st_main_v23 (V : Valuation τ sig (Elt F)) :
    after (ops (F := F)) V (Proc.devRef .tc main_v23) = val_main_v23 (F := F) (V (Proc.devRef .tc main_arg3)) := by
  stage 26 val_main_v23 [st_main_v21 V, st_main_v22 V]
theorem st_main_v24 (V : Valuation τ sig (Elt F)) :
    after (ops (F := F)) V (Proc.devRef .tc main_v24) = val_main_v24 (F := F) (V (Proc.devRef .tc main_arg3)) := by
  stage 27 val_main_v24 [st_main_v20 V, st_main_v23 V]
theorem st_main_c_1 (V : Valuation τ sig (Elt F)) :
    after (ops (F := F)) V (Proc.devRef .tc main_c_1) = val_main_c_1 (F := F) := by
  stage0 28 val_main_c_1
theorem st_main_v25 (V : Valuation τ sig (Elt F)) :
    after (ops (F := F)) V (Proc.devRef .tc main_v25) = val_main_v25 (F := F) := by
  stage 29 val_main_v25 [st_main_c_1 V]
theorem st_main_v26 (V : Valuation τ sig (Elt F)) :
    after (ops (F := F)) V (Proc.devRef .tc main_v26) = val_main_v26 (F := F) := by
  stage 30 val_main_v26 [st_main_v3 V, st_main_v25 V]
theorem st_main_call0_v0 (V : Valuation τ sig (Elt F)) :
    after (ops (F := F)) V (Proc.devRef .tc main_call0_v0) = val_main_call0_v0 (F := F) := by
  stage 31 val_main_call0_v0 [st_main_v26 V]
theorem st_main_call0_v1 (V : Valuation τ sig (Elt F)) :
    after (ops (F := F)) V (Proc.devRef .tc main_call0_v1) = val_main_call0_v1 (F := F) := by
  stage 32 val_main_call0_v1 [st_main_v3 V]
theorem st_main_v27 (V : Valuation τ sig (Elt F)) :
    after (ops (F := F)) V (Proc.devRef .tc main_v27) = val_main_v27 (F := F) (V (Proc.devRef .tc main_arg3)) := by
  stage 33 val_main_v27 [st_main_v24 V, st_main_call0_v0 V, st_main_call0_v1 V]
theorem st_main_v28 (V : Valuation τ sig (Elt F)) :
    after (ops (F := F)) V (Proc.devRef .tc main_v28) = val_main_v28 (F := F) := by
  stage 34 val_main_v28 [st_main_v3 V]
theorem st_main_v29 (V : Valuation τ sig (Elt F)) :
    after (ops (F := F)) V (Proc.devRef .tc main_v29) = val_main_v29 (F := F) (V (Proc.devRef .tc main_arg3)) := by
  stage 35 val_main_v29 [st_main_v4 V]
theorem st_main_v30 (V : Valuation τ sig (Elt F)) :
    after (ops (F := F)) V (Proc.devRef .tc main_v30) = val_main_v30 (F := F) (V (Proc.devRef .tc main_arg3)) := by
  stage 36 val_main_v30 [st_main_v28 V, st_main_v29 V]
theorem st_main_v31 (V : Valuation τ sig (Elt F)) :
    after (ops (F := F)) V (Proc.devRef .tc main_v31) = val_main_v31 (F := F) := by
  stage 37 val_main_v31 [st_main_v3 V]
theorem st_main_v32 (V : Valuation τ sig (Elt F)) :
    after (ops (F := F)) V (Proc.devRef .tc main_v32) = val_main_v32 (F := F) := by
  stage 38 val_main_v32 [st_main_v1 V]
theorem st_main_v33 (V : Valuation τ sig (Elt F)) :
    after (ops (F := F)) V (Proc.devRef .tc main_v33) = val_main_v33 (F := F) := by
  stage 39 val_main_v33 [st_main_v31 V, st_main_v32 V]
theorem st_main_v34 (V : Valuation τ sig (Elt F)) :
    after (ops (F := F)) V (Proc.devRef .tc main_v34) = val_main_v34 (F := F) (V (Proc.devRef .tc main_arg3)) := by
  stage 40 val_main_v34 [st_main_v30 V, st_main_v33 V]
theorem st_main_c_2 (V : Valuation τ sig (Elt F)) :
    after (ops (F := F)) V (Proc.devRef .tc main_c_2) = val_main_c_2 (F := F) := by
  stage0 41 val_main_c_2
theorem st_main_v35 (V : Valuation τ sig (Elt F)) :
    after (ops (F := F)) V (Proc.devRef .tc main_v35) = val_main_v35 (F := F) := by
  stage 42 val_main_v35 [st_main_c_2 V]
theorem st_main_v36 (V : Valuation τ sig (Elt F)) :
    after (ops (F := F)) V (Proc.devRef .tc main_v36) = val_main_v36 (F := F) := by
  stage 43 val_main_v36 [st_main_v3 V, st_main_v35 V]
theorem st_main_call1_v0 (V : Valuation τ sig (Elt F)) :
    after (ops (F := F)) V (Proc.devRef .tc main_call1_v0) = val_main_call1_v0 (F := F) := by
  stage 44 val_main_call1_v0 [st_main_v36 V]
theorem st_main_call1_v1 (V : Valuation τ sig (Elt F)) :
    after (ops (F := F)) V (Proc.devRef .tc main_call1_v1) = val_main_call1_v1 (F := F) := by
  stage 45 val_main_call1_v1 [st_main_v3 V]
theorem st_main_v37 (V : Valuation τ sig (Elt F)) :
    after (ops (F := F)) V (Proc.devRef .tc main_v37) = val_main_v37 (F := F) (V (Proc.devRef .tc main_arg3)) := by
  stage 46 val_main_v37 [st_main_v34 V, st_main_call1_v0 V, st_main_call1_v1 V]
theorem st_main_call2_v0 (V : Valuation τ sig (Elt F)) :
    after (ops (F := F)) V (Proc.devRef .tc main_call2_v0) = val_main_call2_v0 (F := F) (V (Proc.devRef .tc main_arg3)) := by
  stage 47 val_main_call2_v0 [st_main_v17 V]
theorem st_main_v38 (V : Valuation τ sig (Elt F)) :
    after (ops (F := F)) V (Proc.devRef .tc main_v38) = val_main_v38 (F := F) (V (Proc.devRef .tc main_arg3)) := by
  stage 48 val_main_v38 [st_main_call2_v0 V, st_main_v27 V, st_main_v37 V]
theorem st_main_call3_v0 (V : Valuation τ sig (Elt F)) :
    after (ops (F := F)) V (Proc.devRef .tc main_call3_v0) = val_main_call3_v0 (F := F) (V (Proc.devRef .tc main_arg3)) := by
  stage 49 val_main_call3_v0 [st_main_v4 V]
theorem st_main_v39 (V : Valuation τ sig (Elt F)) :
    after (ops (F := F)) V (Proc.devRef .tc main_v39) = val_main_v39 (F := F) (V (Proc.devRef .tc main_arg3)) := by
  stage 50 val_main_v39 [st_main_v16 V, st_main_call3_v0 V, st_main_v38 V]
theorem st_main_v40 (V : Valuation τ sig (Elt F)) :
    after (ops (F := F)) V (Proc.devRef .tc main_v40) = val_main_v40 (F := F) (V (Proc.devRef .tc main_arg1)) := by
  stage 51 val_main_v40 [st_main_arg1 V]
theorem st_main_v41 (V : Valuation τ sig (Elt F)) :
    after (ops (F := F)) V (Proc.devRef .tc main_v41) = val_main_v41 (F := F) (V (Proc.devRef .tc main_arg1)) := by
  stage 52 val_main_v41 [st_main_arg1 V, st_main_v40 V]
theorem st_main_call4_c (V : Valuation τ sig (Elt F)) :
    after (ops (F := F)) V (Proc.devRef .tc main_call4_c) = val_main_call4_c (F := F) := by
  stage0 53 val_main_call4_c
theorem st_main_call4_v0 (V : Valuation τ sig (Elt F)) :
    after (ops (F := F)) V (Proc.devRef .tc main_call4_v0) = val_main_call4_v0 (F := F) := by
  stage 54 val_main_call4_v0 [st_main_call4_c V]
theorem st_main_call4_v1 (V : Valuation τ sig (Elt F)) :
    after (ops (F := F)) V (Proc.devRef .tc main_call4_v1) = val_main_call4_v1 (F := F) (V (Proc.devRef .tc main_arg3)) := by
  stage 55 val_main_call4_v1 [st_main_v39 V, st_main_call4_v0 V]
theorem st_main_call4_c_0 (V : Valuation τ sig (Elt F)) :
    after (ops (F := F)) V (Proc.devRef .tc main_call4_c_0) = val_main_call4_c_0 (F := F) := by
  stage0 56 val_main_call4_c_0
theorem st_main_call4_v2 (V : Valuation τ sig (Elt F)) :
    after (ops (F := F)) V (Proc.devRef .tc main_call4_v2) = val_main_call4_v2 (F := F) := by
  stage 57 val_main_call4_v2 [st_main_call4_c_0 V]
theorem st_main_call4_v3 (V : Valuation τ sig (Elt F)) :
    after (ops (F := F)) V (Proc.devRef .tc main_call4_v3) = val_main_call4_v3 (F := F) (V (Proc.devRef .tc main_arg3)) := by
  stage 58 val_main_call4_v3 [st_main_v39 V, st_main_call4_v2 V]
theorem st_main_call4_v4 (V : Valuation τ sig (Elt F)) :
    after (ops (F := F)) V (Proc.devRef .tc main_call4_v4) = val_main_call4_v4 (F := F) (V (Proc.devRef .tc main_arg3)) := by
  stage 59 val_main_call4_v4 [st_main_call4_v1 V, st_main_call4_v3 V, st_main_v39 V]
theorem st_main_call4_v5 (V : Valuation τ sig (Elt F)) :
    after (ops (F := F)) V (Proc.devRef .tc main_call4_v5) = val_main_call4_v5 (F := F) (V (Proc.devRef .tc main_arg3)) := by
  stage 60 val_main_call4_v5 [st_main_call4_v4 V]
theorem st_main_call4_c_1 (V : Valuation τ sig (Elt F)) :
    after (ops (F := F)) V (Proc.devRef .tc main_call4_c_1) = val_main_call4_c_1 (F := F) := by
  stage0 61 val_main_call4_c_1
theorem st_main_call4_c_2 (V : Valuation τ sig (Elt F)) :
    after (ops (F := F)) V (Proc.devRef .tc main_call4_c_2) = val_main_call4_c_2 (F := F) := by
  stage0 62 val_main_call4_c_2
theorem st_main_call4_v6 (V : Valuation τ sig (Elt F)) :
    after (ops (F := F)) V (Proc.devRef .tc main_call4_v6) = val_main_call4_v6 (F := F) := by
  stage 63 val_main_call4_v6 [st_main_call4_c_2 V]
theorem st_main_call4_v7 (V : Valuation τ sig (Elt F)) :
    after (ops (F := F)) V (Proc.devRef .tc main_call4_v7) = val_main_call4_v7 (F := F) (V (Proc.devRef .tc main_arg3)) := by
  stage 64 val_main_call4_v7 [st_main_call4_v5 V, st_main_call4_v6 V]
theorem st_main_call4_v8 (V : Valuation τ sig (Elt F)) :
    after (ops (F := F)) V (Proc.devRef .tc main_call4_v8) = val_main_call4_v8 (F := F) := by
  stage 65 val_main_call4_v8 [st_main_call4_c_1 V]
theorem st_main_call4_v9 (V : Valuation τ sig (Elt F)) :
    after (ops (F := F)) V (Proc.devRef .tc main_call4_v9) = val_main_call4_v9 (F := F) := by
  stage 66 val_main_call4_v9 [st_main_call4_v8 V]
theorem st_main_call4_v10 (V : Valuation τ sig (Elt F)) :
    after (ops (F := F)) V (Proc.devRef .tc main_call4_v10) = val_main_call4_v10 (F := F) (V (Proc.devRef .tc main_arg3)) := by
  stage 67 val_main_call4_v10 [st_main_call4_v5 V, st_main_call4_v9 V]
theorem st_main_call4_v11 (V : Valuation τ sig (Elt F)) :
    after (ops (F := F)) V (Proc.devRef .tc main_call4_v11) = val_main_call4_v11 (F := F) (V (Proc.devRef .tc main_arg3)) := by
  stage 68 val_main_call4_v11 [st_main_call4_v7 V, st_main_call4_v10 V]
theorem st_main_call4_c_3 (V : Valuation τ sig (Elt F)) :
    after (ops (F := F)) V (Proc.devRef .tc main_call4_c_3) = val_main_call4_c_3 (F := F) := by
  stage0 69 val_main_call4_c_3
theorem st_main_call4_v12 (V : Valuation τ sig (Elt F)) :
    after (ops (F := F)) V (Proc.devRef .tc main_call4_v12) = val_main_call4_v12 (F := F) (V (Proc.devRef .tc main_arg3)) := by
  stageS 70 val_main_call4_v12 [st_main_call4_v11 V, st_main_call4_c_3 V]
theorem st_main_call4_v13 (V : Valuation τ sig (Elt F)) :
    after (ops (F := F)) V (Proc.devRef .tc main_call4_v13) = val_main_call4_v13 (F := F) (V (Proc.devRef .tc main_arg1)) (V (Proc.devRef .tc main_arg3)) := by
  stage 71 val_main_call4_v13 [st_main_v41 V, st_main_call4_v5 V]
theorem st_main_call4_cst (V : Valuation τ sig (Elt F)) :
    after (ops (F := F)) V (Proc.devRef .tc main_call4_cst) = val_main_call4_cst (F := F) := by
  stage0 72 val_main_call4_cst
theorem st_main_call4_v14 (V : Valuation τ sig (Elt F)) :
    after (ops (F := F)) V (Proc.devRef .tc main_call4_v14) = val_main_call4_v14 (F := F) := by
  stage 73 val_main_call4_v14 [st_main_call4_cst V]
theorem st_main_v42 (V : Valuation τ sig (Elt F)) :
    after (ops (F := F)) V (Proc.devRef .tc main_v42) = val_main_v42 (F := F) (V (Proc.devRef .tc main_arg1)) (V (Proc.devRef .tc main_arg3)) := by
  stageC 74 val_main_v42 core_main_v42 [st_main_call4_v12 V, st_main_call4_v13 V, st_main_call4_v14 V]
theorem st_main_v43 (V : Valuation τ sig (Elt F)) :
    after (ops (F := F)) V (Proc.devRef .tc main_v43) = val_main_v43 (F := F) (V (Proc.devRef .tc main_arg0)) (V (Proc.devRef .tc main_arg3)) := by
  stage 75 val_main_v43 [st_main_v13 V]
theorem st_main_v44 (V : Valuation τ sig (Elt F)) :
    after (ops (F := F)) V (Proc.devRef .tc main_v44) = val_main_v44 (F := F) (V (Proc.devRef .tc main_arg0)) (V (Proc.devRef .tc main_arg3)) := by
  stage 76 val_main_v44 [st_main_v43 V]
theorem st_main_v45 (V : Valuation τ sig (Elt F)) :
    after (ops (F := F)) V (Proc.devRef .tc main_v45) = val_main_v45 (F := F) (V (Proc.devRef .tc main_arg0)) (V (Proc.devRef .tc main_arg1)) (V (Proc.devRef .tc main_arg3)) := by
  stage 77 val_main_v45 [st_main_v44 V, st_main_v42 V]
theorem st_main_v46 (V : Valuation τ sig (Elt F)) :
    after (ops (F := F)) V (Proc.devRef .tc main_v46) = val_main_v46 (F := F) (V (Proc.devRef .tc main_arg0)) (V (Proc.devRef .tc main_arg1)) (V (Proc.devRef .tc main_arg3)) := by
  stage 78 val_main_v46 [st_main_v45 V]
theorem st_main_cst_3 (V : Valuation τ sig (Elt F)) :
    after (ops (F := F)) V (Proc.devRef .tc main_cst_3) = val_main_cst_3 (F := F) := by
  stage0 79 val_main_cst_3
theorem st_main_v47 (V : Valuation τ sig (Elt F)) :
    after (ops (F := F)) V (Proc.devRef .tc main_v47) = val_main_v47 (F := F) := by
  stage 80 val_main_v47 [st_main_cst_3 V]
theorem st_main_v48 (V : Valuation τ sig (Elt F)) :
    after (ops (F := F)) V (Proc.devRef .tc main_v48) = val_main_v48 (F := F) (V (Proc.devRef .tc main_arg0)) (V (Proc.devRef .tc main_arg1)) (V (Proc.devRef .tc main_arg3)) := by
  stage 81 val_main_v48 [st_main_v46 V, st_main_v47 V]
theorem st_main_call5_cst (V : Valuation τ sig (Elt F)) :
    after (ops (F := F)) V (Proc.devRef .tc main_call5_cst) = val_main_call5_cst (F := F) := by
  stage0 82 val_main_call5_cst
theorem st_main_call5_v0 (V : Valuation τ sig (Elt F)) :
    after (ops (F := F)) V (Proc.devRef .tc main_call5_v0) = val_main_call5_v0 (F := F) (V (Proc.devRef .tc main_arg0)) (V (Proc.devRef .tc main_arg1)) (V (Proc.devRef .tc main_arg3)) := by
  stageS 83 val_main_call5_v0 [st_main_v48 V, st_main_call5_cst V]
theorem st_main_call5_cst_0 (V : Valuation τ sig (Elt F)) :
    after (ops (F := F)) V (Proc.devRef .tc main_call5_cst_0) = val_main_call5_cst_0 (F := F) := by
  stage0 84 val_main_call5_cst_0
theorem st_main_call5_v1 (V : Valuation τ sig (Elt F)) :
    after (ops (F := F)) V (Proc.devRef .tc main_call5_v1) = val_main_call5_v1 (F := F) := by
  stage 85 val_main_call5_v1 [st_main_call5_cst_0 V]
theorem st_main_call5_v2 (V : Valuation τ sig (Elt F)) :
    after (ops (F := F)) V (Proc.devRef .tc main_call5_v2) = val_main_call5_v2 (F := F) (V (Proc.devRef .tc main_arg0)) (V (Proc.devRef .tc main_arg1)) (V (Proc.devRef .tc main_arg3)) := by
  stageC 86 val_main_call5_v2 core_main_call5_v2 [st_main_call5_v1 V, st_main_call5_v0 V]
theorem st_main_call5_v3 (V : Valuation τ sig (Elt F)) :
    after (ops (F := F)) V (Proc.devRef .tc main_call5_v3) = val_main_call5_v3 (F := F) (V (Proc.devRef .tc main_arg0)) (V (Proc.devRef .tc main_arg1)) (V (Proc.devRef .tc main_arg3)) := by
  stage 87 val_main_call5_v3 [st_main_call5_v2 V]
theorem st_main_call5_v4 (V : Valuation τ sig (Elt F)) :
    after (ops (F := F)) V (Proc.devRef .tc main_call5_v4) = val_main_call5_v4 (F := F) (V (Proc.devRef .tc main_arg0)) (V (Proc.devRef .tc main_arg1)) (V (Proc.devRef .tc main_arg3)) := by
  stage 88 val_main_call5_v4 [st_main_call5_v3 V]
theorem st_main_call5_v5 (V : Valuation τ sig (Elt F)) :
    after (ops (F := F)) V (Proc.devRef .tc main_call5_v5) = val_main_call5_v5 (F := F) (V (Proc.devRef .tc main_arg0)) (V (Proc.devRef .tc main_arg1)) (V (Proc.devRef .tc main_arg3)) := by
  stage 89 val_main_call5_v5 [st_main_v48 V, st_main_call5_v4 V]
theorem st_main_call5_v6 (V : Valuation τ sig (Elt F)) :
    after (ops (F := F)) V (Proc.devRef .tc main_call5_v6) = val_main_call5_v6 (F := F) (V (Proc.devRef .tc main_arg0)) (V (Proc.devRef .tc main_arg1)) (V (Proc.devRef .tc main_arg3)) := by
  stage 90 val_main_call5_v6 [st_main_call5_v5 V]
theorem st_main_call5_cst_1 (V : Valuation τ sig (Elt F)) :
    after (ops (F := F)) V (Proc.devRef .tc main_call5_cst_1) = val_main_call5_cst_1 (F := F) := by
  stage0 91 val_main_call5_cst_1
theorem st_main_call5_v7 (V : Valuation τ sig (Elt F)) :
    after (ops (F := F)) V (Proc.devRef .tc main_call5_v7) = val_main_call5_v7 (F := F) (V (Proc.devRef .tc main_arg0)) (V (Proc.devRef .tc main_arg1)) (V (Proc.devRef .tc main_arg3)) := by
  stage 92 val_main_call5_v7 [st_main_call5_v6 V, st_main_call5_cst_1 V]
theorem st_main_call5_v8 (V : Valuation τ sig (Elt F)) :
    after (ops (F := F)) V (Proc.devRef .tc main_call5_v8) = val_main_call5_v8 (F := F) (V (Proc.devRef .tc main_arg0)) (V (Proc.devRef .tc main_arg1)) (V (Proc.devRef .tc main_arg3)) := by
  stage 93 val_main_call5_v8 [st_main_call5_v7 V]
theorem st_main_call5_v9 (V : Valuation τ sig (Elt F)) :
    after (ops (F := F)) V (Proc.devRef .tc main_call5_v9) = val_main_call5_v9 (F := F) (V (Proc.devRef .tc main_arg0)) (V (Proc.devRef .tc main_arg1)) (V (Proc.devRef .tc main_arg3)) := by
  stage 94 val_main_call5_v9 [st_main_call5_v8 V]
theorem st_main_call5_v10 (V : Valuation τ sig (Elt F)) :
    after (ops (F := F)) V (Proc.devRef .tc main_call5_v10) = val_main_call5_v10 (F := F) (V (Proc.devRef .tc main_arg0)) (V (Proc.devRef .tc main_arg1)) (V (Proc.devRef .tc main_arg3)) := by
  stage 95 val_main_call5_v10 [st_main_call5_v9 V]
theorem st_main_v49 (V : Valuation τ sig (Elt F)) :
    after (ops (F := F)) V (Proc.devRef .tc main_v49) = val_main_v49 (F := F) (V (Proc.devRef .tc main_arg0)) (V (Proc.devRef .tc main_arg1)) (V (Proc.devRef .tc main_arg3)) := by
  stage 96 val_main_v49 [st_main_call5_v5 V, st_main_call5_v10 V]
theorem st_main_v50 (V : Valuation τ sig (Elt F)) :
    after (ops (F := F)) V (Proc.devRef .tc main_v50) = val_main_v50 (F := F) (V (Proc.devRef .tc main_arg2)) := by
  stage 97 val_main_v50 [st_main_arg2 V]
theorem st_main_call6_c (V : Valuation τ sig (Elt F)) :
    after (ops (F := F)) V (Proc.devRef .tc main_call6_c) = val_main_call6_c (F := F) := by
  stage0 98 val_main_call6_c
theorem st_main_call6_v0 (V : Valuation τ sig (Elt F)) :
    after (ops (F := F)) V (Proc.devRef .tc main_call6_v0) = val_main_call6_v0 (F := F) := by
  stage 99 val_main_call6_v0 [st_main_call6_c V]
theorem st_main_call6_v1 (V : Valuation τ sig (Elt F)) :
    after (ops (F := F)) V (Proc.devRef .tc main_call6_v1) = val_main_call6_v1 (F := F) (V (Proc.devRef .tc main_arg2)) := by
  stage 100 val_main_call6_v1 [st_main_v50 V, st_main_call6_v0 V]
theorem st_main_call6_c_0 (V : Valuation τ sig (Elt F)) :
    after (ops (F := F)) V (Proc.devRef .tc main_call6_c_0) = val_main_call6_c_0 (F := F) := by
  stage0 101 val_main_call6_c_0
theorem st_main_call6_v2 (V : Valuation τ sig (Elt F)) :
    after (ops (F := F)) V (Proc.devRef .tc main_call6_v2) = val_main_call6_v2 (F := F) := by
  stage 102 val_main_call6_v2 [st_main_call6_c_0 V]
theorem st_main_call6_v3 (V : Valuation τ sig (Elt F)) :
    after (ops (F := F)) V (Proc.devRef .tc main_call6_v3) = val_main_call6_v3 (F := F) (V (Proc.devRef .tc main_arg2)) := by
  stage 103 val_main_call6_v3 [st_main_v50 V, st_main_call6_v2 V]
theorem st_main_call6_v4 (V : Valuation τ sig (Elt F)) :
    after (ops (F := F)) V (Proc.devRef .tc main_call6_v4) = val_main_call6_v4 (F := F) (V (Proc.devRef .tc main_arg2)) := by
  stage 104 val_main_call6_v4 [st_main_call6_v1 V, st_main_call6_v3 V, st_main_v50 V]
theorem st_main_call6_v5 (V : Valuation τ sig (Elt F)) :
    after (ops (F := F)) V (Proc.devRef .tc main_call6_v5) = val_main_call6_v5 (F := F) (V (Proc.devRef .tc main_arg2)) := by
  stage 105 val_main_call6_v5 [st_main_call6_v4 V]
theorem st_main_call6_c_1 (V : Valuation τ sig (Elt F)) :
    after (ops (F := F)) V (Proc.devRef .tc main_call6_c_1) = val_main_call6_c_1 (F := F) := by
  stage0 106 val_main_call6_c_1
theorem st_main_call6_c_2 (V : Valuation τ sig (Elt F)) :
    after (ops (F := F)) V (Proc.devRef .tc main_call6_c_2) = val_main_call6_c_2 (F := F) := by
  stage0 107 val_main_call6_c_2
theorem st_main_call6_v6 (V : Valuation τ sig (Elt F)) :
    after (ops (F := F)) V (Proc.devRef .tc main_call6_v6) = val_main_call6_v6 (F := F) := by
  stage 108 val_main_call6_v6 [st_main_call6_c_2 V]
theorem st_main_call6_v7 (V : Valuation τ sig (Elt F)) :
    after (ops (F := F)) V (Proc.devRef .tc main_call6_v7) = val_main_call6_v7 (F := F) (V (Proc.devRef .tc main_arg2)) := by
  stage 109 val_main_call6_v7 [st_main_call6_v5 V, st_main_call6_v6 V]
theorem st_main_call6_v8 (V : Valuation τ sig (Elt F)) :
    after (ops (F := F)) V (Proc.devRef .tc main_call6_v8) = val_main_call6_v8 (F := F) := by
  stage 110 val_main_call6_v8 [st_main_call6_c_1 V]
theorem st_main_call6_v9 (V : Valuation τ sig (Elt F)) :
    after (ops (F := F)) V (Proc.devRef .tc main_call6_v9) = val_main_call6_v9 (F := F) := by
  stage 111 val_main_call6_v9 [st_main_call6_v8 V]
theorem st_main_call6_v10 (V : Valuation τ sig (Elt F)) :
    after (ops (F := F)) V (Proc.devRef .tc main_call6_v10) = val_main_call6_v10 (F := F) (V (Proc.devRef .tc main_arg2)) := by
  stage 112 val_main_call6_v10 [st_main_call6_v5 V, st_main_call6_v9 V]
theorem st_main_call6_v11 (V : Valuation τ sig (Elt F)) :
    after (ops (F := F)) V (Proc.devRef .tc main_call6_v11) = val_main_call6_v11 (F := F) (V (Proc.devRef .tc main_arg2)) := by
  stage 113 val_main_call6_v11 [st_main_call6_v7 V, st_main_call6_v10 V]
theorem st_main_call6_c_3 (V : Valuation τ sig (Elt F)) :
    after (ops (F := F)) V (Proc.devRef .tc main_call6_c_3) = val_main_call6_c_3 (F := F) := by
  stage0 114 val_main_call6_c_3
theorem st_main_call6_v12 (V : Valuation τ sig (Elt F)) :
    after (ops (F := F)) V (Proc.devRef .tc main_call6_v12) = val_main_call6_v12 (F := F) (V (Proc.devRef .tc main_arg2)) := by
  stage 115 val_main_call6_v12 [st_main_call6_v11 V, st_main_call6_c_3 V]
theorem st_main_call6_v13 (V : Valuation τ sig (Elt F)) :
    after (ops (F := F)) V (Proc.devRef .tc main_call6_v13) = val_main_call6_v13 (F := F) (V (Proc.devRef .tc main_arg0)) (V (Proc.devRef .tc main_arg1)) (V (Proc.devRef .tc main_arg2)) (V (Proc.devRef .tc main_arg3)) := by
  stage 116 val_main_call6_v13 [st_main_v49 V, st_main_call6_v5 V]
theorem st_main_call6_cst (V : Valuation τ sig (Elt F)) :
    after (ops (F := F)) V (Proc.devRef .tc main_call6_cst) = val_main_call6_cst (F := F) := by
  stage0 117 val_main_call6_cst
theorem st_main_call6_v14 (V : Valuation τ sig (Elt F)) :
    after (ops (F := F)) V (Proc.devRef .tc main_call6_v14) = val_main_call6_v14 (F := F) := by
  stage 118 val_main_call6_v14 [st_main_call6_cst V]
theorem st_main_v51 (V : Valuation τ sig (Elt F)) :
    after (ops (F := F)) V (Proc.devRef .tc main_v51) = val_main_v51 (F := F) (V (Proc.devRef .tc main_arg0)) (V (Proc.devRef .tc main_arg1)) (V (Proc.devRef .tc main_arg2)) (V (Proc.devRef .tc main_arg3)) := by
  stage 119 val_main_v51 [st_main_call6_v12 V, st_main_call6_v13 V, st_main_call6_v14 V]
theorem st_main_cst_4 (V : Valuation τ sig (Elt F)) :
    after (ops (F := F)) V (Proc.devRef .tc main_cst_4) = val_main_cst_4 (F := F) := by
  stage0 120 val_main_cst_4
theorem st_main_v52 (V : Valuation τ sig (Elt F)) :
    after (ops (F := F)) V (Proc.devRef .tc main_v52) = val_main_v52 (F := F) (V (Proc.devRef .tc main_arg0)) (V (Proc.devRef .tc main_arg1)) (V (Proc.devRef .tc main_arg2)) (V (Proc.devRef .tc main_arg3)) := by
  stage 121 val_main_v52 [st_main_v51 V, st_main_cst_4 V]
theorem st_main_cst_5 (V : Valuation τ sig (Elt F)) :
    after (ops (F := F)) V (Proc.devRef .tc main_cst_5) = val_main_cst_5 (F := F) := by
  stage0 122 val_main_cst_5
theorem st_main_v53 (V : Valuation τ sig (Elt F)) :
    after (ops (F := F)) V (Proc.devRef .tc main_v53) = val_main_v53 (F := F) (V (Proc.devRef .tc main_arg0)) (V (Proc.devRef .tc main_arg1)) (V (Proc.devRef .tc main_arg2)) (V (Proc.devRef .tc main_arg3)) := by
  stage 123 val_main_v53 [st_main_v52 V, st_main_cst_5 V]
theorem st_main_v54 (V : Valuation τ sig (Elt F)) :
    after (ops (F := F)) V (Proc.devRef .tc main_v54) = val_main_v54 (F := F) (V (Proc.devRef .tc main_arg0)) (V (Proc.devRef .tc main_arg1)) (V (Proc.devRef .tc main_arg2)) (V (Proc.devRef .tc main_arg3)) := by
  stage 124 val_main_v54 [st_main_v53 V]

/-- The reference program's run: termination, the result at the last stage, the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = Cert.ReferenceIdeal.ReadP.val_main_v54 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c main_v54).trans (st_main_v54 (launchContents m c)),
     (h c main_arg0).trans (st_main_arg0 (launchContents m c)),
     (h c main_arg1).trans (st_main_arg1 (launchContents m c)),
     (h c main_arg2).trans (st_main_arg2 (launchContents m c)),
     (h c main_arg3).trans (st_main_arg3 (launchContents m c))⟩)
    (run_seq scopedRefs_eq scopedSems_eq defs main (fun _ => ops) main_eq (fun _ => ops_sub) m ρ)

end Cert.ReferenceIdeal.RefRunV

end
-- ==== Proof.LibGatherBatch.lean ====
/-
  Two reads of `stablehlo.gather` at an index, at any extents.

  ROW TAKE: an operand `[N, D]` gathered along axis 0 at a column `[n, 1]` of start indices (what `x[idx]` of a
  matrix lowers to): result `(p, c)` is the operand at `(start p, c)`, the start index read signed and clamped
  into `[0, N - 1]`.

  BATCHED TAKE: an operand `[R, N]` gathered along axis 1 with axis 0 a batching axis, at start indices `[R, K, 1]`
  (what `take_along_axis(x, idx, axis=1)` lowers to): result `(i, k)` is the operand at `(i, start (i, k))`, the
  start index read signed and clamped into `[0, N - 1]`.

  And a reduction by `and` over a trailing axis of extent one is the operand.
-/
import Idealize.ShloMosaic.Lib.ValueIdx
import Idealize.ShloMosaic.PureOps.Reduce

noncomputable section

namespace Cert.LibGatherBatch

open Idealize.ShloMosaic Idealize.ShloMosaic.ValueIdx

variable {α : Type}

/-- The row take's dimension numbers. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- THE ROW TAKE READ AT `(p, c)`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (p : Fin n) (c : Fin D) :
    Host.gather (rowTakeDims N D n wf) x idx (ix2 p c)
      = x (ix2 ⟨min (idx (ix2 p (0 : Fin 1))).toInt.toNat (N - 1), by omega⟩ c) := by
  unfold Host.gather
  congr 1
  funext a
  refine Fin.ext ?_
  match a with
  | ⟨0, _⟩ =>
    show (rowTakeDims N D n wf).start (ix2 p c) idx 0 + (rowTakeDims N D n wf).batchCoord (ix2 p c) 0
      + (rowTakeDims N D n wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D n wf).startIndexMap from List.mem_singleton.mpr rfl)]
    have hsi : (rowTakeDims N D n wf).siIdx (ix2 p c) ⟨List.idxOf (0 : Fin 2) (rowTakeDims N D n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowTakeDims N D n wf).start (ix2 p c) idx 1 + (rowTakeDims N D n wf).batchCoord (ix2 p c) 1
      + (rowTakeDims N D n wf).offCoord (ix2 p c) 1 = c.val
    rw [GatherDims.batchCoord_eq_zero _ _ _ List.not_mem_nil]
    unfold GatherDims.start
    rw [dif_neg (show (1 : Fin 2) ∉ (rowTakeDims N D n wf).startIndexMap from (by decide : (1 : Fin 2) ∉ [(0 : Fin 2)]))]
    simp only [Nat.zero_add, Nat.add_zero]
    unfold GatherDims.offCoord
    rw [dif_pos (show (1 : Fin 2) ∈ (rowTakeDims N D n wf).sKept from (GatherDims.mem_sKept _ _).mpr ⟨(by decide : (1 : Fin 2) ∉ [(0 : Fin 2)]), List.not_mem_nil⟩)]
    rfl

/-- The batched take's dimension numbers. -/
abbrev batchTakeDims (R N K : Nat)
    (wf : GatherDims.WF ⟨2, ![R, N]⟩ ⟨3, ![R, K, 1]⟩ ⟨2, ![R, K]⟩ [] [1] [0] [1] [0] 2 ![1, 1]) :
    GatherDims ⟨2, ![R, N]⟩ ⟨3, ![R, K, 1]⟩ ⟨2, ![R, K]⟩ where
  offsetDims := []
  collapsedSliceDims := [1]
  operandBatchingDims := [0]
  startIndicesBatchingDims := [0]
  startIndexMap := [1]
  indexVectorDim := 2
  sliceSizes := ![1, 1]
  wf := wf

/-- THE BATCHED TAKE READ AT `(i, k)`. -/
theorem gather_batchTake_apply {R N K w : Nat} (hN : 0 < N)
    (wf : GatherDims.WF ⟨2, ![R, N]⟩ ⟨3, ![R, K, 1]⟩ ⟨2, ![R, K]⟩ [] [1] [0] [1] [0] 2 ![1, 1])
    (x : (⟨2, ![R, N]⟩ : Shape).Idx → α) (idx : IVec ⟨3, ![R, K, 1]⟩ w) (i : Fin R) (k : Fin K) :
    Host.gather (batchTakeDims R N K wf) x idx (ix2 i k)
      = x (ix2 i ⟨min (idx (ix3 i k (0 : Fin 1))).toInt.toNat (N - 1), by omega⟩) := by
  unfold Host.gather
  congr 1
  funext a
  refine Fin.ext ?_
  match a with
  | ⟨0, _⟩ =>
    show (batchTakeDims R N K wf).start (ix2 i k) idx 0 + (batchTakeDims R N K wf).batchCoord (ix2 i k) 0
      + (batchTakeDims R N K wf).offCoord (ix2 i k) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (batchTakeDims R N K wf).operandBatchingDims from List.mem_singleton.mpr rfl)]
    rfl
  | ⟨1, _⟩ =>
    show (batchTakeDims R N K wf).start (ix2 i k) idx 1 + (batchTakeDims R N K wf).batchCoord (ix2 i k) 1
      + (batchTakeDims R N K wf).offCoord (ix2 i k) 1 = _
    rw [GatherDims.batchCoord_eq_zero _ _ _ (by decide : (1 : Fin 2) ∉ [(0 : Fin 2)]),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (batchTakeDims R N K wf).startIndexMap from List.mem_singleton.mpr rfl)]
    have hsi : (batchTakeDims R N K wf).siIdx (ix2 i k) ⟨List.idxOf (1 : Fin 2) (batchTakeDims R N K wf).startIndexMap,
        List.idxOf_lt_length_iff.2 (List.mem_singleton.mpr rfl)⟩ = ix3 i k (0 : Fin 1) := by
      funext b; refine Fin.ext ?_
      match b with
      | ⟨0, _⟩ => rfl
      | ⟨1, _⟩ => rfl
      | ⟨2, _⟩ => rfl
    rw [hsi]
    rfl

/-- A reduction by `and` over a trailing axis of extent one: the one element, `and` the initial value. -/
theorem reduce_andi_unit {n m : Nat} {u : Shape} (x : IVec ⟨3, ![n, m, 1]⟩ 1) (init : u.Idx → BitVec 1)
    (h' : (⟨3, ![n, m, 1]⟩ : Shape).ReducesTo [2] ⟨2, ![n, m]⟩) (h : (⟨3, ![n, m, 1]⟩ : Shape).Reduces [2] ⟨2, ![n, m]⟩)
    (hu : 0 < u.numel) (p : Fin n) (q : Fin m) :
    Host.reduce IntOp.andi x init h' hu (ix2 p q) = IntOp.andi (x (ix3 p q (0 : Fin 1))) (init (Shape.Idx.first hu)) := by
  have key : ∀ (f : Fin 1 → BitVec 1) (b : BitVec 1),
      (Finset.univ : Finset (Fin 1)).fold IntOp.andi b f = IntOp.andi (f 0) b := fun f b => by
    rw [Finset.univ_unique, Finset.fold_singleton]; rfl
  rw [Host.reduce_eq_fold_single IntOp.andi x init h' h hu]
  refine (key (fun k => x (h.lift (ix2 p q) k)) _).trans ?_
  refine congrArg (fun z => IntOp.andi (x z) (init (Shape.Idx.first hu))) ?_
  funext b; refine Fin.ext ?_
  match b with
  | ⟨0, _⟩ => rfl
  | ⟨1, _⟩ => rfl
  | ⟨2, _⟩ => rfl

end Cert.LibGatherBatch

end
-- ==== Proof.RefInt.lean ====
/-
  The column remap of the reference, read off its integer operations: at row `i` and column `k` the
  select chain over iota, the sampled index and their comparisons is the word of `mcol i (jn i) k`.
  All words are below 8193, so the signed comparisons are those of natural numbers.
-/
import proofs.«408697_j30434138259689_1_alg».proof.Proof.RefRead
import proofs.«408697_j30434138259689_1_alg».proof.Proof.Spec
import Idealize.ShloMosaic.Lib.StableHlo.Predicate
import Idealize.ShloMosaic.Lib.Affine
import Idealize.ShloMosaic.Lib.ValueIdx

noncomputable section

namespace Cert.RefInt

open Idealize.ShloMosaic Idealize.ShloMosaic.ValueIdx Idealize.ShloMosaic.StableHlo.Predicate
open Cert.ReferenceIdeal Cert.ReferenceIdeal.Gen Cert.ReferenceIdeal.ReadP Cert.LseSpec

/-- A select is the `if` on its bit. -/
theorem sel {α : Type} (c : BitVec 1) (x y : α) : Scalar.select c x y = if c = 1#1 then x else y := rfl

theorem toNat_ofNat_small (b : ℕ) (hb : b < 8192) : (BitVec.ofNat 32 b).toNat = b := by
  rw [BitVec.toNat_ofNat]; omega

/-- THE REMAP ON WORDS: row `a`, column `b`, sampled index `J`, all below 8192. -/
theorem remap_word (a b : ℕ) (J : BitVec 32) (ha : a < 8192) (hb : b < 8192) (hJ : J.toNat < 8192) :
    Scalar.select (IntOp.cmpi .eq (BitVec.ofNat 32 b) (BitVec.ofNat 32 a)) J
      (Scalar.select (IntOp.cmpi .sgt J (BitVec.ofNat 32 a))
        (Scalar.select (IntOp.andi (IntOp.cmpi .sgt (BitVec.ofNat 32 b) (BitVec.ofNat 32 a)) (IntOp.cmpi .sle (BitVec.ofNat 32 b) J))
          (IntOp.subi (BitVec.ofNat 32 b) 1#32) (BitVec.ofNat 32 b))
        (Scalar.select (IntOp.andi (IntOp.cmpi .sge (BitVec.ofNat 32 b) J) (IntOp.cmpi .slt (BitVec.ofNat 32 b) (BitVec.ofNat 32 a)))
          (IntOp.addi (BitVec.ofNat 32 b) 1#32) (BitVec.ofNat 32 b)))
      = BitVec.ofNat 32 (mcol a J.toNat b) := by
  have hA : (BitVec.ofNat 32 a).toNat = a := toNat_ofNat_small a ha
  have hB : (BitVec.ofNat 32 b).toNat = b := toNat_ofNat_small b hb
  have e1 : IntOp.cmpi .eq (BitVec.ofNat 32 b) (BitVec.ofNat 32 a) = 1#1 ↔ b = a := by
    rw [cmpi_eq_iff]
    constructor
    · intro h; have := congrArg BitVec.toNat h; rw [hA, hB] at this; exact this
    · rintro rfl; rfl
  have e2 : IntOp.cmpi .sgt J (BitVec.ofNat 32 a) = 1#1 ↔ a < J.toNat := by
    rw [sgt_iff_toNat (by omega) (by omega), hA]
  have e3 : IntOp.cmpi .sgt (BitVec.ofNat 32 b) (BitVec.ofNat 32 a) = 1#1 ↔ a < b := by
    rw [sgt_iff_toNat (by omega) (by omega), hA, hB]
  have e4 : IntOp.cmpi .sle (BitVec.ofNat 32 b) J = 1#1 ↔ b ≤ J.toNat := by
    rw [sle_iff_toNat (by omega) (by omega), hB]
  have e5 : IntOp.cmpi .sge (BitVec.ofNat 32 b) J = 1#1 ↔ J.toNat ≤ b := by
    rw [sge_iff_toNat (by omega) (by omega), hB]
  have e6 : IntOp.cmpi .slt (BitVec.ofNat 32 b) (BitVec.ofNat 32 a) = 1#1 ↔ b < a := by
    rw [slt_iff_toNat (by omega) (by omega), hA, hB]
  have hJe : J = BitVec.ofNat 32 J.toNat := BitVec.eq_of_toNat_eq (by rw [BitVec.toNat_ofNat]; omega)
  have hsub : 1 ≤ b → IntOp.subi (BitVec.ofNat 32 b) 1#32 = BitVec.ofNat 32 (b - 1) :=
    fun h => sub_one_ofNat b h (by omega)
  have hadd : IntOp.addi (BitVec.ofNat 32 b) 1#32 = BitVec.ofNat 32 (b + 1) := by
    apply BitVec.eq_of_toNat_eq
    show (BitVec.ofNat 32 b + 1#32).toNat = _
    rw [BitVec.toNat_add, hB, BitVec.toNat_ofNat, BitVec.toNat_ofNat]
  simp only [sel, mcol, e1, e2, e3, e4, e5, e6, IntOp.andi_eq_one]
  split_ifs with h1 h2 h3 h4
  · exact hJe
  · exact hsub (by omega)
  · rfl
  · exact hadd
  · rfl

/-- A word below 8192 is not negative: the wrap `if w < 0 then w + 8192 else w` leaves it. -/
theorem wrap_word (J : BitVec 32) (hJ : J.toNat < 8192) :
    Scalar.select (IntOp.cmpi .slt J 0#32) (IntOp.addi J 8192#32) J = J := by
  rw [sel, if_neg]
  rw [slt_iff_toNat (by omega) (by decide)]
  exact Nat.not_lt_zero _

/-- It is in range: the mask `0 ≤ w ∧ w ≤ 8191`, folded from `true`, is set. -/
theorem mask_word (J : BitVec 32) (hJ : J.toNat < 8192) :
    IntOp.andi (IntOp.andi (IntOp.cmpi .sge J 0#32) (IntOp.cmpi .sle J 8191#32)) 1#1 = 1#1 := by
  rw [IntOp.andi_eq_one, IntOp.andi_eq_one, sge_iff_toNat (by omega) (by decide), sle_iff_toNat (by omega) (by decide)]
  refine ⟨⟨Nat.zero_le _, ?_⟩, rfl⟩
  show J.toNat ≤ 8191
  omega

/-- Read signed and clamped into `[0, 8191]` it is itself. -/
theorem clamp_word (J : BitVec 32) (hJ : J.toNat < 8192) : min J.toInt.toNat (8192 - 1) = J.toNat := by
  rw [toInt_eq_toNat_of_lt (by omega), Int.toNat_natCast]
  omega

/-- The row iota as a column: at `(p, 0)` the word of `p`. -/
theorem v1_at (j : S8192x1.Idx) : val_main_v1 (F := Ideal) j = BitVec.ofNat 32 (j 0).val := by
  rw [val_main_v1_apply, val_main_v0_apply]

/-- The column iota as a row: at `(0, q)` the word of `q`. -/
theorem v3_at (j : S1x8192.Idx) : val_main_v3 (F := Ideal) j = BitVec.ofNat 32 (j 1).val := by
  rw [val_main_v3_apply, val_main_v2_apply]

/-- The sampled index as a column: at `(p, 0)` the sampled index of row `p`. -/
theorem v4_at (x3 : IVec S8192 32) (j : S8192x1.Idx) : val_main_v4 (F := Ideal) x3 j = x3 (ix1 (j 0)) := by
  rw [val_main_v4_apply]
  congr 1
  funext a
  match a with
  | ⟨0, _⟩ => rfl

/-- THE REMAP, READ: at row `i`, column `k` the reference's remapped column is the word of `mcol i (jn i) k`. -/
theorem v39_eq (x3 : IVec S8192 32) (hj : ∀ i : S8192.Idx, (x3 i).toNat < 8192) (i k : Fin 8192) :
    val_main_v39 (F := Ideal) x3 (ix2 i k) = BitVec.ofNat 32 (mcol i.val (x3 (ix1 i)).toNat k.val) := by
  simp only [val_main_v39_apply, val_main_v16_apply, val_main_v14_apply, val_main_v15_apply, val_main_call3_v0_apply,
    val_main_v38_apply, val_main_call2_v0_apply, val_main_v17_apply, val_main_v27_apply, val_main_v24_apply,
    val_main_v20_apply, val_main_v18_apply, val_main_v19_apply, val_main_v23_apply, val_main_v21_apply,
    val_main_v22_apply, val_main_call0_v0_apply, val_main_v26_apply, val_main_v25_apply, val_main_c_1_apply,
    val_main_call0_v1_apply, val_main_v37_apply, val_main_v34_apply, val_main_v30_apply, val_main_v28_apply,
    val_main_v29_apply, val_main_v33_apply, val_main_v31_apply, val_main_v32_apply, val_main_call1_v0_apply,
    val_main_v36_apply, val_main_v35_apply, val_main_c_2_apply, val_main_call1_v1_apply, v1_at, v3_at, v4_at]
  exact remap_word i.val k.val (x3 (ix1 i)) i.isLt k.isLt (hj _)

end Cert.RefInt

end
-- ==== Proof.RefFloat.lean ====
/-
  The reference's float stages, read at coordinates: the positive similarity `s`, the Gram matrix `T`,
  its gather through the column remap, and the disparities `|s - T∘m| / c` — the model's `dR`.
-/
import proofs.«408697_j30434138259689_1_alg».proof.Proof.RefRead
import proofs.«408697_j30434138259689_1_alg».proof.Proof.Model
import proofs.«408697_j30434138259689_1_alg».proof.Proof.LibGatherBatch
import proofs.«408697_j30434138259689_1_alg».proof.Proof.RefInt
import Idealize.ShloMosaic.Lib.ValueIdx
import Idealize.ShloMosaic.PureOps.Ideal.Laws

noncomputable section

namespace Cert.RefFloat

open Idealize.ShloMosaic Idealize.ShloMosaic.ValueIdx
open Cert.ReferenceIdeal Cert.ReferenceIdeal.Gen Cert.ReferenceIdeal.ReadP Cert.LseSpec Cert.LseModel
open Cert.LibGatherBatch Cert.RefInt

/-- The features by (row, feature), the indices as columns: the model's arguments. -/
abbrev rowsA (x : FVec Ideal S8192x128 .f32) : Fin 8192 → Fin 128 → EReal := fun i d => x (ix2 i d)
abbrev colsA (x : IVec S8192 32) (h : ∀ i : S8192.Idx, (x i).toNat < 8192) : Fin 8192 → Fin 8192 :=
  fun i => ⟨(x (ix1 i)).toNat, h _⟩

variable (x0 x1 : FVec Ideal S8192x128 .f32) (x3 : IVec S8192 32) (hj : ∀ i : S8192.Idx, (x3 i).toNat < 8192)

/-- LAYER 3: the Gram matrix of `t`. -/
theorem v41_at (i k : Fin 8192) : val_main_v41 (F := Ideal) x1 (ix2 i k) = Cert.LseModel.T (rowsA x1) i k := by
  rw [val_main_v41_apply]
  unfold Cert.LseModel.T
  refine Finset.sum_congr rfl fun d _ => ?_
  rw [val_main_v40_apply]
  have e1 : lidx_main_v41 (ix2 i k) d = ix2 i d := by
    funext a
    match a with
    | ⟨0, _⟩ => rfl
    | ⟨1, _⟩ => rfl
  have e2 : idx_main_v40 (ridx_main_v41 (ix2 i k) d) = ix2 k d := by
    funext a
    match a with
    | ⟨0, _⟩ => rfl
    | ⟨1, _⟩ => rfl
  rw [e1, e2]

include hj

/-- A remapped column is a column. -/
theorem mcol_word_lt (i k : Fin 8192) :
    (BitVec.ofNat 32 (mcol i.val (x3 (ix1 i)).toNat k.val)).toNat < 8192 := by
  rw [toNat_ofNat_small _ (mcol_lt 8192 _ _ _ i.isLt (hj _) k.isLt)]
  exact mcol_lt 8192 _ _ _ i.isLt (hj _) k.isLt

/-- The start-index column of the gather `q[j]`: at `(p, 0)` the sampled index of row `p` (in range, so not wrapped). -/
theorem v10_at (p : Fin 8192) : val_main_v10 (F := Ideal) x3 (ix2 p (0 : Fin 1)) = x3 (ix1 p) := by
  rw [val_main_v10_apply, val_main_v9_apply, val_main_v6_apply, val_main_v5_apply, val_main_c_apply, val_main_v8_apply,
    val_main_v7_apply, val_main_c_0_apply]
  have e : idx_main_v10 (ix2 p (0 : Fin 1)) = ix1 p := by
    funext a
    match a with
    | ⟨0, _⟩ => rfl
  rw [e]
  exact wrap_word _ (hj _)

/-- `q[j]` at `(p, c)`: row `jn p` of `q`. -/
theorem v11_at (p : Fin 8192) (c : Fin 128) :
    val_main_v11 (F := Ideal) x0 x3 (ix2 p c) = x0 (ix2 (colsA x3 hj p) c) := by
  unfold val_main_v11
  refine (gather_rowTake_apply (N := 8192) (D := 128) (n := 8192) (by norm_num)
    gather_S8192x128_S8192x1_S8192x128_1_0_n_n_0_1_1128_wf x0 (val_main_v10 (F := Ideal) x3) p c).trans ?_
  have hv : min (val_main_v10 (F := Ideal) x3 (ix2 p (0 : Fin 1))).toInt.toNat (8192 - 1) = (x3 (ix1 p)).toNat := by
    rw [v10_at x3 hj p]; exact clamp_word _ (hj _)
  refine congrArg x0 (funext fun a => ?_)
  match a with
  | ⟨0, _⟩ => exact Fin.ext hv
  | ⟨1, _⟩ => rfl

/-- LAYER 1: the positive similarity of row `i`. -/
theorem v13_at (i : Fin 8192) :
    val_main_v13 (F := Ideal) x0 x3 (ix1 i) = s (rowsA x0) (colsA x3 hj) i := by
  rw [val_main_v13_apply, val_main_cst_apply]
  show Ideal.ofBits .f32 0x00000000#32 + _ = _
  rw [Ideal.ofBits_zero_f32, zero_add]
  unfold s
  refine Finset.sum_congr rfl fun d _ => ?_
  have e : idx_main_v13 (ix1 i) d = ix2 i d := by
    funext a
    match a with
    | ⟨0, _⟩ => rfl
    | ⟨1, _⟩ => rfl
  rw [e, val_main_v12_apply, v11_at x0 x3 hj]
  rfl

/-- The start indices of the first take-along-axis: at `(i, k, 0)` the remapped column (in range, so not wrapped). -/
theorem call4_v5_at (i k : Fin 8192) :
    val_main_call4_v5 (F := Ideal) x3 (ix3 i k (0 : Fin 1)) = BitVec.ofNat 32 (mcol i.val (x3 (ix1 i)).toNat k.val) := by
  rw [val_main_call4_v5_apply]
  have e : idx_main_call4_v5 (ix3 i k (0 : Fin 1)) = ix2 i k := by
    funext a
    refine Fin.ext ?_
    have hk := k.isLt
    match a with
    | ⟨0, _⟩ => show ((i.val * 8192 + k.val) * 1 + 0) / 8192 = i.val; omega
    | ⟨1, _⟩ => show ((i.val * 8192 + k.val) * 1 + 0) % 8192 = k.val; omega
  rw [e, val_main_call4_v4_apply, val_main_call4_v1_apply, val_main_call4_v0_apply, val_main_call4_c_apply,
    val_main_call4_v3_apply, val_main_call4_v2_apply, val_main_call4_c_0_apply, v39_eq x3 hj]
  exact wrap_word _ (mcol_word_lt x3 hj i k)

/-- Its in-range mask is set everywhere. -/
theorem call4_v12_at (i k : Fin 8192) : val_main_call4_v12 (F := Ideal) x3 (ix2 i k) = 1#1 := by
  unfold val_main_call4_v12
  rw [reduce_andi_unit _ _ reducesTo_S8192x8192x1_S8192x8192_d2 (by decide) h_S_ i k]
  rw [val_main_call4_v11_apply, val_main_call4_v7_apply, val_main_call4_v10_apply, val_main_call4_v6_apply,
    val_main_call4_c_2_apply, val_main_call4_v9_apply, val_main_call4_v8_apply, val_main_call4_c_1_apply,
    val_main_call4_c_3_apply, call4_v5_at x3 hj]
  exact mask_word _ (mcol_word_lt x3 hj i k)

/-- LAYER 4: the Gram matrix gathered through the remap. -/
theorem v42_at (i k : Fin 8192) :
    val_main_v42 (F := Ideal) x1 x3 (ix2 i k) = Cert.LseModel.T (rowsA x1) i (mc (colsA x3 hj) i k) := by
  rw [val_main_v42_apply, call4_v12_at x3 hj, select_one]
  unfold val_main_call4_v13
  refine (gather_batchTake_apply (R := 8192) (N := 8192) (K := 8192) (by norm_num)
    gather_S8192x8192_S8192x8192x1_S8192x8192_n_1_0_0_1_2_11_wf (val_main_v41 (F := Ideal) x1)
    (val_main_call4_v5 (F := Ideal) x3) i k).trans ?_
  have hv : min (val_main_call4_v5 (F := Ideal) x3 (ix3 i k (0 : Fin 1))).toInt.toNat (8192 - 1)
      = mcol i.val (x3 (ix1 i)).toNat k.val := by
    rw [call4_v5_at x3 hj, clamp_word _ (mcol_word_lt x3 hj i k)]
    exact toNat_ofNat_small _ (mcol_lt 8192 _ _ _ i.isLt (hj _) k.isLt)
  rw [← v41_at x1 i (mc (colsA x3 hj) i k)]
  refine congrArg (val_main_v41 (F := Ideal) x1) (funext fun a => ?_)
  match a with
  | ⟨0, _⟩ => rfl
  | ⟨1, _⟩ => exact Fin.ext hv

/-- LAYER 5: the reference's disparities are the model's. -/
theorem v48_at (i k : Fin 8192) :
    val_main_v48 (F := Ideal) x0 x1 x3 (ix2 i k) = dR (rowsA x0) (rowsA x1) (colsA x3 hj) i k := by
  rw [val_main_v48_apply, val_main_v46_apply, val_main_v45_apply, val_main_v47_apply, val_main_cst_3_apply,
    val_main_v44_apply, val_main_v43_apply, v42_at x1 x3 hj]
  have e : idx_main_v43 (idx_main_v44 (ix2 i k)) = ix1 i := by
    funext a
    match a with
    | ⟨0, _⟩ => rfl
  rw [e, v13_at x0 x3 hj]
  show Ideal.div (max _ (- _)) (Ideal.ofBits .f32 0x3DCCCCCD#32) = _
  rw [ofBits_tenth]
  rfl

end Cert.RefFloat

end
-- ==== Proof.RefSoftmax.lean ====
/-
  The reference's log-softmax and the entry picked at the label, read at coordinates: the row maximum
  from -∞, the shifted exponentials' sum, and the second take-along-axis — the model's `logpR i (ln i)`.
-/
import proofs.«408697_j30434138259689_1_alg».proof.Proof.RefRead
import proofs.«408697_j30434138259689_1_alg».proof.Proof.Model
import proofs.«408697_j30434138259689_1_alg».proof.Proof.LibGatherBatch
import proofs.«408697_j30434138259689_1_alg».proof.Proof.RefInt
import proofs.«408697_j30434138259689_1_alg».proof.Proof.RefFloat
import Idealize.ShloMosaic.Lib.ValueIdx
import Idealize.ShloMosaic.PureOps.Reduce
import Idealize.ShloMosaic.PureOps.Ideal.Laws

noncomputable section

namespace Cert.RefSoftmax

open Idealize.ShloMosaic Idealize.ShloMosaic.ValueIdx
open Cert.ReferenceIdeal Cert.ReferenceIdeal.Gen Cert.ReferenceIdeal.ReadP Cert.LseSpec Cert.LseModel
open Cert.LibGatherBatch Cert.RefInt Cert.RefFloat

variable (x0 x1 : FVec Ideal S8192x128 .f32) (x2 x3 : IVec S8192 32)
  (hl : ∀ i : S8192.Idx, (x2 i).toNat < 8192) (hj : ∀ i : S8192.Idx, (x3 i).toNat < 8192)

/-- The reduction along the columns, as the library names the inserted index. -/
theorem hR : S8192x8192.Reduces [1] S8192 := by decide

/-- The row maximum from -∞: the fold of `max` over the row's disparities. -/
theorem call5_v0_at (i : Fin 8192) :
    val_main_call5_v0 (F := Ideal) x0 x1 x3 (ix1 i)
      = (Finset.univ : Finset (Fin 8192)).fold max ⊥ (dR (rowsA x0) (rowsA x1) (colsA x3 hj) i) := by
  unfold val_main_call5_v0
  refine (Host.reduce_eq_fold_single FloatOps.maximumf _ _ reducesTo_S8192x8192_S8192_d1 hR h_S_ (ix1 i)).trans ?_
  have hf : (fun k : Fin 8192 => val_main_v48 (F := Ideal) x0 x1 x3 (hR.lift (ix1 i) k))
      = dR (rowsA x0) (rowsA x1) (colsA x3 hj) i := by
    funext k
    have e : hR.lift (ix1 i) k = ix2 i k := by
      funext a
      refine Fin.ext ?_
      match a with
      | ⟨0, _⟩ => rfl
      | ⟨1, _⟩ => rfl
    rw [e, v48_at x0 x1 x3 hj]
  show (Finset.univ : Finset (Fin 8192)).fold max (val_main_call5_cst (F := Ideal) (Shape.Idx.first h_S_))
    (fun k : Fin 8192 => val_main_v48 (F := Ideal) x0 x1 x3 (hR.lift (ix1 i) k)) = _
  rw [hf, val_main_call5_cst_apply]
  show Finset.fold max (Ideal.ofBits .f32 0xFF800000#32) _ _ = _
  rw [ofBits_neg_inf]

/-- The shift of row `i`: the model's `rowMax`. -/
theorem call5_v2_at (i : Fin 8192) :
    val_main_call5_v2 (F := Ideal) x0 x1 x3 (ix1 i) = rowMax (dR (rowsA x0) (rowsA x1) (colsA x3 hj) i) := by
  rw [val_main_call5_v2_apply, val_main_call5_v1_apply, val_main_call5_cst_0_apply, call5_v0_at x0 x1 x3 hj]
  show max (Ideal.ofBits .f32 0xFF800000#32) _ = _
  rw [ofBits_neg_inf]
  rfl

/-- The shifted disparities. -/
theorem call5_v5_at (i k : Fin 8192) :
    val_main_call5_v5 (F := Ideal) x0 x1 x3 (ix2 i k)
      = dR (rowsA x0) (rowsA x1) (colsA x3 hj) i k - rowMax (dR (rowsA x0) (rowsA x1) (colsA x3 hj) i) := by
  rw [val_main_call5_v5_apply, val_main_call5_v4_apply, val_main_call5_v3_apply, v48_at x0 x1 x3 hj]
  have e : idx_main_call5_v3 (idx_main_call5_v4 (ix2 i k)) = ix1 i := by
    funext a
    match a with
    | ⟨0, _⟩ => rfl
  rw [e, call5_v2_at x0 x1 x3 hj]
  rfl

/-- The sum of the shifted exponentials of row `i`. -/
theorem call5_v7_at (i : Fin 8192) :
    val_main_call5_v7 (F := Ideal) x0 x1 x3 (ix1 i)
      = 0 + ∑ k : Fin 8192, Ideal.exp (dR (rowsA x0) (rowsA x1) (colsA x3 hj) i k
          - rowMax (dR (rowsA x0) (rowsA x1) (colsA x3 hj) i)) := by
  rw [val_main_call5_v7_apply, val_main_call5_cst_1_apply]
  show Ideal.ofBits .f32 0x00000000#32 + _ = _
  rw [Ideal.ofBits_zero_f32]
  refine congrArg (0 + ·) (Finset.sum_congr rfl fun k _ => ?_)
  have e : idx_main_call5_v7 (ix1 i) k = ix2 i k := by
    funext a
    match a with
    | ⟨0, _⟩ => rfl
    | ⟨1, _⟩ => rfl
  rw [e, val_main_call5_v6_apply, call5_v5_at x0 x1 x3 hj]
  rfl

/-- LAYER 6: the reference's log-softmax is the model's. -/
theorem v49_at (i k : Fin 8192) :
    val_main_v49 (F := Ideal) x0 x1 x3 (ix2 i k) = logpR (rowsA x0) (rowsA x1) (colsA x3 hj) i k := by
  rw [val_main_v49_apply, call5_v5_at x0 x1 x3 hj, val_main_call5_v10_apply, val_main_call5_v9_apply,
    val_main_call5_v8_apply]
  have e : idx_main_call5_v8 (idx_main_call5_v10 (ix2 i k)) = ix1 i := by
    funext a
    match a with
    | ⟨0, _⟩ => rfl
  rw [e, call5_v7_at x0 x1 x3 hj]
  rfl

include hl

/-- The start indices of the second take-along-axis: at `(i, 0, 0)` the label of row `i` (in range, so not wrapped). -/
theorem call6_v5_at (i : Fin 8192) :
    val_main_call6_v5 (F := Ideal) x2 (ix3 i (0 : Fin 1) (0 : Fin 1)) = x2 (ix1 i) := by
  rw [val_main_call6_v5_apply]
  have e : idx_main_call6_v5 (ix3 i (0 : Fin 1) (0 : Fin 1)) = ix2 i (0 : Fin 1) := by
    funext a
    refine Fin.ext ?_
    match a with
    | ⟨0, _⟩ => show ((i.val * 1 + 0) * 1 + 0) / 1 = i.val; omega
    | ⟨1, _⟩ => rfl
  rw [e, val_main_call6_v4_apply, val_main_call6_v1_apply, val_main_call6_v0_apply, val_main_call6_c_apply,
    val_main_call6_v3_apply, val_main_call6_v2_apply, val_main_call6_c_0_apply, val_main_v50_apply]
  have e2 : idx_main_v50 (ix2 i (0 : Fin 1)) = ix1 i := by
    funext a
    match a with
    | ⟨0, _⟩ => rfl
  rw [e2]
  exact wrap_word _ (hl _)

/-- Its in-range mask is set. -/
theorem call6_v12_at (i : Fin 8192) : val_main_call6_v12 (F := Ideal) x2 (ix2 i (0 : Fin 1)) = 1#1 := by
  unfold val_main_call6_v12
  rw [reduce_andi_unit _ _ reducesTo_S8192x1x1_S8192x1_d2 (by decide) h_S_ i (0 : Fin 1)]
  rw [val_main_call6_v11_apply, val_main_call6_v7_apply, val_main_call6_v10_apply, val_main_call6_v6_apply,
    val_main_call6_c_2_apply, val_main_call6_v9_apply, val_main_call6_v8_apply, val_main_call6_c_1_apply,
    val_main_call6_c_3_apply, call6_v5_at x2 hl]
  exact mask_word _ (hl _)

/-- LAYER 7: the log-softmax picked at the label. -/
theorem v51_at (i : Fin 8192) :
    val_main_v51 (F := Ideal) x0 x1 x2 x3 (ix2 i (0 : Fin 1))
      = logpR (rowsA x0) (rowsA x1) (colsA x3 hj) i (colsA x2 hl i) := by
  rw [val_main_v51_apply, call6_v12_at x2 hl, select_one]
  unfold val_main_call6_v13
  refine (gather_batchTake_apply (R := 8192) (N := 8192) (K := 1) (by norm_num)
    gather_S8192x8192_S8192x1x1_S8192x1_n_1_0_0_1_2_11_wf (val_main_v49 (F := Ideal) x0 x1 x3)
    (val_main_call6_v5 (F := Ideal) x2) i (0 : Fin 1)).trans ?_
  have hv : min (val_main_call6_v5 (F := Ideal) x2 (ix3 i (0 : Fin 1) (0 : Fin 1))).toInt.toNat (8192 - 1)
      = (x2 (ix1 i)).toNat := by
    rw [call6_v5_at x2 hl, clamp_word _ (hl _)]
  rw [← v49_at x0 x1 x3 hj i (colsA x2 hl i)]
  refine congrArg (val_main_v49 (F := Ideal) x0 x1 x3) (funext fun a => ?_)
  match a with
  | ⟨0, _⟩ => rfl
  | ⟨1, _⟩ => exact Fin.ext hv

end Cert.RefSoftmax

end
-- ==== Proof.RefValue.lean ====
/-
  The reference program's result, read one operation at a time, is the model's reference closed
  form `lossR`: the positive similarity s, the Gram matrix T = t tᵀ gathered through the column
  remap, the disparities |s - T∘m| / c, the row-wise log-softmax, the entry picked at the label,
  the negated mean. The two index inputs are taken in [0, 8192): there every gather reads in range
  (no wrap, no clamp, no fill) and the integer arithmetic of the remap is that of natural numbers.
-/
import proofs.«408697_j30434138259689_1_alg».proof.Proof.RefRead
import proofs.«408697_j30434138259689_1_alg».proof.Proof.Model
import proofs.«408697_j30434138259689_1_alg».proof.Proof.RefSoftmax
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Gen Cert.LseModel

/-- The four arguments as the model takes them: features by (row, feature), indices as columns. -/
abbrev rows (x : FVec Ideal S8192x128 .f32) : Fin 8192 → Fin 128 → EReal := fun i d => x (ix2 i d)
abbrev cols (x : IVec S8192 32) (h : ∀ i : S8192.Idx, (x i).toNat < 8192) : Fin 8192 → Fin 8192 := fun i => ⟨(x (ix1 i)).toNat, h _⟩

theorem ref_value (q t : FVec Ideal S8192x128 .f32) (lab jdx : IVec S8192 32)
    (hl : ∀ i : S8192.Idx, (lab i).toNat < 8192) (hj : ∀ i : S8192.Idx, (jdx i).toNat < 8192) :
    Cert.ReferenceIdeal.ReadP.val_main_v54 (F := Ideal) q t lab jdx
      = fun _ => lossR (rows q) (rows t) (cols jdx hj) (cols lab hl) := by
  funext j
  rw [ReadP.val_main_v54_apply, ReadP.val_main_v53_apply, ReadP.val_main_v52_apply, ReadP.val_main_cst_4_apply, ReadP.val_main_cst_5_apply]
  show -(Ideal.div (Ideal.ofBits .f32 0x00000000#32
      + ∑ j : S8192x1.Idx, Cert.ReferenceIdeal.ReadP.val_main_v51 (F := Ideal) q t lab jdx j)
    (Ideal.ofBits .f32 0x46000000#32)) = _
  rw [Ideal.ofBits_zero_f32, Cert.LseSpec.ofBits_8192, sum_idx2]
  unfold lossR
  refine congrArg (fun z => -(Ideal.div (0 + z) ((8192 : ℝ) : EReal))) (Finset.sum_congr rfl fun i _ => ?_)
  rw [Fin.sum_univ_one]
  exact Cert.RefSoftmax.v51_at q t lab jdx hl hj i

end Cert.RefValue

end
-- ==== Proof.PreDecode.lean ====
/-
  What the precondition says, element by element: every entry of the two float inputs is a real
  number, and every entry of the two integer inputs, read unsigned, lies below 8192 (it is
  non-negative as a signed word and less than 8192).
-/
import proofs.«408697_j30434138259689_1_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

/-- A rank-0 shape has one index. -/
instance : Subsingleton S_.Idx := ⟨fun a b => funext fun d => d.elim0⟩

/-- The f32 pattern 0x7F800000 (exponent all ones, fraction zero, sign clear) denotes +∞. -/
theorem inf_pattern : Ideal.ofBits .f32 0x7F800000#32 = (⊤ : EReal) := by
  simp [Ideal.ofBits, Ideal.ieee]

/-- |x| < +∞ in the extended reals leaves x neither +∞ nor -∞: x is a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_pattern] at h'
  simp only [Ideal.cmp, StableHlo.Predicate.ofBool_eq_one_iff, decide_eq_true_eq] at h'
  induction x using EReal.rec with
  | bot => simp at h'
  | coe r => exact ⟨r, rfl⟩
  | top => simp at h'

/-- A 32-bit word that is ≥ 0 and < 8192 as a signed number has its sign bit clear, so its unsigned
    value is its signed value, below 8192. -/
theorem toNat_lt_of_range (x : BitVec 32) (h0 : IntOp.cmpi .sge x 0#32 = 1#1) (h1 : IntOp.cmpi .slt x 8192#32 = 1#1) :
    x.toNat < 8192 := by
  simp only [IntOp.cmpi, StableHlo.Predicate.ofBool_eq_one_iff, BitVec.sle, BitVec.slt, decide_eq_true_eq] at h0 h1
  have e0 : (0#32 : BitVec 32).toInt = 0 := by decide
  have e1 : (8192#32 : BitVec 32).toInt = 8192 := by decide
  rw [e0] at h0
  rw [e1] at h1
  have hx := x.isLt
  rw [BitVec.toInt] at h0 h1
  split at h0 <;> omega

variable [Cert.Pre_finite_inputs.Facts]

/-- The printed predicate all ones gives: both float arrays finite, both index arrays in [0, 8192). -/
theorem decode (q t : FVec Ideal S8192x128 .f32) (lab jdx : IVec S8192 32)
    (h : Cert.Pre_finite_inputs.fn (F := Ideal) q t lab jdx = fun _ => 1#1) :
    (∀ i : S8192x128.Idx, ∃ r : ℝ, q i = (r : EReal))
    ∧ (∀ i : S8192x128.Idx, ∃ r : ℝ, t i = (r : EReal))
    ∧ (∀ i : S8192.Idx, (lab i).toNat < 8192)
    ∧ (∀ i : S8192.Idx, (jdx i).toNat < 8192) := by
  have h0 := congrFun h ValueIdx.ix0
  dsimp only [fn, fn_part1] at h0
  -- the scalar is ((all-q ∧ all-t) ∧ all-jdx) ∧ all-lab
  obtain ⟨h123, hL⟩ := IntOp.andi_eq_one.1 h0
  obtain ⟨h12, hJ⟩ := IntOp.andi_eq_one.1 h123
  obtain ⟨hQ, hT⟩ := IntOp.andi_eq_one.1 h12
  refine ⟨fun i => ?_, fun i => ?_, fun i => ?_, fun i => ?_⟩
  · have e := Host.reduce_andi_all _ _ _ _ _ hQ i
    exact real_of_abs_lt_inf (q i) e
  · have e := Host.reduce_andi_all _ _ _ _ _ hT i
    exact real_of_abs_lt_inf (t i) e
  · have e := Host.reduce_andi_all _ _ _ _ _ hL i
    obtain ⟨e0, e1⟩ := IntOp.andi_eq_one.1 e
    exact toNat_lt_of_range (lab i) e0 e1
  · have e := Host.reduce_andi_all _ _ _ _ _ hJ i
    obtain ⟨e0, e1⟩ := IntOp.andi_eq_one.1 e
    exact toNat_lt_of_range (jdx i) e0 e1

end Cert.PreDecode

end
-- ==== Proof.lean ====
/-
  The certificate. The kernel computes, per row i, the log-sum-exp over ALL columns k of the
  disparities |s_i - t_i·t_k| · κ, online over 8 blocks of 1024 columns, and subtracts it from the
  disparity at the row's remapped label; the reference gathers the same Gram matrix through the
  row's column remap — a permutation of the columns — and takes a log-softmax. A log-sum-exp does
  not see a permutation of its terms, the online recurrence equals the two-pass one on finite
  entries, and dividing by the temperature c is multiplying by κ = 1/c: the two losses are one
  number (Model.lean). The frames: the reference is a straight line of host operations; the kernel
  program is host operations, one kernel region, host operations, its region launched with the one
  array two of its windows stage held half and half.
-/
import proofs.«408697_j30434138259689_1_alg».proof.Defs
import proofs.«408697_j30434138259689_1_alg».proof.Proof.Gen.Kernel
import proofs.«408697_j30434138259689_1_alg».proof.Proof.Gen.KernelIdeal
import proofs.«408697_j30434138259689_1_alg».proof.Proof.Gen.ReferenceIdeal
import proofs.«408697_j30434138259689_1_alg».proof.Proof.Gen.Pre_finite_inputs
import proofs.«408697_j30434138259689_1_alg».proof.Proof.BClaims
import proofs.«408697_j30434138259689_1_alg».proof.Proof.KAlg
import proofs.«408697_j30434138259689_1_alg».proof.Proof.RefRunThm
import proofs.«408697_j30434138259689_1_alg».proof.Proof.RefValue
import proofs.«408697_j30434138259689_1_alg».proof.Proof.PreDecode
import Idealize.ShloMosaic.PureOps.IdealRules

noncomputable section

namespace Cert.Proof

open Idealize.ShloMosaic Idealize.SL.Sem Cert.LseModel

theorem frame_p : Cert.frame_Kernel := fun m ρ _ => Cert.Kernel.Lse.frame m ρ

theorem frame_pi : Cert.frame_KernelIdeal := fun m ρ _ => Cert.KernelIdeal.Lse.frame m ρ

theorem frame_ri : Cert.frame_ReferenceIdeal := fun m ρ _ =>
  (θ_run Cert.ReferenceIdeal.defs _ _).mono (fun _ h c => (h c).2) (Cert.ReferenceIdeal.RefRunV.run_val (F := Ideal) m ρ)

/-- The one named constant: the table gives the temperature's reciprocal its exact value. -/
theorem preserves : Cert.preserves_Kernel_KernelIdeal :=
  IdealRules.named_const.statement Cert.KernelIdeal.κ "inv_temperature" .f32 0x41200000#32 ((134217728 / 13421773 : ℝ) : EReal) rfl

theorem algebraic : Cert.algebraic_KernelIdeal_ReferenceIdeal := by
  intro m ρ m' ρ' hpre hagree
  have hd := fun c => Cert.PreDecode.decode _ _ _ _ (hpre c)
  have hl : ∀ c, ∀ i, (Cert.KernelIdeal.LseHost.labA m c i).toNat < 8192 := fun c => (hd c).2.2.1
  have hj : ∀ c, ∀ i, (Cert.KernelIdeal.LseHost.jdxA m c i).toNat < 8192 := fun c => (hd c).2.2.2
  refine ⟨fun c => fun _ => lossK (Cert.KernelIdeal.LseHost.rows (Cert.KernelIdeal.LseHost.qA m c)) (Cert.KernelIdeal.LseHost.rows (Cert.KernelIdeal.LseHost.tA m c))
      (Cert.KernelIdeal.LseHost.cols (Cert.KernelIdeal.LseHost.jdxA m c) (hj c)) (Cert.KernelIdeal.LseHost.cols (Cert.KernelIdeal.LseHost.labA m c) (hl c)),
    Cert.KernelIdeal.LseValue.run_value m ρ hl hj, ?_⟩
  refine (θ_run Cert.ReferenceIdeal.defs _ _).mono (fun _ h c => ⟨(h c).1.trans ?_, (h c).2⟩)
    (Cert.ReferenceIdeal.RefRunV.run_val (F := Ideal) m' ρ')
  rw [(hagree c).1, (hagree c).2.1, (hagree c).2.2.1, (hagree c).2.2.2]
  refine (Cert.RefValue.ref_value _ _ _ _ (hl c) (hj c)).trans ?_
  funext _
  exact (model_eq _ _ _ _ (fun i d => (hd c).1 _) (fun i d => (hd c).2.1 _)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
